-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10x128 .f32) (main_arg10 : FVec F S10 .f32) (main_v33 : IVec S_ 1) : IVec S_ 1 :=
  let main_v34 : FVec F S10x128 .f32 := Host.absf main_arg9
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S2x128x128 .f32) (main_arg7 : FVec F S2x128 .f32) (main_arg8 : FVec F S2x128x128 .f32) (main_arg9 : FVec F S10x128 .f32) (main_arg10 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x128 .f32 := Host.absf main_arg6
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x128 .f32 := Host.absf main_arg8
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : FVec F S800000 .f32) (main_arg3 : IVec S50000 32) (main_arg4 : FVec F S128x128 .f32) (main_arg5 : FVec F S128 .f32) (main_arg6 : FVec F S2x128x128 .f32) (main_arg7 : FVec F S2x128 .f32) (main_arg8 : FVec F S2x128x128 .f32) (main_arg9 : FVec F S10x128 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S10x128 : Shape := ⟨2, ![10, 128]⟩
abbrev S10 : Shape := ⟨1, ![10]⟩
abbrev S1x800000 : Shape := ⟨2, ![1, 800000]⟩
abbrev S2000x128 : Shape := ⟨2, ![2000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S50000x1 : Shape := ⟨2, ![50000, 1]⟩
abbrev S32x10 : Shape := ⟨2, ![32, 10]⟩
abbrev S32x128 : Shape := ⟨2, ![32, 128]⟩
abbrev S2000x1 : Shape := ⟨2, ![2000, 1]⟩
abbrev S32x1 : Shape := ⟨2, ![32, 1]⟩
abbrev S1x32 : Shape := ⟨2, ![1, 32]⟩
abbrev S2000x32 : Shape := ⟨2, ![2000, 32]⟩
abbrev S128x10 : Shape := ⟨2, ![128, 10]⟩
abbrev S1x10 : Shape := ⟨2, ![1, 10]⟩

abbrev nBuf : Space → Nat
  | .hbm => 65
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S2x128x128, .f32⟩
  | .hbm, ⟨7, _⟩ => ⟨S2x128, .f32⟩
  | .hbm, ⟨8, _⟩ => ⟨S2x128x128, .f32⟩
  | .hbm, ⟨9, _⟩ => ⟨S10x128, .f32⟩
  | .hbm, ⟨10, _⟩ => ⟨S10, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S1x128x128, .f32⟩
  | .hbm, ⟨33, _⟩ => ⟨S128x128, .f32⟩
  | .hbm, ⟨34, _⟩ => ⟨S1x128, .f32⟩
  | .hbm, ⟨35, _⟩ => ⟨S128, .f32⟩
  | .hbm, ⟨36, _⟩ => ⟨S1x128x128, .f32⟩
  | .hbm, ⟨37, _⟩ => ⟨S128x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x1, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S1x128x128, .f32⟩
  | .hbm, ⟨56, _⟩ => ⟨S128x128, .f32⟩
  | .hbm, ⟨57, _⟩ => ⟨S1x128, .f32⟩
  | .hbm, ⟨58, _⟩ => ⟨S128, .f32⟩
  | .hbm, ⟨59, _⟩ => ⟨S1x128x128, .f32⟩
  | .hbm, ⟨60, _⟩ => ⟨S128x128, .f32⟩
  | .hbm, ⟨61, _⟩ => ⟨S50000x128, .f32⟩
  | .hbm, ⟨62, _⟩ => ⟨S50000x1, .i32⟩
  | .hbm, ⟨63, _⟩ => ⟨S32x10, .f32⟩
  | .hbm, ⟨64, _⟩ => ⟨S32x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .i32⟩
  | .local _ .vmem, ⟨27, _⟩ => ⟨S2000x1, .i32⟩
  | .local _ .vmem, ⟨28, _⟩ => ⟨S10x128, .f32⟩
  | .local _ .vmem, ⟨29, _⟩ => ⟨S10, .f32⟩
  | .local _ .vmem, ⟨30, _⟩ => ⟨S32x10, .f32⟩
  | .local _ .vmem, ⟨31, _⟩ => ⟨S32x128, .f32⟩
  | .local _ .vmem, ⟨32, _⟩ => ⟨S32x128, .f32⟩
  | .local _ .vmem, ⟨33, _⟩ => ⟨S32x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46_0 : Ref sig .tc := ⟨.hbm, 63, rfl⟩
abbrev main_v46_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_scratch0 : Ref sig .tc := ⟨.vmem, 32, rfl⟩
abbrev cc3_scratch1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_14 : BitVec 32 := 0#32
  let v30 : BitVec 1 := Scalar.cmpi .ne v29 c0_i32_14
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S2000x128_S2000x128 : S2000x128.ShapeCasts S2000x128
  shapeCasts_S128x128_S128x128 : S128x128.ShapeCasts S128x128
  shapeCasts_S128_S128 : S128.ShapeCasts S128
  slices_S2x128x128_S1x128x128_1_0_0 : S2x128x128.Slices ![1, 0, 0] S1x128x128
  slices_S2x128_S1x128_1_0 : S2x128.Slices ![1, 0] S1x128
  shapeCasts_S50000_S50000x1 : S50000.ShapeCasts S50000x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x32_d1_w32 : S1x32.Iotas .tc 32 [1]
  broadcasts_S2000x1_S2000x32 : S2000x1.Broadcasts S2000x32
  broadcasts_S1x32_S2000x32 : S1x32.Broadcasts S2000x32
  natLt_1_32 : 1 < 32
  broadcasts_S32x1_S32x128 : S32x1.Broadcasts S32x128
  inb_S10x128_S10x128_0_0 : ∀ a, (![0, 0] : Fin 2 → Nat) a + S10x128.size a ≤ S10x128.size a
  h_S10x128 : 0 < S10x128.numel
  transposes_S10x128_p1_0_S128x10 : S10x128.Transposes [1, 0] S128x10
  inb_S10_S10_0 : ∀ a, (![0] : Fin 1 → Nat) a + S10.size a ≤ S10.size a
  h_S10 : 0 < S10.numel
  shapeCasts_S10_S1x10 : S10.ShapeCasts S1x10
  broadcasts_S1x10_S32x10 : S1x10.Broadcasts S32x10
  inb_S32x10_S32x10_0_0 : ∀ a, (![0, 0] : Fin 2 → Nat) a + S32x10.size a ≤ S32x10.size a
  h_S32x10 : 0 < S32x10.numel
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x32_S2000x128_S32x128_0_0_1_1_n_n_wf : DotDims.WF S2000x32 S2000x128 S32x128 [0] [0] [1] [1] [] []
  dot_S2000x32_S2000x1_S32x1_0_0_1_1_n_n_wf : DotDims.WF S2000x32 S2000x1 S32x1 [0] [0] [1] [1] [] []
  dot_S32x128_S128x10_S32x10_1_0_0_1_n_n_wf : DotDims.WF S32x128 S128x10 S32x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10x128.size a ≤ S10x128.size a
  hwx3_2 : ∀ i : grid3.Coords, EltTy.bits .f32 = 32 ∨ (Rect.block (s := S10x128) S10x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10.size a ≤ S10.size a
  hwx3_3 : ∀ i : grid3.Coords, EltTy.bits .f32 = 32 ∨ (Rect.block (s := S10) S10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x10.size a ≤ S32x10.size a
  hwx3_4 : ∀ i : grid3.Coords, EltTy.bits .f32 = 32 ∨ (Rect.block (s := S32x10) S32x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x128.size a ≤ S32x128.size a
  hwx3_5 : ∀ i : grid3.Coords, EltTy.bits .f32 = 32 ∨ (Rect.block (s := S32x128) S32x128.size (cc3_transform_5 i) (hinb3_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x32_S2000x128_S32x128_0_0_1_1_n_n : DotDims S2000x32 S2000x128 S32x128 where
  lhsContracting := [0]
  rhsContracting := [0]
  lhsNonContracting := [1]
  rhsNonContracting := [1]
  lhsBatch := []
  rhsBatch := []
  wf := dot_S2000x32_S2000x128_S32x128_0_0_1_1_n_n_wf
def dot_S2000x32_S2000x1_S32x1_0_0_1_1_n_n : DotDims S2000x32 S2000x1 S32x1 where
  lhsContracting := [0]
  rhsContracting := [0]
  lhsNonContracting := [1]
  rhsNonContracting := [1]
  lhsBatch := []
  rhsBatch := []
  wf := dot_S2000x32_S2000x1_S32x1_0_0_1_1_n_n_wf
def dot_S32x128_S128x10_S32x10_1_0_0_1_n_n : DotDims S32x128 S128x10 S32x10 where
  lhsContracting := [1]
  rhsContracting := [0]
  lhsNonContracting := [0]
  rhsNonContracting := [1]
  lhsBatch := []
  rhsBatch := []
  wf := dot_S32x128_S128x10_S32x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S10x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46_0) S32x10.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46_1) S32x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun i => !(k3_cond2 i == 1#1) | 5 => fun i => !(k3_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S10x128 : Shape := ⟨2, ![10, 128]⟩
abbrev S10 : Shape := ⟨1, ![10]⟩
abbrev S1x800000 : Shape := ⟨2, ![1, 800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S32x128 : Shape := ⟨2, ![32, 128]⟩
abbrev S50000x1 : Shape := ⟨2, ![50000, 1]⟩
abbrev S32 : Shape := ⟨1, ![32]⟩
abbrev S32x1 : Shape := ⟨2, ![32, 1]⟩
abbrev S128x10 : Shape := ⟨2, ![128, 10]⟩
abbrev S32x10 : Shape := ⟨2, ![32, 10]⟩
abbrev S1x10 : Shape := ⟨2, ![1, 10]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S2x128x128, .f32⟩
  | .hbm, ⟨7, _⟩ => ⟨S2x128, .f32⟩
  | .hbm, ⟨8, _⟩ => ⟨S2x128x128, .f32⟩
  | .hbm, ⟨9, _⟩ => ⟨S10x128, .f32⟩
  | .hbm, ⟨10, _⟩ => ⟨S10, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S128x128, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x1, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S1x128x128, .f32⟩
  | .hbm, ⟨37, _⟩ => ⟨S128x128, .f32⟩
  | .hbm, ⟨38, _⟩ => ⟨S128x128, .f32⟩
  | .hbm, ⟨39, _⟩ => ⟨S50000x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S1x128x128, .f32⟩
  | .hbm, ⟨46, _⟩ => ⟨S128x128, .f32⟩
  | .hbm, ⟨47, _⟩ => ⟨S128x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x1, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S128x128, .f32⟩
  | .hbm, ⟨72, _⟩ => ⟨S50000x128, .f32⟩
  | .hbm, ⟨73, _⟩ => ⟨S1x128, .f32⟩
  | .hbm, ⟨74, _⟩ => ⟨S128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S128x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S32x128, .f32⟩
  | .hbm, ⟨88, _⟩ => ⟨S50000x1, .i32⟩
  | .hbm, ⟨89, _⟩ => ⟨S32x128, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S32, .f32⟩
  | .hbm, ⟨94, _⟩ => ⟨S50000x1, .i32⟩
  | .hbm, ⟨95, _⟩ => ⟨S32, .f32⟩
  | .hbm, ⟨96, _⟩ => ⟨S_, .f32⟩
  | .hbm, ⟨97, _⟩ => ⟨S32, .f32⟩
  | .hbm, ⟨98, _⟩ => ⟨S32, .f32⟩
  | .hbm, ⟨99, _⟩ => ⟨S32x1, .f32⟩
  | .hbm, ⟨100, _⟩ => ⟨S32x128, .f32⟩
  | .hbm, ⟨101, _⟩ => ⟨S32x128, .f32⟩
  | .hbm, ⟨102, _⟩ => ⟨S128x10, .f32⟩
  | .hbm, ⟨103, _⟩ => ⟨S32x10, .f32⟩
  | .hbm, ⟨104, _⟩ => ⟨S1x10, .f32⟩
  | .hbm, ⟨105, _⟩ => ⟨S32x10, .f32⟩
  | .hbm, ⟨106, _⟩ => ⟨S32x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_c_1 : Ref sig .tc := ⟨.hbm, 53, rfl⟩
abbrev main_v37 : Ref sig .tc := ⟨.hbm, 54, rfl⟩
abbrev main_v38 : Ref sig .tc := ⟨.hbm, 55, rfl⟩
abbrev main_c_2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call1_cst : Ref sig .tc := ⟨.hbm, 83, rfl⟩
abbrev main_call1_v0 : Ref sig .tc := ⟨.hbm, 84, rfl⟩
abbrev main_v64 : Ref sig .tc := ⟨.hbm, 85, rfl⟩
abbrev main_cst_4 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_5 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_7 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S32x128 : S_.BroadcastsInDim S32x128 (![] : Fin 0 → Fin S32x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  transposes_S10x128_S128x10_1_0 : S10x128.Transposes [1, 0] S128x10
  bcast_S10_S1x10_1 : S10.BroadcastsInDim S1x10 (![1] : Fin 1 → Fin S1x10.rank)
  bcast_S1x10_S32x10_0_1 : S1x10.BroadcastsInDim S32x10 (![0, 1] : Fin 2 → Fin S32x10.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S32x128_S50000x1_S50000x128_1_0_0_1_wf : ScatterDims.WF S32x128 S50000x1 S50000x128 [1] [0] [0] 1
  scatter_S32_S50000x1_S50000_n_0_0_1_wf : ScatterDims.WF S32 S50000x1 S50000 [] [0] [0] 1
  dot_S32x128_S128x10_S32x10_1_0_0_1_n_n_wf : DotDims.WF S32x128 S128x10 S32x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def dot_S32x128_S128x10_S32x10_1_0_0_1_n_n : DotDims S32x128 S128x10 S32x10 where
  lhsContracting := [1]
  rhsContracting := [0]
  lhsNonContracting := [0]
  rhsNonContracting := [1]
  lhsBatch := []
  rhsBatch := []
  wf := dot_S32x128_S128x10_S32x10_1_0_0_1_n_n_wf

class Facts : Prop extends Facts₀ where

variable [Facts]
-- ==== Proof.KbDefs.lean ====
/-
  What each of the four pallas_calls of the program leaves, as data for the pipeline rule: for every window the
  contents of its staging buffer after the body at a grid point, as a function of the blocks the point reads.

  * Call 0 (the input projection): the output block is the body's one payload of the three input blocks.
  * Calls 1 and 2 (the graph-convolution combine): likewise, of the five input blocks.
  * Call 3 (the mean pool and the classifier head): two scratch accumulators are carried from point to point —
    reset at the first point, then at every point increased by the point's partial sums — and the two outputs
    are stored at the last point only, from the accumulators as that point leaves them.
-/
import proofs.«408128_j26749056320117_1_alg».proof.Proof.Gen.Kernel.Launch
import proofs.«408128_j26749056320117_1_alg».proof.Proof.Gen.Kernel.Skeleton
import proofs.«408128_j26749056320117_1_alg».proof.Proof.Gen.Kernel.Points
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Call 0: the input projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block: the node block times the transposed weight, plus the bias row. -/
def out0_3 (x0 : Vec F S2000x128 .f32) (x1 : Vec F S128x128 .f32) (x2 : Vec F S128 .f32) : Vec F S2000x128 .f32 :=
  k0_pay1 x0 x1 x2

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Call 1: the first combine -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block of the aggregated block `x0`, the node block `x1`, the relation weight `x2`, the relation bias `x3`
    and the root weight `x4` (the windows' order). -/
def out1_5 (x0 x1 : Vec F S2000x128 .f32) (x2 : Vec F S128x128 .f32) (x3 : Vec F S128 .f32) (x4 : Vec F S128x128 .f32) :
    Vec F S2000x128 .f32 :=
  k1_pay1 x0 x1 x2 x4 x3

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## Call 2: the second combine -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 x1 : Vec F S2000x128 .f32) (x2 : Vec F S128x128 .f32) (x3 : Vec F S128 .f32) (x4 : Vec F S128x128 .f32) :
    Vec F S2000x128 .f32 :=
  k2_pay1 x0 x1 x2 x4 x3

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-! ## Call 3: the mean pool and the classifier head -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two scratch memrefs the kernel is called with. -/
abbrev scM3_0 : Memref sig .tc .vmem S32x128 .f32 := Memref.whole cc3_scratch0
abbrev scM3_1 : Memref sig .tc .vmem S32x1 .f32 := Memref.whole cc3_scratch1

/-- What the two accumulators (the per-graph feature sums, the per-graph node counts) hold after the body at position
    `n`: at the first point the reset values increased by that point's partial sums, afterwards what the point before
    left increased by this point's. -/
def accAt3 (c : Dev nD) : (n : ℕ) → n < cfg3.N → Vec F S32x128 .f32 × Vec F S32x1 .f32
  | 0, hn => (k3_pay4 (iblk3 V c 0 ⟨0, hn⟩) (iblk3 V c 1 ⟨0, hn⟩) (k3_pay1 (F := F)),
      k3_pay5 (iblk3 V c 1 ⟨0, hn⟩) (k3_pay2 (F := F)))
  | n + 1, hn => (k3_pay4 (iblk3 V c 0 ⟨n + 1, hn⟩) (iblk3 V c 1 ⟨n + 1, hn⟩) (accAt3 c n (Nat.lt_of_succ_lt hn)).1,
      k3_pay5 (iblk3 V c 1 ⟨n + 1, hn⟩) (accAt3 c n (Nat.lt_of_succ_lt hn)).2)

theorem accAt3_zero (c : Dev nD) (hn : 0 < cfg3.N) :
    accAt3 V c 0 hn = (k3_pay4 (iblk3 V c 0 ⟨0, hn⟩) (iblk3 V c 1 ⟨0, hn⟩) (k3_pay1 (F := F)),
      k3_pay5 (iblk3 V c 1 ⟨0, hn⟩) (k3_pay2 (F := F))) := rfl
theorem accAt3_succ (c : Dev nD) (n : ℕ) (hn : n + 1 < cfg3.N) :
    accAt3 V c (n + 1) hn = (k3_pay4 (iblk3 V c 0 ⟨n + 1, hn⟩) (iblk3 V c 1 ⟨n + 1, hn⟩) (accAt3 V c n (Nat.lt_of_succ_lt hn)).1,
      k3_pay5 (iblk3 V c 1 ⟨n + 1, hn⟩) (accAt3 V c n (Nat.lt_of_succ_lt hn)).2) := rfl

/-- The logits' block as the last point stores it, of the accumulators after that point and the classifier's blocks. -/
def out3_4 (c : Dev nD) (t : Fin cfg3.N) : Vec F S32x10 .f32 :=
  k3_pay7 (accAt3 V c t.val t.isLt).1 (accAt3 V c t.val t.isLt).2 (iblk3 V c 2 t) (iblk3 V c 3 t)
/-- The pooled features' block as the last point stores it. -/
def out3_5 (c : Dev nD) (t : Fin cfg3.N) : Vec F S32x128 .f32 :=
  k3_pay6 (accAt3 V c t.val t.isLt).1 (accAt3 V c t.val t.isLt).2

/-- The region invariant before position `n`: before the first point the scoped rest with every scratch at anything;
    afterwards the two accumulators at what the point before left, beside the other scoped buffers, unopened, and the
    generator register. -/
def PhiS3 (c : Dev nD) : (n : ℕ) → n ≤ cfg3.N → sProp 𝕄
  | 0, _ => Pipeline.ΦA spec3 c
  | n + 1, hn => iprop(owns (c : Thread nD τ) scM3_0 fullShare (accAt3 V c n hn).1
      ∗ owns (c : Thread nD τ) scM3_1 fullShare (accAt3 V c n hn).2
      ∗ Pipeline.scopedRestBut (Ix := Unit) (Name := ℕ) (U := UR sig nD τ) (Lvl := ℕ) (Val := Elt F) spec3 c [cc3_scratch0, cc3_scratch1]
      ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(owns (c : Thread nD τ) scM3_0 fullShare (accAt3 V c n hn).1
      ∗ owns (c : Thread nD τ) scM3_1 fullShare (accAt3 V c n hn).2
      ∗ Pipeline.scopedRestBut (Ix := Unit) (Name := ℕ) (U := UR sig nD τ) (Lvl := ℕ) (Val := Elt F) spec3 c [cc3_scratch0, cc3_scratch1]
      ∗ (∃ r, prngReg c r)) := rfl
theorem PhiS3_pos (c : Dev nD) (n : ℕ) (h : n ≤ cfg3.N) (hz : n ≠ 0) :
    PhiS3 V c n h = iprop(owns (c : Thread nD τ) scM3_0 fullShare (accAt3 V c (n - 1) (by omega)).1
      ∗ owns (c : Thread nD τ) scM3_1 fullShare (accAt3 V c (n - 1) (by omega)).2
      ∗ Pipeline.scopedRestBut (Ix := Unit) (Name := ℕ) (U := UR sig nD τ) (Lvl := ℕ) (Val := Elt F) spec3 c [cc3_scratch0, cc3_scratch1]
      ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
    | ⟨5, _⟩ => out3_5 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]
theorem after3_5 (c : Dev nD) (t : Fin cfg3.N) : (dat3 V c).after 5 t = out3_5 V c t := by dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]

end Cert.Kernel.Hand

end
-- ==== Proof.KbBody0.lean ====
/-
  The body of the input projection (call 0) against its proof data. At every grid point the three input windows'
  staging buffers hold their blocks — the node block fetched there, the weight and the bias fetched at the first
  point only and not moved since, their block index being constant —, the body loads the three whole buffers and
  stores one whole block: the node block times the transposed weight plus the bias row, the body's one payload of
  the three blocks. The region invariant and what the core owes pass through the body untouched.
-/
import proofs.«408128_j26749056320117_1_alg».proof.Proof.KbDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## What the body finds in the input windows' buffers -/

/-- The node window's current buffer holds the point's node block: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight window's current buffer holds the weight at every point: fetched at the first point, and at a later
    point the block index has not moved, so what the point before left — the weight — is this point's block. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The bias window's current buffer holds the bias at every point, likewise. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's accesses: every load and the one store go through the whole buffer -/

theorem offs0_zero2 : (![0, 0] : Fin 2 → Nat) = fun _ => 0 :=
  funext fun a => by match a with | ⟨0, _⟩ => rfl | ⟨1, _⟩ => rfl

theorem offs0_zero1 : (![0] : Fin 1 → Nat) = fun _ => 0 :=
  funext fun a => by match a with | ⟨0, _⟩ => rfl

/-- The one store's rectangle holds every index of the output block. -/
theorem cover0_3 (p0 : Vec F S2000x128 .f32) (y : S2000x128.Idx) :
    ∃ pc ∈ ([⟨Rect.unit (s := S2000x128) ![0, 0] S2000x128.size inb_S2000x128_S2000x128_0_0, p0⟩] :
      List (View.Piece (Elt F) S2000x128 .f32)), y ∈ pc.1.set :=
  ⟨_, List.mem_singleton_self _, View.mem_set_unit_zero (S := S2000x128) offs0_zero2 inb_S2000x128_S2000x128_0_0 y⟩

/-- One store of the whole block, its payload taken of the three buffers loaded whole, leaves the payload of the three
    buffers' contents. -/
theorem out0_3_canon (x0 : Vec F S2000x128 .f32) (x1 : Vec F S128x128 .f32) (x2 : Vec F S128 .f32) :
    View.canon [(⟨Rect.unit (s := S2000x128) ![0, 0] S2000x128.size inb_S2000x128_S2000x128_0_0,
        k0_pay1 (View.ld x0 (Rect.unit (s := S2000x128) ![0, 0] S2000x128.size inb_S2000x128_S2000x128_0_0))
          (View.ld x1 (Rect.unit (s := S128x128) ![0, 0] S128x128.size inb_S128x128_S128x128_0_0))
          (View.ld x2 (Rect.unit (s := S128) ![0] S128.size inb_S128_S128_0))⟩ : View.Piece (Elt F) S2000x128 .f32)]
      = out0_3 x0 x1 x2 := by
  rw [View.canon_unit_zero (S := S2000x128) offs0_zero2 inb_S2000x128_S2000x128_0_0]
  rw [View.ld_unit_zero (S := S2000x128) offs0_zero2 inb_S2000x128_S2000x128_0_0,
    View.ld_unit_zero (S := S128x128) offs0_zero2 inb_S128x128_S128x128_0_0,
    View.ld_unit_zero (S := S128) offs0_zero1 inb_S128_S128_0]
  rfl

/-! ## The body's triple -/

set_option maxHeartbeats 1000000 in
/-- The kernel body on whole staging memrefs, the inputs' at read contents and the output's at anything, runs to the
    continuation holding the inputs' as they were and the output's at the payload of the inputs'. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S2000x128 .f32) (harg4 : arg4.IsWhole)
    (x0 : Vec F S2000x128 .f32) (x1 : Vec F S128x128 .f32) (x2 : Vec F S128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover0_3 _)).trans (out0_3_canon _ _ _)

/-! ## The body obligation, at a generic point -/

/-- What the body is called with at point `t`: the invariant, what the core owes, each window's current buffer at what
    it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbBody1.lean ====
/-
  The body of the first graph-convolution combine (call 1) against its proof data. At every grid point the five input
  windows' staging buffers hold their blocks — the aggregated block and the node block fetched there; the relation
  weight, the relation bias and the root weight fetched at the first point only and not moved since, their block index
  being constant —, the body loads the five whole buffers and stores one whole block: the aggregated block times the
  transposed relation weight, plus the bias row, plus the node block times the transposed root weight, clamped below at
  zero — the body's one payload of the five blocks. The region invariant and what the core owes pass through the body
  untouched.
-/
import proofs.«408128_j26749056320117_1_alg».proof.Proof.KbDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## What the body finds in the input windows' buffers -/

/-- The aggregated window's current buffer holds the point's aggregated block: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The node window's current buffer holds the point's node block: it is fetched at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The relation weight's current buffer holds the weight at every point: fetched at the first point, and at a later
    point the block index has not moved, so what the point before left — the weight — is this point's block. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The relation bias's current buffer holds the bias at every point, likewise. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The root weight's current buffer holds the root weight at every point, likewise. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's accesses: every load and the one store go through the whole buffer -/

theorem offs1_zero2 : (![0, 0] : Fin 2 → Nat) = fun _ => 0 :=
  funext fun a => by match a with | ⟨0, _⟩ => rfl | ⟨1, _⟩ => rfl

theorem offs1_zero1 : (![0] : Fin 1 → Nat) = fun _ => 0 :=
  funext fun a => by match a with | ⟨0, _⟩ => rfl

/-- The one store's rectangle holds every index of the output block. -/
theorem cover1_5 (p0 : Vec F S2000x128 .f32) (y : S2000x128.Idx) :
    ∃ pc ∈ ([⟨Rect.unit (s := S2000x128) ![0, 0] S2000x128.size inb_S2000x128_S2000x128_0_0, p0⟩] :
      List (View.Piece (Elt F) S2000x128 .f32)), y ∈ pc.1.set :=
  ⟨_, List.mem_singleton_self _, View.mem_set_unit_zero (S := S2000x128) offs1_zero2 inb_S2000x128_S2000x128_0_0 y⟩

/-- One store of the whole block, its payload taken of the five buffers loaded whole — the body reads the root weight
    (window 4) before the bias (window 3) —, leaves the payload of the five buffers' contents. -/
theorem out1_5_canon (x0 x1 : Vec F S2000x128 .f32) (x2 : Vec F S128x128 .f32) (x3 : Vec F S128 .f32)
    (x4 : Vec F S128x128 .f32) :
    View.canon [(⟨Rect.unit (s := S2000x128) ![0, 0] S2000x128.size inb_S2000x128_S2000x128_0_0,
        k1_pay1 (View.ld x0 (Rect.unit (s := S2000x128) ![0, 0] S2000x128.size inb_S2000x128_S2000x128_0_0))
          (View.ld x1 (Rect.unit (s := S2000x128) ![0, 0] S2000x128.size inb_S2000x128_S2000x128_0_0))
          (View.ld x2 (Rect.unit (s := S128x128) ![0, 0] S128x128.size inb_S128x128_S128x128_0_0))
          (View.ld x4 (Rect.unit (s := S128x128) ![0, 0] S128x128.size inb_S128x128_S128x128_0_0))
          (View.ld x3 (Rect.unit (s := S128) ![0] S128.size inb_S128_S128_0))⟩ : View.Piece (Elt F) S2000x128 .f32)]
      = out1_5 x0 x1 x2 x3 x4 := by
  rw [View.canon_unit_zero (S := S2000x128) offs1_zero2 inb_S2000x128_S2000x128_0_0]
  rw [View.ld_unit_zero (S := S2000x128) offs1_zero2 inb_S2000x128_S2000x128_0_0,
    View.ld_unit_zero (S := S2000x128) offs1_zero2 inb_S2000x128_S2000x128_0_0,
    View.ld_unit_zero (S := S128x128) offs1_zero2 inb_S128x128_S128x128_0_0,
    View.ld_unit_zero (S := S128x128) offs1_zero2 inb_S128x128_S128x128_0_0,
    View.ld_unit_zero (S := S128) offs1_zero1 inb_S128_S128_0]
  rfl

/-! ## The body's triple -/

set_option maxHeartbeats 1000000 in
/-- The kernel body on whole staging memrefs, the inputs' at read contents and the output's at anything, runs to the
    continuation holding the inputs' as they were and the output's at the payload of the inputs'. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S128x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S2000x128 .f32) (harg6 : arg6.IsWhole)
    (x0 x1 : Vec F S2000x128 .f32) (x2 : Vec F S128x128 .f32) (x3 : Vec F S128 .f32) (x4 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover1_5 _)).trans (out1_5_canon _ _ _ _ _)

/-! ## The body obligation, at a generic point -/

/-- What the body is called with at point `t`: the invariant, what the core owes, each window's current buffer at what
    it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbBody2.lean ====
/-
  The body of the second graph-convolution combine (call 2) against its proof data. At every grid point the five input
  windows' staging buffers hold their blocks — the aggregated block and the node block fetched there; the relation
  weight, the relation bias and the root weight fetched at the first point only and not moved since, their block index
  being constant —, the body loads the five whole buffers and stores one whole block: the aggregated block times the
  transposed relation weight, plus the bias row, plus the node block times the transposed root weight, clamped below at
  zero — the body's one payload of the five blocks. The region invariant and what the core owes pass through the body
  untouched.
-/
import proofs.«408128_j26749056320117_1_alg».proof.Proof.KbDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## What the body finds in the input windows' buffers -/

/-- The aggregated window's current buffer holds the point's aggregated block: it is fetched at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The node window's current buffer holds the point's node block: it is fetched at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The relation weight's current buffer holds the weight at every point: fetched at the first point, and at a later
    point the block index has not moved, so what the point before left — the weight — is this point's block. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- The relation bias's current buffer holds the bias at every point, likewise. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- The root weight's current buffer holds the root weight at every point, likewise. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body's accesses: every load and the one store go through the whole buffer -/

theorem offs2_zero2 : (![0, 0] : Fin 2 → Nat) = fun _ => 0 :=
  funext fun a => by match a with | ⟨0, _⟩ => rfl | ⟨1, _⟩ => rfl

theorem offs2_zero1 : (![0] : Fin 1 → Nat) = fun _ => 0 :=
  funext fun a => by match a with | ⟨0, _⟩ => rfl

/-- The one store's rectangle holds every index of the output block. -/
theorem cover2_5 (p0 : Vec F S2000x128 .f32) (y : S2000x128.Idx) :
    ∃ pc ∈ ([⟨Rect.unit (s := S2000x128) ![0, 0] S2000x128.size inb_S2000x128_S2000x128_0_0, p0⟩] :
      List (View.Piece (Elt F) S2000x128 .f32)), y ∈ pc.1.set :=
  ⟨_, List.mem_singleton_self _, View.mem_set_unit_zero (S := S2000x128) offs2_zero2 inb_S2000x128_S2000x128_0_0 y⟩

/-- One store of the whole block, its payload taken of the five buffers loaded whole — the body reads the root weight
    (window 4) before the bias (window 3) —, leaves the payload of the five buffers' contents. -/
theorem out2_5_canon (x0 x1 : Vec F S2000x128 .f32) (x2 : Vec F S128x128 .f32) (x3 : Vec F S128 .f32)
    (x4 : Vec F S128x128 .f32) :
    View.canon [(⟨Rect.unit (s := S2000x128) ![0, 0] S2000x128.size inb_S2000x128_S2000x128_0_0,
        k2_pay1 (View.ld x0 (Rect.unit (s := S2000x128) ![0, 0] S2000x128.size inb_S2000x128_S2000x128_0_0))
          (View.ld x1 (Rect.unit (s := S2000x128) ![0, 0] S2000x128.size inb_S2000x128_S2000x128_0_0))
          (View.ld x2 (Rect.unit (s := S128x128) ![0, 0] S128x128.size inb_S128x128_S128x128_0_0))
          (View.ld x4 (Rect.unit (s := S128x128) ![0, 0] S128x128.size inb_S128x128_S128x128_0_0))
          (View.ld x3 (Rect.unit (s := S128) ![0] S128.size inb_S128_S128_0))⟩ : View.Piece (Elt F) S2000x128 .f32)]
      = out2_5 x0 x1 x2 x3 x4 := by
  rw [View.canon_unit_zero (S := S2000x128) offs2_zero2 inb_S2000x128_S2000x128_0_0]
  rw [View.ld_unit_zero (S := S2000x128) offs2_zero2 inb_S2000x128_S2000x128_0_0,
    View.ld_unit_zero (S := S2000x128) offs2_zero2 inb_S2000x128_S2000x128_0_0,
    View.ld_unit_zero (S := S128x128) offs2_zero2 inb_S128x128_S128x128_0_0,
    View.ld_unit_zero (S := S128x128) offs2_zero2 inb_S128x128_S128x128_0_0,
    View.ld_unit_zero (S := S128) offs2_zero1 inb_S128_S128_0]
  rfl

/-! ## The body's triple -/

set_option maxHeartbeats 1000000 in
/-- The kernel body on whole staging memrefs, the inputs' at read contents and the output's at anything, runs to the
    continuation holding the inputs' as they were and the output's at the payload of the inputs'. -/
theorem sound_kernel2 (c : Dev nD) (E : Set ℕ) (i : grid2.Coords)
    (arg1 : Memref sig .tc .vmem S2000x128 .f32) (harg1 : arg1.IsWhole)
    (arg2 : Memref sig .tc .vmem S2000x128 .f32) (harg2 : arg2.IsWhole)
    (arg3 : Memref sig .tc .vmem S128x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S2000x128 .f32) (harg6 : arg6.IsWhole)
    (x0 x1 : Vec F S2000x128 .f32) (x2 : Vec F S128x128 .f32) (x3 : Vec F S128 .f32) (x4 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover2_5 _)).trans (out2_5_canon _ _ _ _ _)

/-! ## The body obligation, at a generic point -/

/-- What the body is called with at point `t`: the invariant, what the core owes, each window's current buffer at what
    it then holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KbBody3.lean ====
/-
  The body of the fourth pallas_call — the mean pool over the 32 graphs and the classifier head — against the
  pipeline's proof data for that call.

  The body keeps two accumulators in scratch memory between grid points: the per-graph feature sums and the
  per-graph node counts. At the first point it resets both to zero; at every point it adds the point's partial
  sums (the one-hot matrix of the block's graph ids, transposed, times the block of node features, respectively
  times a column of ones) to what the accumulators hold; at the last point it divides the sums by the counts
  (at least one), stores the pooled features, and stores the logits, the pooled features times the transposed
  classifier weight plus the bias. So there are three kinds of point:

  * the first point: both accumulators are reset and then updated; no output is stored;
  * a middle point: both accumulators are updated from what the point before left; no output is stored;
  * the last point: both accumulators are updated and both outputs are stored, from the accumulators as this
    point's update leaves them.

  The two conditions of the body are decided over the 25 grid points in closed form. At a point that stores no
  output the two output windows are idle and are not written back, so their staging buffers are handed back as
  found. Each case is run once over arbitrary block contents, and the obligation at a point picks the case of
  the point; the invariant carries the accumulators at the recursion's values, beside the other scoped buffers
  and the generator register, untouched.
-/
import proofs.«408128_j26749056320117_1_alg».proof.Proof.KbDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The two conditions of the body, over the grid -/

/-- The condition of the reset: the grid coordinate is zero. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the outputs' stores: the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

/-- The four input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Off the last point the two output windows are idle and are not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
/-- At the last point they are live. -/
theorem liveAt3_4 : ∀ t : Fin cfg3.N, cond3_1 (grid3.coords t) → cfg3.idle 4 (grid3.coords t) = false := by decide +kernel
theorem liveAt3_5 : ∀ t : Fin cfg3.N, cond3_1 (grid3.coords t) → cfg3.idle 5 (grid3.coords t) = false := by decide +kernel

/-! ## The input windows' staging buffers hold their blocks -/

/-- An input window's current staging buffer holds its block at every point, fetched there or not: the body
    leaves an input's buffer as found, and a window not fetched at a point has not moved. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)

/-! ## The body, case by case -/

/-- The whole-buffer rectangle's offsets are zero, in each rank. -/
theorem off2 : (![0, 0] : Fin 2 → ℕ) = fun _ => 0 := funext fun a => by fin_cases a <;> rfl
theorem off1 : (![0] : Fin 1 → ℕ) = fun _ => 0 := funext fun a => by fin_cases a <;> rfl

/-- One store through the whole-buffer rectangle covers every index. -/
theorem cover1 {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 1000000 in
/-- The FIRST point (the reset's condition holds, the outputs' does not). On whole memrefs — the node block's at
    `x0`, the graph ids' at `x1`, the accumulators at anything — the body runs to the continuation holding the two
    blocks as they were and the accumulators at the reset values increased by the point's partial sums. It touches
    nothing else. -/
theorem run3_A (c : Dev nD) (i : grid3.Coords)
    (arg1 : Memref sig .tc .vmem S2000x128 .f32) (harg1 : arg1.IsWhole) (arg2 : Memref sig .tc .vmem S2000x1 .i32) (harg2 : arg2.IsWhole)
    (arg3 : Memref sig .tc .vmem S10x128 .f32) (harg3 : arg3.IsWhole) (arg4 : Memref sig .tc .vmem S10 .f32) (harg4 : arg4.IsWhole)
    (arg5 : Memref sig .tc .vmem S32x10 .f32) (harg5 : arg5.IsWhole) (arg6 : Memref sig .tc .vmem S32x128 .f32) (harg6 : arg6.IsWhole)
    (arg7 : Memref sig .tc .vmem S32x128 .f32) (harg7 : arg7.IsWhole) (arg8 : Memref sig .tc .vmem S32x1 .f32) (harg8 : arg8.IsWhole)
    (hc0 : cond3_0 i) (hc1 : ¬cond3_1 i)
    (x0 : Vec F S2000x128 .f32) (x1 : Vec F S2000x1 .i32)
    (E : Set ℕ) (K : PUnit → sProp 𝕄) :
    iprop(owns (c : Thread nD τ) arg1 fullShare x0 ∗ owns (c : Thread nD τ) arg2 fullShare x1
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg7 fullShare (k3_pay4 x0 x1 (k3_pay1 (F := F)))
            ∗ owns (c : Thread nD τ) arg8 fullShare (k3_pay5 x1 (k3_pay2 (F := F)))) -∗ K ⟨⟩))
      ⊢ wp frame (wpE (defs₀ (F := F)) Variants.none c none) E
          (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%d0, %g0, -, HS0⟩, ⟨%d1, %g1, -, HS1⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    sl_unfold_words
    rw [View.read_writes_eq_canon _ _ _ (cover1 off2 _ _ _), View.canon_cons_unit_zero (S := S32x128) off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]
  · iexists _; isplitr
    swap; · iexact HS1
    ipureintro
    sl_unfold_words
    rw [View.read_writes_eq_canon _ _ _ (cover1 off2 _ _ _), View.canon_cons_unit_zero (S := S32x1) off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]

set_option maxHeartbeats 1000000 in
/-- A MIDDLE point (neither condition holds). On whole memrefs — the node block's at `x0`, the graph ids' at `x1`,
    the accumulators at `s0`, `s1` — the body runs to the continuation holding the two blocks as they were and
    the accumulators increased by the point's partial sums. It touches nothing else. -/
theorem run3_B (c : Dev nD) (i : grid3.Coords)
    (arg1 : Memref sig .tc .vmem S2000x128 .f32) (harg1 : arg1.IsWhole) (arg2 : Memref sig .tc .vmem S2000x1 .i32) (harg2 : arg2.IsWhole)
    (arg3 : Memref sig .tc .vmem S10x128 .f32) (harg3 : arg3.IsWhole) (arg4 : Memref sig .tc .vmem S10 .f32) (harg4 : arg4.IsWhole)
    (arg5 : Memref sig .tc .vmem S32x10 .f32) (harg5 : arg5.IsWhole) (arg6 : Memref sig .tc .vmem S32x128 .f32) (harg6 : arg6.IsWhole)
    (arg7 : Memref sig .tc .vmem S32x128 .f32) (harg7 : arg7.IsWhole) (arg8 : Memref sig .tc .vmem S32x1 .f32) (harg8 : arg8.IsWhole)
    (hc0 : ¬cond3_0 i) (hc1 : ¬cond3_1 i)
    (x0 : Vec F S2000x128 .f32) (x1 : Vec F S2000x1 .i32) (s0 : Vec F S32x128 .f32) (s1 : Vec F S32x1 .f32)
    (E : Set ℕ) (K : PUnit → sProp 𝕄) :
    iprop(owns (c : Thread nD τ) arg1 fullShare x0 ∗ owns (c : Thread nD τ) arg2 fullShare x1
        ∗ owns (c : Thread nD τ) arg7 fullShare s0 ∗ owns (c : Thread nD τ) arg8 fullShare s1
        ∗ (iprop(owns (c : Thread nD τ) arg1 fullShare x0 ∗ owns (c : Thread nD τ) arg2 fullShare x1
            ∗ owns (c : Thread nD τ) arg7 fullShare (k3_pay4 x0 x1 s0) ∗ owns (c : Thread nD τ) arg8 fullShare (k3_pay5 x1 s1)) -∗ K ⟨⟩))
      ⊢ wp frame (wpE (defs₀ (F := F)) Variants.none c none) E
          (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%g0, %hg0, HS0⟩, ⟨%g1, %hg1, HS1⟩, Hk⟩
  subst hf0 hf1 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2]
  · iexists _; isplitr
    swap; · iexact HS1
    ipureintro
    rw [View.read_writes_eq_canon _ _ _ (cover1 off2 _ _ _), View.canon_unit_zero off2]
    simp only [View.readAt_eq_ld, View.ld_unit_zero (S := S2000x1) off2, View.ld_unit_zero (S := S32x1) off2]

set_option maxHeartbeats 1000000 in
/-- The LAST point (the outputs' condition holds, the reset's does not). On whole memrefs — the node block's at
    `x0`, the graph ids' at `x1`, the classifier weight's at `x2`, its bias's at `x3`, the outputs' at anything, the
    accumulators at `s0`, `s1` — the body runs to the continuation holding the four input blocks as they were, the
    accumulators increased by the point's partial sums, and the two outputs stored from the accumulators so
    increased: the pooled features, and the logits. -/
theorem run3_C (c : Dev nD) (i : grid3.Coords)
    (arg1 : Memref sig .tc .vmem S2000x128 .f32) (harg1 : arg1.IsWhole) (arg2 : Memref sig .tc .vmem S2000x1 .i32) (harg2 : arg2.IsWhole)
    (arg3 : Memref sig .tc .vmem S10x128 .f32) (harg3 : arg3.IsWhole) (arg4 : Memref sig .tc .vmem S10 .f32) (harg4 : arg4.IsWhole)
    (arg5 : Memref sig .tc .vmem S32x10 .f32) (harg5 : arg5.IsWhole) (arg6 : Memref sig .tc .vmem S32x128 .f32) (harg6 : arg6.IsWhole)
    (arg7 : Memref sig .tc .vmem S32x128 .f32) (harg7 : arg7.IsWhole) (arg8 : Memref sig .tc .vmem S32x1 .f32) (harg8 : arg8.IsWhole)
    (hc0 : ¬cond3_0 i) (hc1 : cond3_1 i)
    (x0 : Vec F S2000x128 .f32) (x1 : Vec F S2000x1 .i32) (x2 : Vec F S10x128 .f32) (x3 : Vec F S10 .f32)
    (s0 : Vec F S32x128 .f32) (s1 : Vec F S32x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k3_pay7 (k3_pay4 x0 x1 s0) (k3_pay5 x1 s1) x2 x3)
            ∗ owns (c : Thread nD τ) arg6 fullShare (k3_pay6 (k3_pay4 x0 x1 s0) (k3_pay5 x1 s1))
            ∗ owns (c : Thread nD τ) arg7 fullShare (k3_pay4 x0 x1 s0) ∗ owns (c : Thread nD τ) arg8 fullShare (k3_pay5 x1 s1)) -∗ K ⟨⟩))
      ⊢ wp frame (wpE (defs₀ (F := F)) Variants.none c none) E
          (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩,
    ⟨%g0, %hg0, HS0⟩, ⟨%g1, %hg1, HS1⟩, Hk⟩
  subst hf0 hf1 hf2 hf3 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]
  isplitl [H5]
  · iexists _; isplitr
    swap; · iexact H5
    ipureintro
    sl_unfold_words
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]
  isplitl [HS0]
  · iexists _; isplitr
    swap; · iexact HS0
    ipureintro
    sl_unfold_words
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]
  · iexists _; isplitr
    swap; · iexact HS1
    ipureintro
    sl_unfold_words
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]

/-! ## The accumulators at a point, by the kind of point -/

/-- At the first point: the reset values increased by the point's partial sums. -/
theorem accAt3_first (c : Dev nD) (t : Fin cfg3.N) (h0 : t.val = 0) :
    accAt3 V c t.val t.isLt = (k3_pay4 (iblk3 V c 0 t) (iblk3 V c 1 t) (k3_pay1 (F := F)),
      k3_pay5 (iblk3 V c 1 t) (k3_pay2 (F := F))) := by
  obtain ⟨n, hn⟩ := t
  cases n with
  | zero => exact rfl
  | succ n => exact absurd h0 (Nat.succ_ne_zero n)

/-- At a later point: what the point before left, increased by this point's partial sums. -/
theorem accAt3_later (c : Dev nD) (t : Fin cfg3.N) (h0 : t.val ≠ 0) :
    accAt3 V c t.val t.isLt
      = (k3_pay4 (iblk3 V c 0 t) (iblk3 V c 1 t) (accAt3 V c (t.val - 1) (Nat.lt_of_le_of_lt (Nat.sub_le _ _) t.isLt)).1,
        k3_pay5 (iblk3 V c 1 t) (accAt3 V c (t.val - 1) (Nat.lt_of_le_of_lt (Nat.sub_le _ _) t.isLt)).2) := by
  obtain ⟨n, hn⟩ := t
  cases n with
  | zero => exact absurd rfl h0
  | succ n => exact rfl

/-! ## The invariant before the first point -/

/-- What the launch hands the region, with the two accumulators as memrefs owned at some contents, the other
    scoped buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [scM3_0, scM3_1, owns_whole]; try rfl

/-! ## The body obligation, at a generic point -/

/-- Each window's current staging memref at point `t`, as the pipeline passes it to the body, and its wholeness. -/
abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S10 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S32x10 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S32x128 .f32 := win3_5.stage (cfg3.slots t 5)
abbrev hs3_5 (t : Fin cfg3.N) : (ms3_5 t).IsWhole := hstage3_5 ((cfg3.slots t 5).cast nbuf3_5)

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point. The inputs' memrefs hold their blocks; the closed forms of the two conditions say which
    kind of point this is, so that kind's run applies. The invariant hands the body the accumulators — at anything
    at the first point, at what the point before left afterwards — and takes them back at this point's values; the
    other scoped buffers, the generator register and what the core owes pass through untouched. Off the last point
    the outputs' buffers are handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h1 : t.val = 24
  · have h0 : t.val ≠ 0 := by omega
    have hc0 : ¬cond3_0 (grid3.coords t) := fun h => h0 ((hcond3_0 t).mp h)
    have hc1 : cond3_1 (grid3.coords t) := (hcond3_1 t).mpr h1
    rw [show (dat3 V c).leavesExact 4 t = owns (c : Thread nD τ) (ms3_4 t) fullShare ((dat3 V c).after 4 t) from by
      unfold Dat.leavesExact; rw [liveAt3_4 t hc1], after3_4]
    rw [show (dat3 V c).leavesExact 5 t = owns (c : Thread nD τ) (ms3_5 t) fullShare ((dat3 V c).after 5 t) from by
      unfold Dat.leavesExact; rw [liveAt3_5 t hc1], after3_5]
    unfold out3_4 out3_5
    rw [accAt3_later V c t h0]; dsimp only
    rw [PhiS3_castSucc V c t, PhiS3_pos V c _ _ h0]
    iintro ⟨⟨HS0, HS1, HR, Hg⟩, Ho, ⟨%d0, H0⟩, ⟨%d1, H1⟩, ⟨%d2, H2⟩, ⟨%d3, H3⟩, ⟨%d4, H4⟩, ⟨%d5, H5⟩⟩
    iapply (run3_C c (grid3.coords t) (ms3_0 t) (hs3_0 t) (ms3_1 t) (hs3_1 t) (ms3_2 t) (hs3_2 t) (ms3_3 t) (hs3_3 t)
      (ms3_4 t) (hs3_4 t) (ms3_5 t) (hs3_5 t) scM3_0 (Memref.isWhole_whole _) scM3_1 (Memref.isWhole_whole _) hc0 hc1
      (iblk3 V c 0 t) (iblk3 V c 1 t) (iblk3 V c 2 t) (iblk3 V c 3 t)
      (accAt3 V c (t.val - 1) (Nat.lt_of_le_of_lt (Nat.sub_le _ _) t.isLt)).1
      (accAt3 V c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond3_1 (grid3.coords t) := fun h => h1 ((hcond3_1 t).mp h)
    rw [Dat.leavesExact_idle (dat3 V c) 4 t (idleAt3_4 t hc1) (noFlush3_4 t hc1)]
    rw [Dat.leavesExact_idle (dat3 V c) 5 t (idleAt3_5 t hc1) (noFlush3_5 t hc1)]
    by_cases h0 : t.val = 0
    · have hc0 : cond3_0 (grid3.coords t) := (hcond3_0 t).mpr h0
      rw [accAt3_first V c t h0]; dsimp only
      rw [PhiS3_castSucc V c t, PhiS3_zero V c _ _ h0, PhiA3_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (run3_A c (grid3.coords t) (ms3_0 t) (hs3_0 t) (ms3_1 t) (hs3_1 t) (ms3_2 t) (hs3_2 t) (ms3_3 t) (hs3_3 t)
        (ms3_4 t) (hs3_4 t) (ms3_5 t) (hs3_5 t) scM3_0 (Memref.isWhole_whole _) scM3_1 (Memref.isWhole_whole _) hc0 hc1
        (iblk3 V c 0 t) (iblk3 V c 1 t) Set.univ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have hc0 : ¬cond3_0 (grid3.coords t) := fun h => h0 ((hcond3_0 t).mp h)
      rw [accAt3_later V c t h0]; dsimp only
      rw [PhiS3_castSucc V c t, PhiS3_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply (run3_B c (grid3.coords t) (ms3_0 t) (hs3_0 t) (ms3_1 t) (hs3_1 t) (ms3_2 t) (hs3_2 t) (ms3_3 t) (hs3_3 t)
        (ms3_4 t) (hs3_4 t) (ms3_5 t) (hs3_5 t) scM3_0 (Memref.isWhole_whole _) scM3_1 (Memref.isWhole_whole _) hc0 hc1
        (iblk3 V c 0 t) (iblk3 V c 1 t)
        (accAt3 V c (t.val - 1) (Nat.lt_of_le_of_lt (Nat.sub_le _ _) t.isLt)).1
        (accAt3 V c (t.val - 1) (Nat.lt_of_le_of_lt (Nat.sub_le _ _) t.isLt)).2 Set.univ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The pipeline's body obligation for the call, at every point. -/
theorem body_obligation3 (c : Dev nD) : BodyObligation (dat3 (F := F) V c) (defs₀ (F := F)) Variants.none () Set.univ := fun t => by
  rw [bigSep_W3, bigSep_W3]
  exact sound_body3 V c t

/-! ## The two ends of the invariant -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back: the accumulators' named contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 25 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨HS0, HS1, HR, Hg⟩
  isplitl [HS0 HS1 HR]
  · isplitl [HS0 HS1]
    · isplitl [HS0]
      · iexists _; iexact HS0
      iexists _; iexact HS1
    iexact HR
  iexact Hg

end Cert.Kernel.Hand

end
-- ==== Proof.KbRun.lean ====
/-
  The run of @main. The program is four stretches of host operations alternating with four pallas_calls. The
  buffers' contents at each of the nine boundaries are a fold from the launch memory: a host stretch applies its
  operations; a call leaves its windows' arrays at what the write-backs of all its grid points give (an input's
  array as it was entered) and every other buffer as entered. Over the thread state "every unscoped buffer at the
  boundary's contents, the generator register at some state, nothing owed" each stretch is a host segment and each
  call a region of its pipeline, at the proof data read at that call's entry contents. The launch over these eight
  segments shows that every weakly fair execution terminates and that in every final memory EVERY unscoped buffer
  holds the last boundary's contents; read at the eleven arguments, which no stretch writes and which the calls only
  read, this is the frame claim: each argument ends as launched.
-/
import proofs.«408128_j26749056320117_1_alg».proof.Proof.KbDefs
import proofs.«408128_j26749056320117_1_alg».proof.Proof.KbBody0
import proofs.«408128_j26749056320117_1_alg».proof.Proof.KbBody1
import proofs.«408128_j26749056320117_1_alg».proof.Proof.KbBody2
import proofs.«408128_j26749056320117_1_alg».proof.Proof.KbBody3
import proofs.«408128_j26749056320117_1_alg».proof.Proof.Gen.Kernel.Launch
import proofs.«408128_j26749056320117_1_alg».proof.Proof.Gen.Kernel.Points
import proofs.«408128_j26749056320117_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 : Dev nD → Valuation τ sig (Elt F) := fun c b => (s₀ m ρ).mem ((c : Dev nD), b)

/-- After the host stretch `hostOps0`: what call 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- The stretch leaves every buffer it does not write as it found it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- When call 0 returns: its windows' arrays at what the write-backs of all its grid points leave (an input's
    array as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At the return each of the call's arrays holds what its pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what call 1 is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- The stretch leaves every buffer it does not write as it found it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- When call 1 returns: its windows' arrays at what the write-backs of all its grid points leave (an input's
    array as entered), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At the return each of the call's arrays holds what its pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what call 2 is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- The stretch leaves every buffer it does not write as it found it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- When call 2 returns: its windows' arrays at what the write-backs of all its grid points leave (an input's
    array as entered), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- At the return each of the call's arrays holds what its pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what call 3 is entered from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- The stretch leaves every buffer it does not write as it found it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- When call 3 returns: its windows' arrays at what the write-backs of all its grid points leave (an input's
    array as entered), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
/-- At the return each of the call's arrays holds what its pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched

No host operation writes an argument; calls 1 and 2 have no argument among their windows; call 0 reads arguments 0, 4
and 5 and call 3 arguments 9 and 10 through input windows, whose arrays are never written back. So the fold at an
argument's buffer walks back to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := W1_of m ρ c main_arg4 (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := W1_of m ρ c main_arg5 (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := (W8_arr m ρ c 2).trans (((dat3 (V7 m ρ) c).arrAt_in 2 rfl _).trans (A_eq3 (V7 m ρ) c 2))
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := (W8_arr m ρ c 3).trans (((dat3 (V7 m ρ) c).arrAt_in 3 rfl _).trans (A_eq3 (V7 m ρ) c 3))
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-! ## The proof data family and the thread state -/

/-- The prefetched tables' admissible contents: no pipeline has a table. -/
abbrev adm : (p : Fin 4) → (pcfgs (F := F) p).Adm := fun p => (cfgs p).toPCfg_adm
/-- Every pipeline's proof data, each at its call's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at the stretch applied to `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W8`, the generator
    register at some state. -/
abbrev Tₙ (c : Dev nD) : sProp 𝕄 := iprop(StableHlo.held (c : Thread nD τ) (Pipeline.ucRefs τ sig) (W8 m ρ c) ∗ ∃ r, prngReg c r)

/-! ## The calls as segments -/

-- a library lemma stated over the pinned configuration unifies with the printed one only when unification may unfold
-- plain definitions in a metavariable's type
set_option backward.isDefEq.respectTransparency.types false in
/-- Call 0 over the thread state: entered from every unscoped buffer at `W1`, left at `W2`. Its windows' arrays
    are split out of the unscoped buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 over the thread state: entered from every unscoped buffer at `W3`, left at `W4`. Its windows' arrays
    are split out of the unscoped buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 over the thread state: entered from every unscoped buffer at `W5`, left at `W6`. Its windows' arrays
    are split out of the unscoped buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 3 over the thread state: entered from every unscoped buffer at `W7`, left at `W8`. Its windows' arrays
    are split out of the unscoped buffers at entry and put back at the exit contents; the generator register goes into
    the region's invariant and comes back; nothing is owed; the kernel has no semaphore of its own.
    The invariant here is the carried one: its first instance is made from the scoped rest and its last gives it back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    have h := hin3 (V7 m ρ) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dat3 (V7 m ρ) c).Φ (Fin.last cfg3.N) from rfl]
    have h := hout3 (V7 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every weakly fair execution of @main terminates and every final memory holds each argument as launched:
    the run's post read at the eleven arguments. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c)⟩) (run_all m ρ)

end Cert.Kernel.Hand

end
-- ==== Proof.KiDefs.lean ====
/-
  What each of the four pallas_calls of the program leaves, as data for the pipeline rule: for every window the
  contents of its staging buffer after the body at a grid point, as a function of the blocks the point reads.

  * Call 0 (the input projection): the output block is the body's one payload of the three input blocks.
  * Calls 1 and 2 (the graph-convolution combine): likewise, of the five input blocks.
  * Call 3 (the mean pool and the classifier head): two scratch accumulators are carried from point to point —
    reset at the first point, then at every point increased by the point's partial sums — and the two outputs
    are stored at the last point only, from the accumulators as that point leaves them.
-/
import proofs.«408128_j26749056320117_1_alg».proof.Proof.Gen.KernelIdeal.Launch
import proofs.«408128_j26749056320117_1_alg».proof.Proof.Gen.KernelIdeal.Skeleton
import proofs.«408128_j26749056320117_1_alg».proof.Proof.Gen.KernelIdeal.Points
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Call 0: the input projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block: the node block times the transposed weight, plus the bias row. -/
def out0_3 (x0 : Vec F S2000x128 .f32) (x1 : Vec F S128x128 .f32) (x2 : Vec F S128 .f32) : Vec F S2000x128 .f32 :=
  k0_pay1 x0 x1 x2

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Call 1: the first combine -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block of the aggregated block `x0`, the node block `x1`, the relation weight `x2`, the relation bias `x3`
    and the root weight `x4` (the windows' order). -/
def out1_5 (x0 x1 : Vec F S2000x128 .f32) (x2 : Vec F S128x128 .f32) (x3 : Vec F S128 .f32) (x4 : Vec F S128x128 .f32) :
    Vec F S2000x128 .f32 :=
  k1_pay1 x0 x1 x2 x4 x3

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## Call 2: the second combine -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 x1 : Vec F S2000x128 .f32) (x2 : Vec F S128x128 .f32) (x3 : Vec F S128 .f32) (x4 : Vec F S128x128 .f32) :
    Vec F S2000x128 .f32 :=
  k2_pay1 x0 x1 x2 x4 x3

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-! ## Call 3: the mean pool and the classifier head -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two scratch memrefs the kernel is called with. -/
abbrev scM3_0 : Memref sig .tc .vmem S32x128 .f32 := Memref.whole cc3_scratch0
abbrev scM3_1 : Memref sig .tc .vmem S32x1 .f32 := Memref.whole cc3_scratch1

/-- What the two accumulators (the per-graph feature sums, the per-graph node counts) hold after the body at position
    `n`: at the first point the reset values increased by that point's partial sums, afterwards what the point before
    left increased by this point's. -/
def accAt3 (c : Dev nD) : (n : ℕ) → n < cfg3.N → Vec F S32x128 .f32 × Vec F S32x1 .f32
  | 0, hn => (k3_pay4 (iblk3 V c 0 ⟨0, hn⟩) (iblk3 V c 1 ⟨0, hn⟩) (k3_pay1 (F := F)),
      k3_pay5 (iblk3 V c 1 ⟨0, hn⟩) (k3_pay2 (F := F)))
  | n + 1, hn => (k3_pay4 (iblk3 V c 0 ⟨n + 1, hn⟩) (iblk3 V c 1 ⟨n + 1, hn⟩) (accAt3 c n (Nat.lt_of_succ_lt hn)).1,
      k3_pay5 (iblk3 V c 1 ⟨n + 1, hn⟩) (accAt3 c n (Nat.lt_of_succ_lt hn)).2)

theorem accAt3_zero (c : Dev nD) (hn : 0 < cfg3.N) :
    accAt3 V c 0 hn = (k3_pay4 (iblk3 V c 0 ⟨0, hn⟩) (iblk3 V c 1 ⟨0, hn⟩) (k3_pay1 (F := F)),
      k3_pay5 (iblk3 V c 1 ⟨0, hn⟩) (k3_pay2 (F := F))) := rfl
theorem accAt3_succ (c : Dev nD) (n : ℕ) (hn : n + 1 < cfg3.N) :
    accAt3 V c (n + 1) hn = (k3_pay4 (iblk3 V c 0 ⟨n + 1, hn⟩) (iblk3 V c 1 ⟨n + 1, hn⟩) (accAt3 V c n (Nat.lt_of_succ_lt hn)).1,
      k3_pay5 (iblk3 V c 1 ⟨n + 1, hn⟩) (accAt3 V c n (Nat.lt_of_succ_lt hn)).2) := rfl

/-- The logits' block as the last point stores it, of the accumulators after that point and the classifier's blocks. -/
def out3_4 (c : Dev nD) (t : Fin cfg3.N) : Vec F S32x10 .f32 :=
  k3_pay7 (accAt3 V c t.val t.isLt).1 (accAt3 V c t.val t.isLt).2 (iblk3 V c 2 t) (iblk3 V c 3 t)
/-- The pooled features' block as the last point stores it. -/
def out3_5 (c : Dev nD) (t : Fin cfg3.N) : Vec F S32x128 .f32 :=
  k3_pay6 (accAt3 V c t.val t.isLt).1 (accAt3 V c t.val t.isLt).2

/-- The region invariant before position `n`: before the first point the scoped rest with every scratch at anything;
    afterwards the two accumulators at what the point before left, beside the other scoped buffers, unopened, and the
    generator register. -/
def PhiS3 (c : Dev nD) : (n : ℕ) → n ≤ cfg3.N → sProp 𝕄
  | 0, _ => Pipeline.ΦA spec3 c
  | n + 1, hn => iprop(owns (c : Thread nD τ) scM3_0 fullShare (accAt3 V c n hn).1
      ∗ owns (c : Thread nD τ) scM3_1 fullShare (accAt3 V c n hn).2
      ∗ Pipeline.scopedRestBut (Ix := Unit) (Name := ℕ) (U := UR sig nD τ) (Lvl := ℕ) (Val := Elt F) spec3 c [cc3_scratch0, cc3_scratch1]
      ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(owns (c : Thread nD τ) scM3_0 fullShare (accAt3 V c n hn).1
      ∗ owns (c : Thread nD τ) scM3_1 fullShare (accAt3 V c n hn).2
      ∗ Pipeline.scopedRestBut (Ix := Unit) (Name := ℕ) (U := UR sig nD τ) (Lvl := ℕ) (Val := Elt F) spec3 c [cc3_scratch0, cc3_scratch1]
      ∗ (∃ r, prngReg c r)) := rfl
theorem PhiS3_pos (c : Dev nD) (n : ℕ) (h : n ≤ cfg3.N) (hz : n ≠ 0) :
    PhiS3 V c n h = iprop(owns (c : Thread nD τ) scM3_0 fullShare (accAt3 V c (n - 1) (by omega)).1
      ∗ owns (c : Thread nD τ) scM3_1 fullShare (accAt3 V c (n - 1) (by omega)).2
      ∗ Pipeline.scopedRestBut (Ix := Unit) (Name := ℕ) (U := UR sig nD τ) (Lvl := ℕ) (Val := Elt F) spec3 c [cc3_scratch0, cc3_scratch1]
      ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
    | ⟨5, _⟩ => out3_5 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]
theorem after3_5 (c : Dev nD) (t : Fin cfg3.N) : (dat3 V c).after 5 t = out3_5 V c t := by dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]

end Cert.KernelIdeal.Hand

end
-- ==== Proof.KiBody0.lean ====
/-
  The body of the input projection (call 0) against its proof data. At every grid point the three input windows'
  staging buffers hold their blocks — the node block fetched there, the weight and the bias fetched at the first
  point only and not moved since, their block index being constant —, the body loads the three whole buffers and
  stores one whole block: the node block times the transposed weight plus the bias row, the body's one payload of
  the three blocks. The region invariant and what the core owes pass through the body untouched.
-/
import proofs.«408128_j26749056320117_1_alg».proof.Proof.KiDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## What the body finds in the input windows' buffers -/

/-- The node window's current buffer holds the point's node block: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight window's current buffer holds the weight at every point: fetched at the first point, and at a later
    point the block index has not moved, so what the point before left — the weight — is this point's block. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The bias window's current buffer holds the bias at every point, likewise. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's accesses: every load and the one store go through the whole buffer -/

theorem offs0_zero2 : (![0, 0] : Fin 2 → Nat) = fun _ => 0 :=
  funext fun a => by match a with | ⟨0, _⟩ => rfl | ⟨1, _⟩ => rfl

theorem offs0_zero1 : (![0] : Fin 1 → Nat) = fun _ => 0 :=
  funext fun a => by match a with | ⟨0, _⟩ => rfl

/-- The one store's rectangle holds every index of the output block. -/
theorem cover0_3 (p0 : Vec F S2000x128 .f32) (y : S2000x128.Idx) :
    ∃ pc ∈ ([⟨Rect.unit (s := S2000x128) ![0, 0] S2000x128.size inb_S2000x128_S2000x128_0_0, p0⟩] :
      List (View.Piece (Elt F) S2000x128 .f32)), y ∈ pc.1.set :=
  ⟨_, List.mem_singleton_self _, View.mem_set_unit_zero (S := S2000x128) offs0_zero2 inb_S2000x128_S2000x128_0_0 y⟩

/-- One store of the whole block, its payload taken of the three buffers loaded whole, leaves the payload of the three
    buffers' contents. -/
theorem out0_3_canon (x0 : Vec F S2000x128 .f32) (x1 : Vec F S128x128 .f32) (x2 : Vec F S128 .f32) :
    View.canon [(⟨Rect.unit (s := S2000x128) ![0, 0] S2000x128.size inb_S2000x128_S2000x128_0_0,
        k0_pay1 (View.ld x0 (Rect.unit (s := S2000x128) ![0, 0] S2000x128.size inb_S2000x128_S2000x128_0_0))
          (View.ld x1 (Rect.unit (s := S128x128) ![0, 0] S128x128.size inb_S128x128_S128x128_0_0))
          (View.ld x2 (Rect.unit (s := S128) ![0] S128.size inb_S128_S128_0))⟩ : View.Piece (Elt F) S2000x128 .f32)]
      = out0_3 x0 x1 x2 := by
  rw [View.canon_unit_zero (S := S2000x128) offs0_zero2 inb_S2000x128_S2000x128_0_0]
  rw [View.ld_unit_zero (S := S2000x128) offs0_zero2 inb_S2000x128_S2000x128_0_0,
    View.ld_unit_zero (S := S128x128) offs0_zero2 inb_S128x128_S128x128_0_0,
    View.ld_unit_zero (S := S128) offs0_zero1 inb_S128_S128_0]
  rfl

/-! ## The body's triple -/

set_option maxHeartbeats 1000000 in
/-- The kernel body on whole staging memrefs, the inputs' at read contents and the output's at anything, runs to the
    continuation holding the inputs' as they were and the output's at the payload of the inputs'. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S2000x128 .f32) (harg4 : arg4.IsWhole)
    (x0 : Vec F S2000x128 .f32) (x1 : Vec F S128x128 .f32) (x2 : Vec F S128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover0_3 _)).trans (out0_3_canon _ _ _)

/-! ## The body obligation, at a generic point -/

/-- What the body is called with at point `t`: the invariant, what the core owes, each window's current buffer at what
    it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiBody1.lean ====
/-
  The body of the first graph-convolution combine (call 1) against its proof data. At every grid point the five input
  windows' staging buffers hold their blocks — the aggregated block and the node block fetched there; the relation
  weight, the relation bias and the root weight fetched at the first point only and not moved since, their block index
  being constant —, the body loads the five whole buffers and stores one whole block: the aggregated block times the
  transposed relation weight, plus the bias row, plus the node block times the transposed root weight, clamped below at
  zero — the body's one payload of the five blocks. The region invariant and what the core owes pass through the body
  untouched.
-/
import proofs.«408128_j26749056320117_1_alg».proof.Proof.KiDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## What the body finds in the input windows' buffers -/

/-- The aggregated window's current buffer holds the point's aggregated block: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The node window's current buffer holds the point's node block: it is fetched at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The relation weight's current buffer holds the weight at every point: fetched at the first point, and at a later
    point the block index has not moved, so what the point before left — the weight — is this point's block. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The relation bias's current buffer holds the bias at every point, likewise. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The root weight's current buffer holds the root weight at every point, likewise. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's accesses: every load and the one store go through the whole buffer -/

theorem offs1_zero2 : (![0, 0] : Fin 2 → Nat) = fun _ => 0 :=
  funext fun a => by match a with | ⟨0, _⟩ => rfl | ⟨1, _⟩ => rfl

theorem offs1_zero1 : (![0] : Fin 1 → Nat) = fun _ => 0 :=
  funext fun a => by match a with | ⟨0, _⟩ => rfl

/-- The one store's rectangle holds every index of the output block. -/
theorem cover1_5 (p0 : Vec F S2000x128 .f32) (y : S2000x128.Idx) :
    ∃ pc ∈ ([⟨Rect.unit (s := S2000x128) ![0, 0] S2000x128.size inb_S2000x128_S2000x128_0_0, p0⟩] :
      List (View.Piece (Elt F) S2000x128 .f32)), y ∈ pc.1.set :=
  ⟨_, List.mem_singleton_self _, View.mem_set_unit_zero (S := S2000x128) offs1_zero2 inb_S2000x128_S2000x128_0_0 y⟩

/-- One store of the whole block, its payload taken of the five buffers loaded whole — the body reads the root weight
    (window 4) before the bias (window 3) —, leaves the payload of the five buffers' contents. -/
theorem out1_5_canon (x0 x1 : Vec F S2000x128 .f32) (x2 : Vec F S128x128 .f32) (x3 : Vec F S128 .f32)
    (x4 : Vec F S128x128 .f32) :
    View.canon [(⟨Rect.unit (s := S2000x128) ![0, 0] S2000x128.size inb_S2000x128_S2000x128_0_0,
        k1_pay1 (View.ld x0 (Rect.unit (s := S2000x128) ![0, 0] S2000x128.size inb_S2000x128_S2000x128_0_0))
          (View.ld x1 (Rect.unit (s := S2000x128) ![0, 0] S2000x128.size inb_S2000x128_S2000x128_0_0))
          (View.ld x2 (Rect.unit (s := S128x128) ![0, 0] S128x128.size inb_S128x128_S128x128_0_0))
          (View.ld x4 (Rect.unit (s := S128x128) ![0, 0] S128x128.size inb_S128x128_S128x128_0_0))
          (View.ld x3 (Rect.unit (s := S128) ![0] S128.size inb_S128_S128_0))⟩ : View.Piece (Elt F) S2000x128 .f32)]
      = out1_5 x0 x1 x2 x3 x4 := by
  rw [View.canon_unit_zero (S := S2000x128) offs1_zero2 inb_S2000x128_S2000x128_0_0]
  rw [View.ld_unit_zero (S := S2000x128) offs1_zero2 inb_S2000x128_S2000x128_0_0,
    View.ld_unit_zero (S := S2000x128) offs1_zero2 inb_S2000x128_S2000x128_0_0,
    View.ld_unit_zero (S := S128x128) offs1_zero2 inb_S128x128_S128x128_0_0,
    View.ld_unit_zero (S := S128x128) offs1_zero2 inb_S128x128_S128x128_0_0,
    View.ld_unit_zero (S := S128) offs1_zero1 inb_S128_S128_0]
  rfl

/-! ## The body's triple -/

set_option maxHeartbeats 1000000 in
/-- The kernel body on whole staging memrefs, the inputs' at read contents and the output's at anything, runs to the
    continuation holding the inputs' as they were and the output's at the payload of the inputs'. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S128x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S2000x128 .f32) (harg6 : arg6.IsWhole)
    (x0 x1 : Vec F S2000x128 .f32) (x2 : Vec F S128x128 .f32) (x3 : Vec F S128 .f32) (x4 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover1_5 _)).trans (out1_5_canon _ _ _ _ _)

/-! ## The body obligation, at a generic point -/

/-- What the body is called with at point `t`: the invariant, what the core owes, each window's current buffer at what
    it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiBody2.lean ====
/-
  The body of the second graph-convolution combine (call 2) against its proof data. At every grid point the five input
  windows' staging buffers hold their blocks — the aggregated block and the node block fetched there; the relation
  weight, the relation bias and the root weight fetched at the first point only and not moved since, their block index
  being constant —, the body loads the five whole buffers and stores one whole block: the aggregated block times the
  transposed relation weight, plus the bias row, plus the node block times the transposed root weight, clamped below at
  zero — the body's one payload of the five blocks. The region invariant and what the core owes pass through the body
  untouched.
-/
import proofs.«408128_j26749056320117_1_alg».proof.Proof.KiDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## What the body finds in the input windows' buffers -/

/-- The aggregated window's current buffer holds the point's aggregated block: it is fetched at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The node window's current buffer holds the point's node block: it is fetched at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The relation weight's current buffer holds the weight at every point: fetched at the first point, and at a later
    point the block index has not moved, so what the point before left — the weight — is this point's block. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- The relation bias's current buffer holds the bias at every point, likewise. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- The root weight's current buffer holds the root weight at every point, likewise. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body's accesses: every load and the one store go through the whole buffer -/

theorem offs2_zero2 : (![0, 0] : Fin 2 → Nat) = fun _ => 0 :=
  funext fun a => by match a with | ⟨0, _⟩ => rfl | ⟨1, _⟩ => rfl

theorem offs2_zero1 : (![0] : Fin 1 → Nat) = fun _ => 0 :=
  funext fun a => by match a with | ⟨0, _⟩ => rfl

/-- The one store's rectangle holds every index of the output block. -/
theorem cover2_5 (p0 : Vec F S2000x128 .f32) (y : S2000x128.Idx) :
    ∃ pc ∈ ([⟨Rect.unit (s := S2000x128) ![0, 0] S2000x128.size inb_S2000x128_S2000x128_0_0, p0⟩] :
      List (View.Piece (Elt F) S2000x128 .f32)), y ∈ pc.1.set :=
  ⟨_, List.mem_singleton_self _, View.mem_set_unit_zero (S := S2000x128) offs2_zero2 inb_S2000x128_S2000x128_0_0 y⟩

/-- One store of the whole block, its payload taken of the five buffers loaded whole — the body reads the root weight
    (window 4) before the bias (window 3) —, leaves the payload of the five buffers' contents. -/
theorem out2_5_canon (x0 x1 : Vec F S2000x128 .f32) (x2 : Vec F S128x128 .f32) (x3 : Vec F S128 .f32)
    (x4 : Vec F S128x128 .f32) :
    View.canon [(⟨Rect.unit (s := S2000x128) ![0, 0] S2000x128.size inb_S2000x128_S2000x128_0_0,
        k2_pay1 (View.ld x0 (Rect.unit (s := S2000x128) ![0, 0] S2000x128.size inb_S2000x128_S2000x128_0_0))
          (View.ld x1 (Rect.unit (s := S2000x128) ![0, 0] S2000x128.size inb_S2000x128_S2000x128_0_0))
          (View.ld x2 (Rect.unit (s := S128x128) ![0, 0] S128x128.size inb_S128x128_S128x128_0_0))
          (View.ld x4 (Rect.unit (s := S128x128) ![0, 0] S128x128.size inb_S128x128_S128x128_0_0))
          (View.ld x3 (Rect.unit (s := S128) ![0] S128.size inb_S128_S128_0))⟩ : View.Piece (Elt F) S2000x128 .f32)]
      = out2_5 x0 x1 x2 x3 x4 := by
  rw [View.canon_unit_zero (S := S2000x128) offs2_zero2 inb_S2000x128_S2000x128_0_0]
  rw [View.ld_unit_zero (S := S2000x128) offs2_zero2 inb_S2000x128_S2000x128_0_0,
    View.ld_unit_zero (S := S2000x128) offs2_zero2 inb_S2000x128_S2000x128_0_0,
    View.ld_unit_zero (S := S128x128) offs2_zero2 inb_S128x128_S128x128_0_0,
    View.ld_unit_zero (S := S128x128) offs2_zero2 inb_S128x128_S128x128_0_0,
    View.ld_unit_zero (S := S128) offs2_zero1 inb_S128_S128_0]
  rfl

/-! ## The body's triple -/

set_option maxHeartbeats 1000000 in
/-- The kernel body on whole staging memrefs, the inputs' at read contents and the output's at anything, runs to the
    continuation holding the inputs' as they were and the output's at the payload of the inputs'. -/
theorem sound_kernel2 (c : Dev nD) (E : Set ℕ) (i : grid2.Coords)
    (arg1 : Memref sig .tc .vmem S2000x128 .f32) (harg1 : arg1.IsWhole)
    (arg2 : Memref sig .tc .vmem S2000x128 .f32) (harg2 : arg2.IsWhole)
    (arg3 : Memref sig .tc .vmem S128x128 .f32) (harg3 : arg3.IsWhole)
    (arg4 : Memref sig .tc .vmem S128 .f32) (harg4 : arg4.IsWhole)
    (arg5 : Memref sig .tc .vmem S128x128 .f32) (harg5 : arg5.IsWhole)
    (arg6 : Memref sig .tc .vmem S2000x128 .f32) (harg6 : arg6.IsWhole)
    (x0 x1 : Vec F S2000x128 .f32) (x2 : Vec F S128x128 .f32) (x3 : Vec F S128 .f32) (x4 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover2_5 _)).trans (out2_5_canon _ _ _ _ _)

/-! ## The body obligation, at a generic point -/

/-- What the body is called with at point `t`: the invariant, what the core owes, each window's current buffer at what
    it then holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiBody3.lean ====
/-
  The body of the fourth pallas_call — the mean pool over the 32 graphs and the classifier head — against the
  pipeline's proof data for that call.

  The body keeps two accumulators in scratch memory between grid points: the per-graph feature sums and the
  per-graph node counts. At the first point it resets both to zero; at every point it adds the point's partial
  sums (the one-hot matrix of the block's graph ids, transposed, times the block of node features, respectively
  times a column of ones) to what the accumulators hold; at the last point it divides the sums by the counts
  (at least one), stores the pooled features, and stores the logits, the pooled features times the transposed
  classifier weight plus the bias. So there are three kinds of point:

  * the first point: both accumulators are reset and then updated; no output is stored;
  * a middle point: both accumulators are updated from what the point before left; no output is stored;
  * the last point: both accumulators are updated and both outputs are stored, from the accumulators as this
    point's update leaves them.

  The two conditions of the body are decided over the 25 grid points in closed form. At a point that stores no
  output the two output windows are idle and are not written back, so their staging buffers are handed back as
  found. Each case is run once over arbitrary block contents, and the obligation at a point picks the case of
  the point; the invariant carries the accumulators at the recursion's values, beside the other scoped buffers
  and the generator register, untouched.
-/
import proofs.«408128_j26749056320117_1_alg».proof.Proof.KiDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The two conditions of the body, over the grid -/

/-- The condition of the reset: the grid coordinate is zero. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the outputs' stores: the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

/-- The four input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Off the last point the two output windows are idle and are not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
/-- At the last point they are live. -/
theorem liveAt3_4 : ∀ t : Fin cfg3.N, cond3_1 (grid3.coords t) → cfg3.idle 4 (grid3.coords t) = false := by decide +kernel
theorem liveAt3_5 : ∀ t : Fin cfg3.N, cond3_1 (grid3.coords t) → cfg3.idle 5 (grid3.coords t) = false := by decide +kernel

/-! ## The input windows' staging buffers hold their blocks -/

/-- An input window's current staging buffer holds its block at every point, fetched there or not: the body
    leaves an input's buffer as found, and a window not fetched at a point has not moved. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)

/-! ## The body, case by case -/

/-- The whole-buffer rectangle's offsets are zero, in each rank. -/
theorem off2 : (![0, 0] : Fin 2 → ℕ) = fun _ => 0 := funext fun a => by fin_cases a <;> rfl
theorem off1 : (![0] : Fin 1 → ℕ) = fun _ => 0 := funext fun a => by fin_cases a <;> rfl

/-- One store through the whole-buffer rectangle covers every index. -/
theorem cover1 {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 1000000 in
/-- The FIRST point (the reset's condition holds, the outputs' does not). On whole memrefs — the node block's at
    `x0`, the graph ids' at `x1`, the accumulators at anything — the body runs to the continuation holding the two
    blocks as they were and the accumulators at the reset values increased by the point's partial sums. It touches
    nothing else. -/
theorem run3_A (c : Dev nD) (i : grid3.Coords)
    (arg1 : Memref sig .tc .vmem S2000x128 .f32) (harg1 : arg1.IsWhole) (arg2 : Memref sig .tc .vmem S2000x1 .i32) (harg2 : arg2.IsWhole)
    (arg3 : Memref sig .tc .vmem S10x128 .f32) (harg3 : arg3.IsWhole) (arg4 : Memref sig .tc .vmem S10 .f32) (harg4 : arg4.IsWhole)
    (arg5 : Memref sig .tc .vmem S32x10 .f32) (harg5 : arg5.IsWhole) (arg6 : Memref sig .tc .vmem S32x128 .f32) (harg6 : arg6.IsWhole)
    (arg7 : Memref sig .tc .vmem S32x128 .f32) (harg7 : arg7.IsWhole) (arg8 : Memref sig .tc .vmem S32x1 .f32) (harg8 : arg8.IsWhole)
    (hc0 : cond3_0 i) (hc1 : ¬cond3_1 i)
    (x0 : Vec F S2000x128 .f32) (x1 : Vec F S2000x1 .i32)
    (E : Set ℕ) (K : PUnit → sProp 𝕄) :
    iprop(owns (c : Thread nD τ) arg1 fullShare x0 ∗ owns (c : Thread nD τ) arg2 fullShare x1
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg7 fullShare (k3_pay4 x0 x1 (k3_pay1 (F := F)))
            ∗ owns (c : Thread nD τ) arg8 fullShare (k3_pay5 x1 (k3_pay2 (F := F)))) -∗ K ⟨⟩))
      ⊢ wp frame (wpE (defs₀ (F := F)) Variants.none c none) E
          (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%d0, %g0, -, HS0⟩, ⟨%d1, %g1, -, HS1⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    sl_unfold_words
    rw [View.read_writes_eq_canon _ _ _ (cover1 off2 _ _ _), View.canon_cons_unit_zero (S := S32x128) off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]
  · iexists _; isplitr
    swap; · iexact HS1
    ipureintro
    sl_unfold_words
    rw [View.read_writes_eq_canon _ _ _ (cover1 off2 _ _ _), View.canon_cons_unit_zero (S := S32x1) off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]

set_option maxHeartbeats 1000000 in
/-- A MIDDLE point (neither condition holds). On whole memrefs — the node block's at `x0`, the graph ids' at `x1`,
    the accumulators at `s0`, `s1` — the body runs to the continuation holding the two blocks as they were and
    the accumulators increased by the point's partial sums. It touches nothing else. -/
theorem run3_B (c : Dev nD) (i : grid3.Coords)
    (arg1 : Memref sig .tc .vmem S2000x128 .f32) (harg1 : arg1.IsWhole) (arg2 : Memref sig .tc .vmem S2000x1 .i32) (harg2 : arg2.IsWhole)
    (arg3 : Memref sig .tc .vmem S10x128 .f32) (harg3 : arg3.IsWhole) (arg4 : Memref sig .tc .vmem S10 .f32) (harg4 : arg4.IsWhole)
    (arg5 : Memref sig .tc .vmem S32x10 .f32) (harg5 : arg5.IsWhole) (arg6 : Memref sig .tc .vmem S32x128 .f32) (harg6 : arg6.IsWhole)
    (arg7 : Memref sig .tc .vmem S32x128 .f32) (harg7 : arg7.IsWhole) (arg8 : Memref sig .tc .vmem S32x1 .f32) (harg8 : arg8.IsWhole)
    (hc0 : ¬cond3_0 i) (hc1 : ¬cond3_1 i)
    (x0 : Vec F S2000x128 .f32) (x1 : Vec F S2000x1 .i32) (s0 : Vec F S32x128 .f32) (s1 : Vec F S32x1 .f32)
    (E : Set ℕ) (K : PUnit → sProp 𝕄) :
    iprop(owns (c : Thread nD τ) arg1 fullShare x0 ∗ owns (c : Thread nD τ) arg2 fullShare x1
        ∗ owns (c : Thread nD τ) arg7 fullShare s0 ∗ owns (c : Thread nD τ) arg8 fullShare s1
        ∗ (iprop(owns (c : Thread nD τ) arg1 fullShare x0 ∗ owns (c : Thread nD τ) arg2 fullShare x1
            ∗ owns (c : Thread nD τ) arg7 fullShare (k3_pay4 x0 x1 s0) ∗ owns (c : Thread nD τ) arg8 fullShare (k3_pay5 x1 s1)) -∗ K ⟨⟩))
      ⊢ wp frame (wpE (defs₀ (F := F)) Variants.none c none) E
          (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%g0, %hg0, HS0⟩, ⟨%g1, %hg1, HS1⟩, Hk⟩
  subst hf0 hf1 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2]
  · iexists _; isplitr
    swap; · iexact HS1
    ipureintro
    rw [View.read_writes_eq_canon _ _ _ (cover1 off2 _ _ _), View.canon_unit_zero off2]
    simp only [View.readAt_eq_ld, View.ld_unit_zero (S := S2000x1) off2, View.ld_unit_zero (S := S32x1) off2]

set_option maxHeartbeats 1000000 in
/-- The LAST point (the outputs' condition holds, the reset's does not). On whole memrefs — the node block's at
    `x0`, the graph ids' at `x1`, the classifier weight's at `x2`, its bias's at `x3`, the outputs' at anything, the
    accumulators at `s0`, `s1` — the body runs to the continuation holding the four input blocks as they were, the
    accumulators increased by the point's partial sums, and the two outputs stored from the accumulators so
    increased: the pooled features, and the logits. -/
theorem run3_C (c : Dev nD) (i : grid3.Coords)
    (arg1 : Memref sig .tc .vmem S2000x128 .f32) (harg1 : arg1.IsWhole) (arg2 : Memref sig .tc .vmem S2000x1 .i32) (harg2 : arg2.IsWhole)
    (arg3 : Memref sig .tc .vmem S10x128 .f32) (harg3 : arg3.IsWhole) (arg4 : Memref sig .tc .vmem S10 .f32) (harg4 : arg4.IsWhole)
    (arg5 : Memref sig .tc .vmem S32x10 .f32) (harg5 : arg5.IsWhole) (arg6 : Memref sig .tc .vmem S32x128 .f32) (harg6 : arg6.IsWhole)
    (arg7 : Memref sig .tc .vmem S32x128 .f32) (harg7 : arg7.IsWhole) (arg8 : Memref sig .tc .vmem S32x1 .f32) (harg8 : arg8.IsWhole)
    (hc0 : ¬cond3_0 i) (hc1 : cond3_1 i)
    (x0 : Vec F S2000x128 .f32) (x1 : Vec F S2000x1 .i32) (x2 : Vec F S10x128 .f32) (x3 : Vec F S10 .f32)
    (s0 : Vec F S32x128 .f32) (s1 : Vec F S32x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k3_pay7 (k3_pay4 x0 x1 s0) (k3_pay5 x1 s1) x2 x3)
            ∗ owns (c : Thread nD τ) arg6 fullShare (k3_pay6 (k3_pay4 x0 x1 s0) (k3_pay5 x1 s1))
            ∗ owns (c : Thread nD τ) arg7 fullShare (k3_pay4 x0 x1 s0) ∗ owns (c : Thread nD τ) arg8 fullShare (k3_pay5 x1 s1)) -∗ K ⟨⟩))
      ⊢ wp frame (wpE (defs₀ (F := F)) Variants.none c none) E
          (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩,
    ⟨%g0, %hg0, HS0⟩, ⟨%g1, %hg1, HS1⟩, Hk⟩
  subst hf0 hf1 hf2 hf3 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]
  isplitl [H5]
  · iexists _; isplitr
    swap; · iexact H5
    ipureintro
    sl_unfold_words
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]
  isplitl [HS0]
  · iexists _; isplitr
    swap; · iexact HS0
    ipureintro
    sl_unfold_words
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]
  · iexists _; isplitr
    swap; · iexact HS1
    ipureintro
    sl_unfold_words
    rw [View.read_writes_eq_canon _ _ _ (cover1 off2 _ _ _), View.canon_unit_zero off2]
    simp only [View.readAt_eq_ld, View.ld_unit_zero (S := S2000x128) off2, View.ld_unit_zero (S := S2000x1) off2,
      View.ld_unit_zero (S := S32x128) off2, View.ld_unit_zero (S := S32x1) off2, View.ld_unit_zero (S := S10x128) off2,
      View.ld_unit_zero (S := S10) off1, View.readCov_unit_zero (S := S32x128) _ off2, View.readCov_unit_zero (S := S32x1) _ off2]

/-! ## The accumulators at a point, by the kind of point -/

/-- At the first point: the reset values increased by the point's partial sums. -/
theorem accAt3_first (c : Dev nD) (t : Fin cfg3.N) (h0 : t.val = 0) :
    accAt3 V c t.val t.isLt = (k3_pay4 (iblk3 V c 0 t) (iblk3 V c 1 t) (k3_pay1 (F := F)),
      k3_pay5 (iblk3 V c 1 t) (k3_pay2 (F := F))) := by
  obtain ⟨n, hn⟩ := t
  cases n with
  | zero => exact rfl
  | succ n => exact absurd h0 (Nat.succ_ne_zero n)

/-- At a later point: what the point before left, increased by this point's partial sums. -/
theorem accAt3_later (c : Dev nD) (t : Fin cfg3.N) (h0 : t.val ≠ 0) :
    accAt3 V c t.val t.isLt
      = (k3_pay4 (iblk3 V c 0 t) (iblk3 V c 1 t) (accAt3 V c (t.val - 1) (Nat.lt_of_le_of_lt (Nat.sub_le _ _) t.isLt)).1,
        k3_pay5 (iblk3 V c 1 t) (accAt3 V c (t.val - 1) (Nat.lt_of_le_of_lt (Nat.sub_le _ _) t.isLt)).2) := by
  obtain ⟨n, hn⟩ := t
  cases n with
  | zero => exact absurd rfl h0
  | succ n => exact rfl

/-! ## The invariant before the first point -/

/-- What the launch hands the region, with the two accumulators as memrefs owned at some contents, the other
    scoped buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [scM3_0, scM3_1, owns_whole]; try rfl

/-! ## The body obligation, at a generic point -/

/-- Each window's current staging memref at point `t`, as the pipeline passes it to the body, and its wholeness. -/
abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S10 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S32x10 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S32x128 .f32 := win3_5.stage (cfg3.slots t 5)
abbrev hs3_5 (t : Fin cfg3.N) : (ms3_5 t).IsWhole := hstage3_5 ((cfg3.slots t 5).cast nbuf3_5)

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point. The inputs' memrefs hold their blocks; the closed forms of the two conditions say which
    kind of point this is, so that kind's run applies. The invariant hands the body the accumulators — at anything
    at the first point, at what the point before left afterwards — and takes them back at this point's values; the
    other scoped buffers, the generator register and what the core owes pass through untouched. Off the last point
    the outputs' buffers are handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h1 : t.val = 24
  · have h0 : t.val ≠ 0 := by omega
    have hc0 : ¬cond3_0 (grid3.coords t) := fun h => h0 ((hcond3_0 t).mp h)
    have hc1 : cond3_1 (grid3.coords t) := (hcond3_1 t).mpr h1
    rw [show (dat3 V c).leavesExact 4 t = owns (c : Thread nD τ) (ms3_4 t) fullShare ((dat3 V c).after 4 t) from by
      unfold Dat.leavesExact; rw [liveAt3_4 t hc1], after3_4]
    rw [show (dat3 V c).leavesExact 5 t = owns (c : Thread nD τ) (ms3_5 t) fullShare ((dat3 V c).after 5 t) from by
      unfold Dat.leavesExact; rw [liveAt3_5 t hc1], after3_5]
    unfold out3_4 out3_5
    rw [accAt3_later V c t h0]; dsimp only
    rw [PhiS3_castSucc V c t, PhiS3_pos V c _ _ h0]
    iintro ⟨⟨HS0, HS1, HR, Hg⟩, Ho, ⟨%d0, H0⟩, ⟨%d1, H1⟩, ⟨%d2, H2⟩, ⟨%d3, H3⟩, ⟨%d4, H4⟩, ⟨%d5, H5⟩⟩
    iapply (run3_C c (grid3.coords t) (ms3_0 t) (hs3_0 t) (ms3_1 t) (hs3_1 t) (ms3_2 t) (hs3_2 t) (ms3_3 t) (hs3_3 t)
      (ms3_4 t) (hs3_4 t) (ms3_5 t) (hs3_5 t) scM3_0 (Memref.isWhole_whole _) scM3_1 (Memref.isWhole_whole _) hc0 hc1
      (iblk3 V c 0 t) (iblk3 V c 1 t) (iblk3 V c 2 t) (iblk3 V c 3 t)
      (accAt3 V c (t.val - 1) (Nat.lt_of_le_of_lt (Nat.sub_le _ _) t.isLt)).1
      (accAt3 V c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond3_1 (grid3.coords t) := fun h => h1 ((hcond3_1 t).mp h)
    rw [Dat.leavesExact_idle (dat3 V c) 4 t (idleAt3_4 t hc1) (noFlush3_4 t hc1)]
    rw [Dat.leavesExact_idle (dat3 V c) 5 t (idleAt3_5 t hc1) (noFlush3_5 t hc1)]
    by_cases h0 : t.val = 0
    · have hc0 : cond3_0 (grid3.coords t) := (hcond3_0 t).mpr h0
      rw [accAt3_first V c t h0]; dsimp only
      rw [PhiS3_castSucc V c t, PhiS3_zero V c _ _ h0, PhiA3_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (run3_A c (grid3.coords t) (ms3_0 t) (hs3_0 t) (ms3_1 t) (hs3_1 t) (ms3_2 t) (hs3_2 t) (ms3_3 t) (hs3_3 t)
        (ms3_4 t) (hs3_4 t) (ms3_5 t) (hs3_5 t) scM3_0 (Memref.isWhole_whole _) scM3_1 (Memref.isWhole_whole _) hc0 hc1
        (iblk3 V c 0 t) (iblk3 V c 1 t) Set.univ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have hc0 : ¬cond3_0 (grid3.coords t) := fun h => h0 ((hcond3_0 t).mp h)
      rw [accAt3_later V c t h0]; dsimp only
      rw [PhiS3_castSucc V c t, PhiS3_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply (run3_B c (grid3.coords t) (ms3_0 t) (hs3_0 t) (ms3_1 t) (hs3_1 t) (ms3_2 t) (hs3_2 t) (ms3_3 t) (hs3_3 t)
        (ms3_4 t) (hs3_4 t) (ms3_5 t) (hs3_5 t) scM3_0 (Memref.isWhole_whole _) scM3_1 (Memref.isWhole_whole _) hc0 hc1
        (iblk3 V c 0 t) (iblk3 V c 1 t)
        (accAt3 V c (t.val - 1) (Nat.lt_of_le_of_lt (Nat.sub_le _ _) t.isLt)).1
        (accAt3 V c (t.val - 1) (Nat.lt_of_le_of_lt (Nat.sub_le _ _) t.isLt)).2 Set.univ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The pipeline's body obligation for the call, at every point. -/
theorem body_obligation3 (c : Dev nD) : BodyObligation (dat3 (F := F) V c) (defs₀ (F := F)) Variants.none () Set.univ := fun t => by
  rw [bigSep_W3, bigSep_W3]
  exact sound_body3 V c t

/-! ## The two ends of the invariant -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back: the accumulators' named contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 25 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨HS0, HS1, HR, Hg⟩
  isplitl [HS0 HS1 HR]
  · isplitl [HS0 HS1]
    · isplitl [HS0]
      · iexists _; iexact HS0
      iexists _; iexact HS1
    iexact HR
  iexact Hg

end Cert.KernelIdeal.Hand

end
-- ==== Proof.KiRun.lean ====
/-
  The run of @main. The program is four stretches of host operations alternating with four pallas_calls. The
  buffers' contents at each of the nine boundaries are a fold from the launch memory: a host stretch applies its
  operations; a call leaves its windows' arrays at what the write-backs of all its grid points give (an input's
  array as it was entered) and every other buffer as entered. Over the thread state "every unscoped buffer at the
  boundary's contents, the generator register at some state, nothing owed" each stretch is a host segment and each
  call a region of its pipeline, at the proof data read at that call's entry contents. The launch over these eight
  segments shows that every weakly fair execution terminates and that in every final memory EVERY unscoped buffer
  holds the last boundary's contents; read at the eleven arguments, which no stretch writes and which the calls only
  read, this is the frame claim: each argument ends as launched.
-/
import proofs.«408128_j26749056320117_1_alg».proof.Proof.KiDefs
import proofs.«408128_j26749056320117_1_alg».proof.Proof.KiBody0
import proofs.«408128_j26749056320117_1_alg».proof.Proof.KiBody1
import proofs.«408128_j26749056320117_1_alg».proof.Proof.KiBody2
import proofs.«408128_j26749056320117_1_alg».proof.Proof.KiBody3
import proofs.«408128_j26749056320117_1_alg».proof.Proof.Gen.KernelIdeal.Launch
import proofs.«408128_j26749056320117_1_alg».proof.Proof.Gen.KernelIdeal.Points
import proofs.«408128_j26749056320117_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 : Dev nD → Valuation τ sig (Elt F) := fun c b => (s₀ m ρ).mem ((c : Dev nD), b)

/-- After the host stretch `hostOps0`: what call 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- The stretch leaves every buffer it does not write as it found it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- When call 0 returns: its windows' arrays at what the write-backs of all its grid points leave (an input's
    array as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At the return each of the call's arrays holds what its pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what call 1 is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- The stretch leaves every buffer it does not write as it found it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- When call 1 returns: its windows' arrays at what the write-backs of all its grid points leave (an input's
    array as entered), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At the return each of the call's arrays holds what its pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what call 2 is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- The stretch leaves every buffer it does not write as it found it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- When call 2 returns: its windows' arrays at what the write-backs of all its grid points leave (an input's
    array as entered), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- At the return each of the call's arrays holds what its pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what call 3 is entered from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- The stretch leaves every buffer it does not write as it found it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- When call 3 returns: its windows' arrays at what the write-backs of all its grid points leave (an input's
    array as entered), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
/-- At the return each of the call's arrays holds what its pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched

No host operation writes an argument; calls 1 and 2 have no argument among their windows; call 0 reads arguments 0, 4
and 5 and call 3 arguments 9 and 10 through input windows, whose arrays are never written back. So the fold at an
argument's buffer walks back to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := W1_of m ρ c main_arg4 (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := W1_of m ρ c main_arg5 (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := (W8_arr m ρ c 2).trans (((dat3 (V7 m ρ) c).arrAt_in 2 rfl _).trans (A_eq3 (V7 m ρ) c 2))
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := (W8_arr m ρ c 3).trans (((dat3 (V7 m ρ) c).arrAt_in 3 rfl _).trans (A_eq3 (V7 m ρ) c 3))
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-! ## The proof data family and the thread state -/

/-- The prefetched tables' admissible contents: no pipeline has a table. -/
abbrev adm : (p : Fin 4) → (pcfgs (F := F) p).Adm := fun p => (cfgs p).toPCfg_adm
/-- Every pipeline's proof data, each at its call's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at the stretch applied to `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W8`, the generator
    register at some state. -/
abbrev Tₙ (c : Dev nD) : sProp 𝕄 := iprop(StableHlo.held (c : Thread nD τ) (Pipeline.ucRefs τ sig) (W8 m ρ c) ∗ ∃ r, prngReg c r)

/-! ## The calls as segments -/

-- a library lemma stated over the pinned configuration unifies with the printed one only when unification may unfold
-- plain definitions in a metavariable's type
set_option backward.isDefEq.respectTransparency.types false in
/-- Call 0 over the thread state: entered from every unscoped buffer at `W1`, left at `W2`. Its windows' arrays
    are split out of the unscoped buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 over the thread state: entered from every unscoped buffer at `W3`, left at `W4`. Its windows' arrays
    are split out of the unscoped buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 over the thread state: entered from every unscoped buffer at `W5`, left at `W6`. Its windows' arrays
    are split out of the unscoped buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 3 over the thread state: entered from every unscoped buffer at `W7`, left at `W8`. Its windows' arrays
    are split out of the unscoped buffers at entry and put back at the exit contents; the generator register goes into
    the region's invariant and comes back; nothing is owed; the kernel has no semaphore of its own.
    The invariant here is the carried one: its first instance is made from the scoped rest and its last gives it back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    have h := hin3 (V7 m ρ) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dat3 (V7 m ρ) c).Φ (Fin.last cfg3.N) from rfl]
    have h := hout3 (V7 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every weakly fair execution of @main terminates and every final memory holds each argument as launched:
    the run's post read at the eleven arguments. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c)⟩) (run_all m ρ)

end Cert.KernelIdeal.Hand

end
-- ==== Proof.KvHost.lean ====
/-
  The host stretches of the program between its kernel regions, as functions of the buffer contents they start from:
  the two edge-index rows; the gather of the node rows along the first row's indices (a negative index read from the
  end), the product with the edge weights, the scatter-add along the second row's indices; the layer's weight slices;
  the graph ids as a column.
-/
import proofs.«408128_j26749056320117_1_alg».proof.Proof.Gen.KernelIdeal.Launch
import proofs.«408128_j26749056320117_1_alg».proof.Proof.Gen.KernelIdeal.Regions
import Idealize.ShloMosaic.Lib.StableHlo.Run

noncomputable section

namespace Cert.KernelIdeal.HandHost

open Idealize.ShloMosaic Idealize.ShloMosaic.TcCoe Idealize.SL.Sem Idealize.ShloMosaic.StableHlo
open Cert.KernelIdeal Cert.KernelIdeal.Gen

variable {F : FTy → Type} [FloatOps F]

/-- Row `r` of the edge-index pair, as a vector of 800000 indices. -/
def edgeRow (r : Fin 2) (e : (⟨S2x800000, .i32⟩ : BufTy).Contents (Elt F)) : (⟨S800000, .i32⟩ : BufTy).Contents (Elt F) :=
  match r with
  | 0 => shapeCast _ (extractStridedSlice S1x800000 ![0, 0] e slices_S2x800000_S1x800000_0_0) shapeCasts_S1x800000_S800000
  | 1 => shapeCast _ (extractStridedSlice S1x800000 ![1, 0] e slices_S2x800000_S1x800000_1_0) shapeCasts_S1x800000_S800000

/-- The aggregation of a layer: the rows of `h` gathered along `src`, each scaled by its edge's weight, summed into the
    rows `dst` names. -/
def agg (h : (⟨S50000x128, .f32⟩ : BufTy).Contents (Elt F)) (src dst : (⟨S800000, .i32⟩ : BufTy).Contents (Elt F))
    (ew : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1 (broadcastInDim S800000x1 ![0] bcast_S800000_S800000x1_0 ew)))

/-- Layer `l`'s slice of a stacked [2,128,128] weight. -/
def wSlice (l : Fin 2) (w : (⟨S2x128x128, .f32⟩ : BufTy).Contents (Elt F)) : (⟨S128x128, .f32⟩ : BufTy).Contents (Elt F) :=
  match l with
  | 0 => shapeCast _ (extractStridedSlice S1x128x128 ![0, 0, 0] w slices_S2x128x128_S1x128x128_0_0_0) shapeCasts_S1x128x128_S128x128
  | 1 => shapeCast _ (extractStridedSlice S1x128x128 ![1, 0, 0] w slices_S2x128x128_S1x128x128_1_0_0) shapeCasts_S1x128x128_S128x128

/-- Layer `l`'s row of a stacked [2,128] bias. -/
def bSlice (l : Fin 2) (b : (⟨S2x128, .f32⟩ : BufTy).Contents (Elt F)) : (⟨S128, .f32⟩ : BufTy).Contents (Elt F) :=
  match l with
  | 0 => shapeCast _ (extractStridedSlice S1x128 ![0, 0] b slices_S2x128_S1x128_0_0) shapeCasts_S1x128_S128
  | 1 => shapeCast _ (extractStridedSlice S1x128 ![1, 0] b slices_S2x128_S1x128_1_0) shapeCasts_S1x128_S128

variable (W : Valuation τ sig (Elt F))

/-! ## The first stretch: the two rows of the edge index -/

theorem host0_v1 : StableHlo.after (hostOps0 (F := F)) W (Proc.devRef .tc main_v1) = edgeRow 0 (W (Proc.devRef .tc main_arg1)) := by
  after_results; rfl
theorem host0_v3 : StableHlo.after (hostOps0 (F := F)) W (Proc.devRef .tc main_v3) = edgeRow 1 (W (Proc.devRef .tc main_arg1)) := by
  after_results; rfl
theorem host0_of (r : Ref sig .tc) (h : r ∉ hostOps0_W) : StableHlo.after (hostOps0 (F := F)) W (Proc.devRef .tc r) = W (Proc.devRef .tc r) :=
  StableHlo.after_of_writes_sub hostOps0 _ hostOps0_writes h

/-! ## The second stretch: the first layer's aggregation and weight slices -/

set_option maxHeartbeats 4000000 in
theorem host1_v17 : StableHlo.after (hostOps1 (F := F)) W (Proc.devRef .tc main_v17)
    = agg (W (Proc.devRef .tc main_v4)) (W (Proc.devRef .tc main_v1)) (W (Proc.devRef .tc main_v3)) (W (Proc.devRef .tc main_arg2)) := by
  after_results_simp <;> rfl
theorem host1_v19 : StableHlo.after (hostOps1 (F := F)) W (Proc.devRef .tc main_v19) = wSlice 0 (W (Proc.devRef .tc main_arg6)) := by
  after_results; rfl
theorem host1_v21 : StableHlo.after (hostOps1 (F := F)) W (Proc.devRef .tc main_v21) = bSlice 0 (W (Proc.devRef .tc main_arg7)) := by
  after_results; rfl
theorem host1_v23 : StableHlo.after (hostOps1 (F := F)) W (Proc.devRef .tc main_v23) = wSlice 0 (W (Proc.devRef .tc main_arg8)) := by
  after_results; rfl
theorem host1_of (r : Ref sig .tc) (h : r ∉ hostOps1_W) : StableHlo.after (hostOps1 (F := F)) W (Proc.devRef .tc r) = W (Proc.devRef .tc r) :=
  StableHlo.after_of_writes_sub hostOps1 _ hostOps1_writes h

/-! ## The third stretch: the second layer's -/

set_option maxHeartbeats 4000000 in
theorem host2_v37 : StableHlo.after (hostOps2 (F := F)) W (Proc.devRef .tc main_v37)
    = agg (W (Proc.devRef .tc main_v24)) (W (Proc.devRef .tc main_v1)) (W (Proc.devRef .tc main_v3)) (W (Proc.devRef .tc main_arg2)) := by
  after_results_simp <;> rfl
theorem host2_v39 : StableHlo.after (hostOps2 (F := F)) W (Proc.devRef .tc main_v39) = wSlice 1 (W (Proc.devRef .tc main_arg6)) := by
  after_results; rfl
theorem host2_v41 : StableHlo.after (hostOps2 (F := F)) W (Proc.devRef .tc main_v41) = bSlice 1 (W (Proc.devRef .tc main_arg7)) := by
  after_results; rfl
theorem host2_v43 : StableHlo.after (hostOps2 (F := F)) W (Proc.devRef .tc main_v43) = wSlice 1 (W (Proc.devRef .tc main_arg8)) := by
  after_results; rfl
theorem host2_of (r : Ref sig .tc) (h : r ∉ hostOps2_W) : StableHlo.after (hostOps2 (F := F)) W (Proc.devRef .tc r) = W (Proc.devRef .tc r) :=
  StableHlo.after_of_writes_sub hostOps2 _ hostOps2_writes h

/-! ## The last stretch: the graph ids as a column -/

theorem host3_v45 : StableHlo.after (hostOps3 (F := F)) W (Proc.devRef .tc main_v45)
    = (shapeCast S50000x1 (W (Proc.devRef .tc main_arg3)) shapeCasts_S50000_S50000x1 : (⟨S50000x1, .i32⟩ : BufTy).Contents (Elt F)) := by
  after_results; rfl
theorem host3_of (r : Ref sig .tc) (h : r ∉ hostOps3_W) : StableHlo.after (hostOps3 (F := F)) W (Proc.devRef .tc r) = W (Proc.devRef .tc r) :=
  StableHlo.after_of_writes_sub hostOps3 _ hostOps3_writes h

end Cert.KernelIdeal.HandHost

end
-- ==== Proof.Spec.lean ====
/-
  The mathematics both programs compute, on the extended reals, entry by entry.

  * `proj`: a row of `x` against a row of `w` (a product with the transposed weight), plus the bias.
  * `comb`: the graph-convolution update, `max (a · rwᵀ + rb + h · twᵀ) 0`.
  * `gsum`, `cnt`: the sum of the rows of `h` whose graph id is `s`, and the number of such rows (an id
    outside `[0, 32)` matches no graph and is dropped); `pooled` their quotient with the count held at least 1;
    `logit` the classifier head on the pooled rows.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SN : Shape := ⟨2, ![50000, 128]⟩
abbrev SW : Shape := ⟨2, ![128, 128]⟩
abbrev SB : Shape := ⟨1, ![128]⟩
abbrev SI : Shape := ⟨1, ![50000]⟩
abbrev SG : Shape := ⟨2, ![32, 128]⟩
abbrev SCW : Shape := ⟨2, ![10, 128]⟩
abbrev SCB : Shape := ⟨1, ![10]⟩
abbrev SL : Shape := ⟨2, ![32, 10]⟩

/-- Entry `(n, j)` of `x · wᵀ + b`. -/
def proj (x : SN.Idx → EReal) (w : SW.Idx → EReal) (b : SB.Idx → EReal) (n : Fin 50000) (j : Fin 128) : EReal :=
  (∑ k : Fin 128, x (ix2 n k) * w (ix2 j k)) + b (ix1 j)

/-- The projected array. -/
def projG (x : SN.Idx → EReal) (w : SW.Idx → EReal) (b : SB.Idx → EReal) : SN.Idx → EReal :=
  fun i => proj x w b (i 0) (i 1)

/-- Entry `(n, j)` of `max (a · rwᵀ + rb + h · twᵀ) 0`, the sums grouped as the programs group them. -/
def comb (a h : SN.Idx → EReal) (rw : SW.Idx → EReal) (rb : SB.Idx → EReal) (tw : SW.Idx → EReal)
    (n : Fin 50000) (j : Fin 128) : EReal :=
  max (((∑ k : Fin 128, a (ix2 n k) * rw (ix2 j k)) + rb (ix1 j)) + ∑ k : Fin 128, h (ix2 n k) * tw (ix2 j k)) 0

/-- The combined array. -/
def combG (a h : SN.Idx → EReal) (rw : SW.Idx → EReal) (rb : SB.Idx → EReal) (tw : SW.Idx → EReal) : SN.Idx → EReal :=
  fun i => comb a h rw rb tw (i 0) (i 1)

/-- Column `d` of the rows of `h` whose graph id, read signed, is `s`, summed. -/
def gsum (h : SN.Idx → EReal) (ids : SI.Idx → BitVec 32) (s : Fin 32) (d : Fin 128) : EReal :=
  ∑ n : Fin 50000, if (ids (ix1 n)).toInt = (s.val : ℤ) then h (ix2 n d) else 0

/-- The number of rows whose graph id, read signed, is `s`. -/
def cnt (ids : SI.Idx → BitVec 32) (s : Fin 32) : EReal :=
  ∑ n : Fin 50000, if (ids (ix1 n)).toInt = (s.val : ℤ) then (1 : EReal) else 0

/-- The mean row of graph `s`, an empty graph's count read as 1. -/
def pooled (h : SN.Idx → EReal) (ids : SI.Idx → BitVec 32) (s : Fin 32) (d : Fin 128) : EReal :=
  Ideal.div (gsum h ids s d) (max (cnt ids s) 1)

def pooledG (h : SN.Idx → EReal) (ids : SI.Idx → BitVec 32) : SG.Idx → EReal :=
  fun i => pooled h ids (i 0) (i 1)

/-- The classifier head on the mean rows. -/
def logit (h : SN.Idx → EReal) (ids : SI.Idx → BitVec 32) (cw : SCW.Idx → EReal) (cb : SCB.Idx → EReal)
    (s : Fin 32) (j : Fin 10) : EReal :=
  (∑ d : Fin 128, pooled h ids s d * cw (ix2 j d)) + cb (ix1 j)

def logitG (h : SN.Idx → EReal) (ids : SI.Idx → BitVec 32) (cw : SCW.Idx → EReal) (cb : SCB.Idx → EReal) : SL.Idx → EReal :=
  fun i => logit h ids cw cb (i 0) (i 1)

/-- The single-precision word of the number one denotes 1. -/
theorem ofBits_one_f32 : Ideal.ofBits .f32 0x3F800000#32 = 1 := by
  simp [Ideal.ofBits, Ideal.ieee, -EReal.coe_mul]; norm_num

/-- The bfloat16 word of the number one denotes 1. -/
theorem ofBits_one_bf16 : Ideal.ofBits .bf16 0x3F80#16 = 1 := by
  simp [Ideal.ofBits, Ideal.ieee, -EReal.coe_mul]; norm_num

end Cert.Spec

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.KvProj.lean ====
/-
  The value of the input projection: after the region's 25 write-backs the output array is, entry by entry,
  the node array times the transposed weight plus the bias — one whole-array function of the three arrays the region
  finds. The body's block at a row and a column is the row's product sum against the weight's row plus the bias
  entry; each point reads the node rows its own block covers and the whole weight and bias; the 25 blocks of 2000
  rows cover the 50000 rows.
-/
import proofs.«408128_j26749056320117_1_alg».proof.Proof.KiDefs
import proofs.«408128_j26749056320117_1_alg».proof.Proof.Spec
import proofs.«408128_j26749056320117_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand Cert.Spec

variable (V : (c : Dev nD) → (b : Ref sig .tc) → Buf (Elt Ideal) ((c : Thread nD τ).loc b))

/-! ## The payload at an index -/

/-- The projection's block at row `p`, column `q`: the row of the node block against row `q` of the weight, plus
    entry `q` of the bias. -/
theorem out0_3_apply (x0 : Vec Ideal S2000x128 .f32) (x1 : Vec Ideal S128x128 .f32) (x2 : Vec Ideal S128 .f32)
    (p : Fin 2000) (q : Fin 128) :
    out0_3 x0 x1 x2 (ix2 p q) = (∑ k : Fin 128, x0 (ix2 p k) * x1 (ix2 q k)) + x2 (ix1 q) := by
  unfold out0_3 k0_pay1
  refine (addf_apply _ _ _).trans ?_
  refine congrArg₂ (· + ·) ?_ ?_
  · refine (Cert.LibMatProd.matmul_zero_apply _ rfl none _ _ p q).trans ?_
    refine Finset.sum_congr rfl fun k _ => ?_
    refine congrArg₂ (· * ·) rfl ?_
    exact transpose_ix2_apply _ _ k q
  · refine (broadcastTo_1b_ab_apply _ _ p q).trans ?_
    exact shapeCast_a_1a_apply _ _ 0 q

/-! ## The blocks a point reads -/

/-- The printed index maps over the grid: the node window and the output window move with the point along the rows,
    the weight and the bias stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The node window's block at point `t` is rows `2000 t … 2000 t + 1999` of the node array. -/
theorem iblk0_0_apply (c : Dev nD) (t : Fin cfg0.N) (p : Fin 2000) (k : Fin 128) (r : Fin 50000)
    (hr : r.val = t.val * 2000 + p.val) :
    (iblk0 V c 0 t : Vec Ideal S2000x128 .f32) (ix2 p k) = (V c main_arg0 : SN.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = r.val; omega
  | ⟨1, _⟩ => show win0_0.index t (1 : Fin 2) * 128 + 1 * k.val = k.val; omega

/-- The weight window's block is the weight. -/
theorem iblk0_1_apply (c : Dev nD) (t : Fin cfg0.N) (q k : Fin 128) :
    (iblk0 V c 1 t : Vec Ideal S128x128 .f32) (ix2 q k) = (V c main_arg4 : SW.Idx → EReal) (ix2 q k) := by
  obtain ⟨-, -, e0, e1, -⟩ := idx_facts0 t
  unfold iblk0
  rw [View.read_apply]
  show V c main_arg4 _ = V c main_arg4 _
  congr 1
  funext a
  apply Fin.ext
  match a with
  | ⟨0, _⟩ => show win0_1.index t (0 : Fin 2) * 128 + 1 * q.val = q.val; omega
  | ⟨1, _⟩ => show win0_1.index t (1 : Fin 2) * 128 + 1 * k.val = k.val; omega

/-- The bias window's block is the bias. -/
theorem iblk0_2_apply (c : Dev nD) (t : Fin cfg0.N) (q : Fin 128) :
    (iblk0 V c 2 t : Vec Ideal S128 .f32) (ix1 q) = (V c main_arg5 : SB.Idx → EReal) (ix1 q) := by
  obtain ⟨-, -, -, -, e0, -⟩ := idx_facts0 t
  unfold iblk0
  rw [View.read_apply]
  show V c main_arg5 _ = V c main_arg5 _
  congr 1
  funext a
  apply Fin.ext
  match a with
  | ⟨0, _⟩ => show win0_2.index t (0 : Fin 1) * 128 + 1 * q.val = q.val; omega

/-! ## What a point writes back -/

/-- Point `t` writes back block `t` of the projected array. -/
theorem flushed0_eq (c : Dev nD) (t : Fin cfg0.N) :
    (dat0 (F := Ideal) V c).flushed 3 t
      = ((cfg0.win 3).blk t).view.read (Elt Ideal) (projG (V c main_arg0) (V c main_arg4) (V c main_arg5)) := by
  show (cfg0.win 3).cut (grid0.coords t) ((dat0 V c).after 3 t) = _
  rw [after0_3]
  funext j
  obtain ⟨p, q, rfl⟩ : ∃ (p : Fin 2000) (q : Fin 128), j = ix2 p q := ⟨j 0, j 1, eq_ix2 j⟩
  have ht : t.val < 25 := lt_of_lt_of_eq t.isLt (N_0 : cfg0.N = 25)
  obtain ⟨-, -, -, -, -, e0, e1⟩ := idx_facts0 t
  have hemb : (((cfg0.win 3).blk t).view.emb (ix2 p q) : SN.Idx) = ix2 (⟨t.val * 2000 + p.val, by omega⟩ : Fin 50000) q := by
    funext a
    apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  show out0_3 (iblk0 V c 0 t) (iblk0 V c 1 t) (iblk0 V c 2 t) (ix2 p q)
    = projG (V c main_arg0) (V c main_arg4) (V c main_arg5) (((cfg0.win 3).blk t).view.emb (ix2 p q))
  refine (out0_3_apply _ _ _ p q).trans ?_
  refine Eq.trans ?_ (congrArg (projG (V c main_arg0) (V c main_arg4) (V c main_arg5)) hemb.symm)
  show _ = proj (V c main_arg0) (V c main_arg4) (V c main_arg5) (⟨t.val * 2000 + p.val, by omega⟩ : Fin 50000) q
  unfold proj
  refine congrArg₂ (· + ·) (Finset.sum_congr rfl fun k _ => congrArg₂ (· * ·) ?_ ?_) ?_
  · exact iblk0_0_apply V c t p k _ rfl
  · exact iblk0_1_apply V c t q k
  · exact iblk0_2_apply V c t q

/-! ## The cover, and the array after the region -/

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v4).slice (win0_3.rect t)).set ↔ _
  rw [View.set_slice_whole, Rect.mem_set_unit]
  exact Iff.rfl

/-- Row `r` of the array is in the block of point `r / 2000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, e0, e1⟩ := idx_facts0 ⟨(i 0).val / 2000, hlt⟩
  refine ⟨⟨(i 0).val / 2000, hlt⟩, flush0_3 _, ?_⟩
  rw [mem_blk0]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    rw [e1]
    omega

/-- THE PROJECTED ARRAY after the region's 25 write-backs: `x · wᵀ + b`, entry by entry. -/
theorem proj_final (c : Dev nD) :
    (dat0 (F := Ideal) V c).arrAt 3 cfg0.N = projG (V c main_arg0) (V c main_arg4) (V c main_arg5) :=
  (dat0 (F := Ideal) V c).arrAt_eq_of_cover 3 (projG (V c main_arg0) (V c main_arg4) (V c main_arg5))
    (fun t _ => flushed0_eq V c t) cover0

end Cert.KernelIdeal.HandVal

end
-- ==== Proof.KvComb1.lean ====
/-
  The value of the first graph-convolution combine: after the region's 25 write-backs the output array is, entry by
  entry, `max (a · rwᵀ + rb + h · twᵀ) 0` of the aggregated array `a`, the node array `h`, the relation weight and bias
  and the root weight as the region finds them — one whole-array function of those five arrays. The body's block at a
  row and a column is the two product sums, grouped as the body adds them, against zero; each point reads the rows of
  `a` and `h` its own block covers and the three parameters whole; the 25 blocks of 2000 rows cover the 50000 rows.
-/
import proofs.«408128_j26749056320117_1_alg».proof.Proof.KiDefs
import proofs.«408128_j26749056320117_1_alg».proof.Proof.Spec
import proofs.«408128_j26749056320117_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand Cert.Spec

variable (V : (c : Dev nD) → (b : Ref sig .tc) → Buf (Elt Ideal) ((c : Thread nD τ).loc b))

/-! ## The payload at an index -/

/-- The combine's block at row `p`, column `q`. -/
theorem out1_5_apply (x0 x1 : Vec Ideal S2000x128 .f32) (x2 : Vec Ideal S128x128 .f32) (x3 : Vec Ideal S128 .f32)
    (x4 : Vec Ideal S128x128 .f32) (p : Fin 2000) (q : Fin 128) :
    out1_5 x0 x1 x2 x3 x4 (ix2 p q)
      = max (((∑ k : Fin 128, x0 (ix2 p k) * x2 (ix2 q k)) + x3 (ix1 q)) + ∑ k : Fin 128, x1 (ix2 p k) * x4 (ix2 q k)) 0 := by
  unfold out1_5 k1_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · refine (Cert.LibMatProd.matmul_zero_apply _ rfl none _ _ p q).trans ?_
        refine Finset.sum_congr rfl fun k _ => ?_
        refine congrArg₂ (· * ·) ?_ ?_
        · exact congrFun (shapeCast_self x0 _) (ix2 p k)
        · refine (transpose_ix2_apply _ _ k q).trans ?_
          exact congrFun (shapeCast_self x2 _) (ix2 q k)
      · refine (broadcastTo_1b_ab_apply _ _ p q).trans ?_
        refine (shapeCast_a_1a_apply _ _ 0 q).trans ?_
        exact congrFun (shapeCast_self x3 _) (ix1 q)
    · refine (Cert.LibMatProd.matmul_zero_apply _ rfl none _ _ p q).trans ?_
      refine Finset.sum_congr rfl fun k _ => ?_
      refine congrArg₂ (· * ·) ?_ ?_
      · exact congrFun (shapeCast_self x1 _) (ix2 p k)
      · refine (transpose_ix2_apply _ _ k q).trans ?_
        exact congrFun (shapeCast_self x4 _) (ix2 q k)
  · exact Ideal.ofBits_zero_f32

/-! ## The blocks a point reads -/

/-- The printed index maps over the grid: the aggregated window, the node window and the output window move with the
    point along the rows, the three parameters stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated window's block at point `t` is rows `2000 t … 2000 t + 1999` of the aggregated array. -/
theorem iblk1_0_apply (c : Dev nD) (t : Fin cfg1.N) (p : Fin 2000) (k : Fin 128) (r : Fin 50000)
    (hr : r.val = t.val * 2000 + p.val) :
    (iblk1 V c 0 t : Vec Ideal S2000x128 .f32) (ix2 p k) = (V c main_v17 : SN.Idx → EReal) (ix2 r k) := by
  obtain ⟨e0, e1, -⟩ := idx_facts1 t
  unfold iblk1
  rw [View.read_apply]
  show V c main_v17 _ = V c main_v17 _
  congr 1
  funext a
  apply Fin.ext
  match a with
  | ⟨0, _⟩ => show win1_0.index t (0 : Fin 2) * 2000 + 1 * p.val = r.val; omega
  | ⟨1, _⟩ => show win1_0.index t (1 : Fin 2) * 128 + 1 * k.val = k.val; omega

/-- The node window's block at point `t` is the same rows of the node array. -/
theorem iblk1_1_apply (c : Dev nD) (t : Fin cfg1.N) (p : Fin 2000) (k : Fin 128) (r : Fin 50000)
    (hr : r.val = t.val * 2000 + p.val) :
    (iblk1 V c 1 t : Vec Ideal S2000x128 .f32) (ix2 p k) = (V c main_v4 : SN.Idx → EReal) (ix2 r k) := by
  obtain ⟨-, -, e0, e1, -⟩ := idx_facts1 t
  unfold iblk1
  rw [View.read_apply]
  show V c main_v4 _ = V c main_v4 _
  congr 1
  funext a
  apply Fin.ext
  match a with
  | ⟨0, _⟩ => show win1_1.index t (0 : Fin 2) * 2000 + 1 * p.val = r.val; omega
  | ⟨1, _⟩ => show win1_1.index t (1 : Fin 2) * 128 + 1 * k.val = k.val; omega

/-- The relation weight's block is the relation weight. -/
theorem iblk1_2_apply (c : Dev nD) (t : Fin cfg1.N) (q k : Fin 128) :
    (iblk1 V c 2 t : Vec Ideal S128x128 .f32) (ix2 q k) = (V c main_v19 : SW.Idx → EReal) (ix2 q k) := by
  obtain ⟨-, -, -, -, e0, e1, -⟩ := idx_facts1 t
  unfold iblk1
  rw [View.read_apply]
  show V c main_v19 _ = V c main_v19 _
  congr 1
  funext a
  apply Fin.ext
  match a with
  | ⟨0, _⟩ => show win1_2.index t (0 : Fin 2) * 128 + 1 * q.val = q.val; omega
  | ⟨1, _⟩ => show win1_2.index t (1 : Fin 2) * 128 + 1 * k.val = k.val; omega

/-- The relation bias's block is the relation bias. -/
theorem iblk1_3_apply (c : Dev nD) (t : Fin cfg1.N) (q : Fin 128) :
    (iblk1 V c 3 t : Vec Ideal S128 .f32) (ix1 q) = (V c main_v21 : SB.Idx → EReal) (ix1 q) := by
  obtain ⟨-, -, -, -, -, -, e0, -⟩ := idx_facts1 t
  unfold iblk1
  rw [View.read_apply]
  show V c main_v21 _ = V c main_v21 _
  congr 1
  funext a
  apply Fin.ext
  match a with
  | ⟨0, _⟩ => show win1_3.index t (0 : Fin 1) * 128 + 1 * q.val = q.val; omega

/-- The root weight's block is the root weight. -/
theorem iblk1_4_apply (c : Dev nD) (t : Fin cfg1.N) (q k : Fin 128) :
    (iblk1 V c 4 t : Vec Ideal S128x128 .f32) (ix2 q k) = (V c main_v23 : SW.Idx → EReal) (ix2 q k) := by
  obtain ⟨-, -, -, -, -, -, -, e0, e1, -⟩ := idx_facts1 t
  unfold iblk1
  rw [View.read_apply]
  show V c main_v23 _ = V c main_v23 _
  congr 1
  funext a
  apply Fin.ext
  match a with
  | ⟨0, _⟩ => show win1_4.index t (0 : Fin 2) * 128 + 1 * q.val = q.val; omega
  | ⟨1, _⟩ => show win1_4.index t (1 : Fin 2) * 128 + 1 * k.val = k.val; omega

/-! ## What a point writes back -/

/-- Point `t` writes back block `t` of the combined array. -/
theorem flushed1_eq (c : Dev nD) (t : Fin cfg1.N) :
    (dat1 (F := Ideal) V c).flushed 5 t
      = ((cfg1.win 5).blk t).view.read (Elt Ideal)
          (combG (V c main_v17) (V c main_v4) (V c main_v19) (V c main_v21) (V c main_v23)) := by
  show (cfg1.win 5).cut (grid1.coords t) ((dat1 V c).after 5 t) = _
  rw [after1_5]
  funext j
  obtain ⟨p, q, rfl⟩ : ∃ (p : Fin 2000) (q : Fin 128), j = ix2 p q := ⟨j 0, j 1, eq_ix2 j⟩
  have ht : t.val < 25 := lt_of_lt_of_eq t.isLt (N_1 : cfg1.N = 25)
  obtain ⟨-, -, -, -, -, -, -, -, -, e0, e1⟩ := idx_facts1 t
  have hemb : (((cfg1.win 5).blk t).view.emb (ix2 p q) : SN.Idx) = ix2 (⟨t.val * 2000 + p.val, by omega⟩ : Fin 50000) q := by
    funext a
    apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show out1_5 (iblk1 V c 0 t) (iblk1 V c 1 t) (iblk1 V c 2 t) (iblk1 V c 3 t) (iblk1 V c 4 t) (ix2 p q)
    = combG (V c main_v17) (V c main_v4) (V c main_v19) (V c main_v21) (V c main_v23) (((cfg1.win 5).blk t).view.emb (ix2 p q))
  refine (out1_5_apply _ _ _ _ _ p q).trans ?_
  refine Eq.trans ?_ (congrArg (combG (V c main_v17) (V c main_v4) (V c main_v19) (V c main_v21) (V c main_v23)) hemb.symm)
  show _ = comb (V c main_v17) (V c main_v4) (V c main_v19) (V c main_v21) (V c main_v23)
    (⟨t.val * 2000 + p.val, by omega⟩ : Fin 50000) q
  unfold comb
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact iblk1_0_apply V c t p k _ rfl
  · exact iblk1_2_apply V c t q k
  · exact iblk1_3_apply V c t q
  · exact iblk1_1_apply V c t p k _ rfl
  · exact iblk1_4_apply V c t q k

/-! ## The cover, and the array after the region -/

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v24).slice (win1_5.rect t)).set ↔ _
  rw [View.set_slice_whole, Rect.mem_set_unit]
  exact Iff.rfl

/-- Row `r` of the array is in the block of point `r / 2000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, -, -, -, -, -, e0, e1⟩ := idx_facts1 ⟨(i 0).val / 2000, hlt⟩
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hlt⟩ (1 : Fin 2) * 128 ≤ (i 1).val
      ∧ (i 1).val < win1_5.index ⟨(i 0).val / 2000, hlt⟩ (1 : Fin 2) * 128 + 128
    rw [e1]
    omega

/-- THE COMBINED ARRAY after the region's 25 write-backs: `max (a · rwᵀ + rb + h · twᵀ) 0`, entry by entry. -/
theorem comb1_final (c : Dev nD) :
    (dat1 (F := Ideal) V c).arrAt 5 cfg1.N
      = combG (V c main_v17) (V c main_v4) (V c main_v19) (V c main_v21) (V c main_v23) :=
  (dat1 (F := Ideal) V c).arrAt_eq_of_cover 5
    (combG (V c main_v17) (V c main_v4) (V c main_v19) (V c main_v21) (V c main_v23))
    (fun t _ => flushed1_eq V c t) cover1

end Cert.KernelIdeal.HandVal

end
-- ==== Proof.KvComb2.lean ====
/-
  The value of the second graph-convolution combine: after the region's 25 write-backs the output array is, entry by
  entry, `max (a · rwᵀ + rb + h · twᵀ) 0` of the aggregated array `a`, the node array `h`, the relation weight and bias
  and the root weight as the region finds them — one whole-array function of those five arrays. The body's block at a
  row and a column is the two product sums, grouped as the body adds them, against zero; each point reads the rows of
  `a` and `h` its own block covers and the three parameters whole; the 25 blocks of 2000 rows cover the 50000 rows.
-/
import proofs.«408128_j26749056320117_1_alg».proof.Proof.KiDefs
import proofs.«408128_j26749056320117_1_alg».proof.Proof.Spec
import proofs.«408128_j26749056320117_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand Cert.Spec

variable (V : (c : Dev nD) → (b : Ref sig .tc) → Buf (Elt Ideal) ((c : Thread nD τ).loc b))

/-! ## The payload at an index -/

/-- The combine's block at row `p`, column `q`. -/
theorem out2_5_apply (x0 x1 : Vec Ideal S2000x128 .f32) (x2 : Vec Ideal S128x128 .f32) (x3 : Vec Ideal S128 .f32)
    (x4 : Vec Ideal S128x128 .f32) (p : Fin 2000) (q : Fin 128) :
    out2_5 x0 x1 x2 x3 x4 (ix2 p q)
      = max (((∑ k : Fin 128, x0 (ix2 p k) * x2 (ix2 q k)) + x3 (ix1 q)) + ∑ k : Fin 128, x1 (ix2 p k) * x4 (ix2 q k)) 0 := by
  unfold out2_5 k2_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · refine (Cert.LibMatProd.matmul_zero_apply _ rfl none _ _ p q).trans ?_
        refine Finset.sum_congr rfl fun k _ => ?_
        refine congrArg₂ (· * ·) ?_ ?_
        · exact congrFun (shapeCast_self x0 _) (ix2 p k)
        · refine (transpose_ix2_apply _ _ k q).trans ?_
          exact congrFun (shapeCast_self x2 _) (ix2 q k)
      · refine (broadcastTo_1b_ab_apply _ _ p q).trans ?_
        refine (shapeCast_a_1a_apply _ _ 0 q).trans ?_
        exact congrFun (shapeCast_self x3 _) (ix1 q)
    · refine (Cert.LibMatProd.matmul_zero_apply _ rfl none _ _ p q).trans ?_
      refine Finset.sum_congr rfl fun k _ => ?_
      refine congrArg₂ (· * ·) ?_ ?_
      · exact congrFun (shapeCast_self x1 _) (ix2 p k)
      · refine (transpose_ix2_apply _ _ k q).trans ?_
        exact congrFun (shapeCast_self x4 _) (ix2 q k)
  · exact Ideal.ofBits_zero_f32

/-! ## The blocks a point reads -/

/-- The printed index maps over the grid: the aggregated window, the node window and the output window move with the
    point along the rows, the three parameters stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregated window's block at point `t` is rows `2000 t … 2000 t + 1999` of the aggregated array. -/
theorem iblk2_0_apply (c : Dev nD) (t : Fin cfg2.N) (p : Fin 2000) (k : Fin 128) (r : Fin 50000)
    (hr : r.val = t.val * 2000 + p.val) :
    (iblk2 V c 0 t : Vec Ideal S2000x128 .f32) (ix2 p k) = (V c main_v37 : SN.Idx → EReal) (ix2 r k) := by
  obtain ⟨e0, e1, -⟩ := idx_facts2 t
  unfold iblk2
  rw [View.read_apply]
  show V c main_v37 _ = V c main_v37 _
  congr 1
  funext a
  apply Fin.ext
  match a with
  | ⟨0, _⟩ => show win2_0.index t (0 : Fin 2) * 2000 + 1 * p.val = r.val; omega
  | ⟨1, _⟩ => show win2_0.index t (1 : Fin 2) * 128 + 1 * k.val = k.val; omega

/-- The node window's block at point `t` is the same rows of the node array. -/
theorem iblk2_1_apply (c : Dev nD) (t : Fin cfg2.N) (p : Fin 2000) (k : Fin 128) (r : Fin 50000)
    (hr : r.val = t.val * 2000 + p.val) :
    (iblk2 V c 1 t : Vec Ideal S2000x128 .f32) (ix2 p k) = (V c main_v24 : SN.Idx → EReal) (ix2 r k) := by
  obtain ⟨-, -, e0, e1, -⟩ := idx_facts2 t
  unfold iblk2
  rw [View.read_apply]
  show V c main_v24 _ = V c main_v24 _
  congr 1
  funext a
  apply Fin.ext
  match a with
  | ⟨0, _⟩ => show win2_1.index t (0 : Fin 2) * 2000 + 1 * p.val = r.val; omega
  | ⟨1, _⟩ => show win2_1.index t (1 : Fin 2) * 128 + 1 * k.val = k.val; omega

/-- The relation weight's block is the relation weight. -/
theorem iblk2_2_apply (c : Dev nD) (t : Fin cfg2.N) (q k : Fin 128) :
    (iblk2 V c 2 t : Vec Ideal S128x128 .f32) (ix2 q k) = (V c main_v39 : SW.Idx → EReal) (ix2 q k) := by
  obtain ⟨-, -, -, -, e0, e1, -⟩ := idx_facts2 t
  unfold iblk2
  rw [View.read_apply]
  show V c main_v39 _ = V c main_v39 _
  congr 1
  funext a
  apply Fin.ext
  match a with
  | ⟨0, _⟩ => show win2_2.index t (0 : Fin 2) * 128 + 1 * q.val = q.val; omega
  | ⟨1, _⟩ => show win2_2.index t (1 : Fin 2) * 128 + 1 * k.val = k.val; omega

/-- The relation bias's block is the relation bias. -/
theorem iblk2_3_apply (c : Dev nD) (t : Fin cfg2.N) (q : Fin 128) :
    (iblk2 V c 3 t : Vec Ideal S128 .f32) (ix1 q) = (V c main_v41 : SB.Idx → EReal) (ix1 q) := by
  obtain ⟨-, -, -, -, -, -, e0, -⟩ := idx_facts2 t
  unfold iblk2
  rw [View.read_apply]
  show V c main_v41 _ = V c main_v41 _
  congr 1
  funext a
  apply Fin.ext
  match a with
  | ⟨0, _⟩ => show win2_3.index t (0 : Fin 1) * 128 + 1 * q.val = q.val; omega

/-- The root weight's block is the root weight. -/
theorem iblk2_4_apply (c : Dev nD) (t : Fin cfg2.N) (q k : Fin 128) :
    (iblk2 V c 4 t : Vec Ideal S128x128 .f32) (ix2 q k) = (V c main_v43 : SW.Idx → EReal) (ix2 q k) := by
  obtain ⟨-, -, -, -, -, -, -, e0, e1, -⟩ := idx_facts2 t
  unfold iblk2
  rw [View.read_apply]
  show V c main_v43 _ = V c main_v43 _
  congr 1
  funext a
  apply Fin.ext
  match a with
  | ⟨0, _⟩ => show win2_4.index t (0 : Fin 2) * 128 + 1 * q.val = q.val; omega
  | ⟨1, _⟩ => show win2_4.index t (1 : Fin 2) * 128 + 1 * k.val = k.val; omega

/-! ## What a point writes back -/

/-- Point `t` writes back block `t` of the combined array. -/
theorem flushed2_eq (c : Dev nD) (t : Fin cfg2.N) :
    (dat2 (F := Ideal) V c).flushed 5 t
      = ((cfg2.win 5).blk t).view.read (Elt Ideal)
          (combG (V c main_v37) (V c main_v24) (V c main_v39) (V c main_v41) (V c main_v43)) := by
  show (cfg2.win 5).cut (grid2.coords t) ((dat2 V c).after 5 t) = _
  rw [after2_5]
  funext j
  obtain ⟨p, q, rfl⟩ : ∃ (p : Fin 2000) (q : Fin 128), j = ix2 p q := ⟨j 0, j 1, eq_ix2 j⟩
  have ht : t.val < 25 := lt_of_lt_of_eq t.isLt (N_2 : cfg2.N = 25)
  obtain ⟨-, -, -, -, -, -, -, -, -, e0, e1⟩ := idx_facts2 t
  have hemb : (((cfg2.win 5).blk t).view.emb (ix2 p q) : SN.Idx) = ix2 (⟨t.val * 2000 + p.val, by omega⟩ : Fin 50000) q := by
    funext a
    apply Fin.ext
    match a with
    | ⟨0, _⟩ => show win2_5.index t (0 : Fin 2) * 2000 + 1 * p.val = t.val * 2000 + p.val; omega
    | ⟨1, _⟩ => show win2_5.index t (1 : Fin 2) * 128 + 1 * q.val = q.val; omega
  show out2_5 (iblk2 V c 0 t) (iblk2 V c 1 t) (iblk2 V c 2 t) (iblk2 V c 3 t) (iblk2 V c 4 t) (ix2 p q)
    = combG (V c main_v37) (V c main_v24) (V c main_v39) (V c main_v41) (V c main_v43) (((cfg2.win 5).blk t).view.emb (ix2 p q))
  refine (out2_5_apply _ _ _ _ _ p q).trans ?_
  refine Eq.trans ?_ (congrArg (combG (V c main_v37) (V c main_v24) (V c main_v39) (V c main_v41) (V c main_v43)) hemb.symm)
  show _ = comb (V c main_v37) (V c main_v24) (V c main_v39) (V c main_v41) (V c main_v43)
    (⟨t.val * 2000 + p.val, by omega⟩ : Fin 50000) q
  unfold comb
  refine congrArg₂ max (congrArg₂ (· + ·) (congrArg₂ (· + ·)
    (Finset.sum_congr rfl fun k _ => congrArg₂ (· * ·) ?_ ?_) ?_)
    (Finset.sum_congr rfl fun k _ => congrArg₂ (· * ·) ?_ ?_)) rfl
  · exact iblk2_0_apply V c t p k _ rfl
  · exact iblk2_2_apply V c t q k
  · exact iblk2_3_apply V c t q
  · exact iblk2_1_apply V c t p k _ rfl
  · exact iblk2_4_apply V c t q k

/-! ## The cover, and the array after the region -/

/-- An index of the array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v44).slice (win2_5.rect t)).set ↔ _
  rw [View.set_slice_whole, Rect.mem_set_unit]
  exact Iff.rfl

/-- Row `r` of the array is in the block of point `r / 2000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨-, -, -, -, -, -, -, -, -, e0, e1⟩ := idx_facts2 ⟨(i 0).val / 2000, hlt⟩
  refine ⟨⟨(i 0).val / 2000, hlt⟩, flush2_5 _, ?_⟩
  rw [mem_blk2]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_5.index ⟨(i 0).val / 2000, hlt⟩ (1 : Fin 2) * 128 ≤ (i 1).val
      ∧ (i 1).val < win2_5.index ⟨(i 0).val / 2000, hlt⟩ (1 : Fin 2) * 128 + 128
    rw [e1]
    omega

/-- THE COMBINED ARRAY after the region's 25 write-backs: `max (a · rwᵀ + rb + h · twᵀ) 0`, entry by entry. -/
theorem comb2_final (c : Dev nD) :
    (dat2 (F := Ideal) V c).arrAt 5 cfg2.N
      = combG (V c main_v37) (V c main_v24) (V c main_v39) (V c main_v41) (V c main_v43) :=
  (dat2 (F := Ideal) V c).arrAt_eq_of_cover 5
    (combG (V c main_v37) (V c main_v24) (V c main_v39) (V c main_v41) (V c main_v43))
    (fun t _ => flushed2_eq V c t) cover2

end Cert.KernelIdeal.HandVal

end
-- ==== Proof.LibMatProdT.lean ====
/-
  A transposed-left matrix product on the extended reals as a sum over the shared axis.

  For the dimension numbers of a `K × A` by `K × B` product that contracts axis 0 of BOTH operands
  (`tdims K A B`: the left operand's axis 0 with the right operand's axis 0, no batch axes; the result's rows are the
  left operand's columns, its columns the right operand's), a kernel's `tpu.matmul` into a zero accumulator and a host
  `dot_general` are, at entry `(a, b)`, the sum over `k : Fin K` of `lhs (k, a) * rhs (k, b)`: the product of the
  transposed left operand with the right one. A printed record with these six lists is `tdims` by `rfl`.
-/
import Idealize.ShloMosaic.PureOps.Ideal.Laws
import Idealize.ShloMosaic.Lib.ValueIdx

noncomputable section

namespace Cert.LibMatProdT

open Idealize.ShloMosaic Idealize.ShloMosaic.ValueIdx

/-- `K×A` by `K×B`, both operands contracted on their first axis: contracting axes `[0]` and `[0]`, non-contracting axes
    `[1]` and `[1]`, no batch axes; the result is `A×B`. -/
def tdims (K A B : ℕ) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

variable (K A B : ℕ)

/-- The left operand's index at result index `i` and contraction index `q`: row `q`'s one coordinate … -/
theorem lhs_axis0 (i : (⟨2, ![A, B]⟩ : Shape).Idx) (q : (tdims K A B).contr.Idx) :
    ((tdims K A B).lhsIdx i q 0).val = (q ⟨0, Nat.one_pos⟩).val :=
  (tdims K A B).lhsIdx_val_of_single rfl i q
/-- … column `i 0`. -/
theorem lhs_axis1 (i : (⟨2, ![A, B]⟩ : Shape).Idx) (q : (tdims K A B).contr.Idx) :
    ((tdims K A B).lhsIdx i q 1).val = (i 0).val := by
  unfold DotDims.lhsIdx
  rw [dif_neg (show ¬(1 : Fin (⟨2, ![K, A]⟩ : Shape).rank) ∈ (tdims K A B).lhsBatch from List.not_mem_nil),
    dif_pos (show (1 : Fin (⟨2, ![K, A]⟩ : Shape).rank) ∈ (tdims K A B).lhsNonContracting from List.mem_singleton.2 rfl)]
  rfl
/-- The right operand's index: row `q`'s one coordinate … -/
theorem rhs_axis0 (i : (⟨2, ![A, B]⟩ : Shape).Idx) (q : (tdims K A B).contr.Idx) :
    ((tdims K A B).rhsIdx i q 0).val = (q ⟨0, Nat.one_pos⟩).val :=
  (tdims K A B).rhsIdx_val_of_single rfl i q
/-- … column `i 1`. -/
theorem rhs_axis1 (i : (⟨2, ![A, B]⟩ : Shape).Idx) (q : (tdims K A B).contr.Idx) :
    ((tdims K A B).rhsIdx i q 1).val = (i 1).val := by
  unfold DotDims.rhsIdx
  rw [dif_neg (show ¬(1 : Fin (⟨2, ![K, B]⟩ : Shape).rank) ∈ (tdims K A B).rhsBatch from List.not_mem_nil),
    dif_pos (show (1 : Fin (⟨2, ![K, B]⟩ : Shape).rank) ∈ (tdims K A B).rhsNonContracting from List.mem_singleton.2 rfl)]
  rfl

/-- The sum over the contraction index of a transposed-left product is the sum over `k : Fin K`. -/
theorem tdims_sum (l : (⟨2, ![K, A]⟩ : Shape).Idx → EReal) (r : (⟨2, ![K, B]⟩ : Shape).Idx → EReal) (a : Fin A) (b : Fin B) :
    (∑ q : (tdims K A B).contr.Idx,
        l ((tdims K A B).lhsIdx (ix2 a b) q) * r ((tdims K A B).rhsIdx (ix2 a b) q))
      = ∑ k : Fin K, l (ix2 k a) * r (ix2 k b) := by
  rw [← Equiv.sum_comp (contrEquiv1 (tdims K A B) K rfl rfl).symm]
  refine Finset.sum_congr rfl fun k _ => ?_
  have hk := contrEquiv1_symm_val (tdims K A B) K rfl rfl k
  have el : (tdims K A B).lhsIdx (ix2 a b) ((contrEquiv1 (tdims K A B) K rfl rfl).symm k) = ix2 k a :=
    funext fun ax => Fin.ext (by
      match ax with
      | ⟨0, _⟩ => exact (lhs_axis0 K A B _ _).trans hk
      | ⟨1, _⟩ => exact lhs_axis1 K A B _ _)
  have er : (tdims K A B).rhsIdx (ix2 a b) ((contrEquiv1 (tdims K A B) K rfl rfl).symm k) = ix2 k b :=
    funext fun ax => Fin.ext (by
      match ax with
      | ⟨0, _⟩ => exact (rhs_axis0 K A B _ _).trans hk
      | ⟨1, _⟩ => exact rhs_axis1 K A B _ _)
  rw [el, er]

variable {K A B}

/-- A kernel's transposed-left matrix product into a zero accumulator, at entry `(a, b)`. -/
theorem matmul_zero_apply {φ₁ φ₂ : FTy} (d : DotDims ⟨2, ![K, A]⟩ ⟨2, ![K, B]⟩ ⟨2, ![A, B]⟩) (hd : d = tdims K A B)
    (prec : Option ContractPrecision) (lhs : FVec Ideal ⟨2, ![K, A]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 k a) * rhs (ix2 k b) := by
  subst hd
  exact (Ideal.matmul_constant_zero_apply _ prec lhs rhs (ix2 a b)).trans (tdims_sum K A B lhs rhs a b)

/-- A host `dot_general` with these dimension numbers, at entry `(a, b)`. -/
theorem dotGeneral_apply {φ₁ φ₂ : FTy} (d : DotDims ⟨2, ![K, A]⟩ ⟨2, ![K, B]⟩ ⟨2, ![A, B]⟩) (hd : d = tdims K A B)
    (prec : Option ContractPrecision) (lhs : FVec Ideal ⟨2, ![K, A]⟩ φ₁) (rhs : FVec Ideal ⟨2, ![K, B]⟩ φ₂) (a : Fin A) (b : Fin B) :
    Host.dotGeneral d prec lhs rhs (ix2 a b) = ∑ k : Fin K, lhs (ix2 k a) * rhs (ix2 k b) := by
  subst hd
  exact (Ideal.dotGeneral_apply _ prec .single lhs rhs (ix2 a b)).trans (tdims_sum K A B lhs rhs a b)

end Cert.LibMatProdT

end
-- ==== Proof.KvPool.lean ====
/-
  The value of the fourth region (the mean pool and the classifier head) on the extended reals: what its two
  output arrays hold after the region, as whole-array functions of the arrays the region finds.

  * At every grid point the two accumulators grow by the point's partial sums: the feature accumulator by the sum,
    over the point's 2000 rows, of the rows whose graph id is the accumulator's row; the count accumulator by the
    number of such rows. After the last point they hold the sums and the counts over all 50000 rows.
  * The outputs are stored at the last point only, their blocks the whole arrays: the pooled features are the sums
    divided by the counts held at least 1, the logits the pooled features times the transposed classifier weight
    plus the bias.
-/
import proofs.«408128_j26749056320117_1_alg».proof.Proof.KiDefs
import proofs.«408128_j26749056320117_1_alg».proof.Proof.Spec
import proofs.«408128_j26749056320117_1_alg».proof.Proof.LibMatProd
import proofs.«408128_j26749056320117_1_alg».proof.Proof.LibMatProdT
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

open scoped BigOperators

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec
open Idealize.ShloMosaic.StableHlo.Predicate (ixP)

-- the TensorCore's buffer contents when a region is entered
variable (V : (c : Dev nD) → (b : Ref sig .tc) → Buf (Elt Ideal) ((c : Thread nD τ).loc b))

namespace Pool

/-! ## Words: a graph id against a graph's number -/

/-- A 32-bit word is the word of a number below 32 exactly when its signed reading is that number. -/
theorem eq_ofNat_iff_toInt (w : BitVec 32) (g : Fin 32) : w = BitVec.ofNat 32 g.val ↔ w.toInt = (g.val : ℤ) := by
  have hg : g.val < 2 ^ 31 := lt_of_lt_of_le g.isLt (by norm_num)
  constructor
  · intro h; rw [h]; exact Idealize.ShloMosaic.StableHlo.Predicate.toInt_ofNat_small g.val hg
  · intro h
    exact BitVec.eq_of_toInt_eq (h.trans (Idealize.ShloMosaic.StableHlo.Predicate.toInt_ofNat_small g.val hg).symm)

/-- The set bit, widened and converted, is the number one; -/
theorem sitofp_bit_one : (FloatOps.sitofp .f32 ((1#1 : BitVec 1).setWidth 32) : Ideal .f32) = 1 := by
  show ((((1#1 : BitVec 1).setWidth 32).toInt : ℝ) : EReal) = 1
  have h : ((1#1 : BitVec 1).setWidth 32).toInt = 1 := by decide
  rw [h]; norm_num

/-- the clear bit is zero. -/
theorem sitofp_bit_zero : (FloatOps.sitofp .f32 ((0#1 : BitVec 1).setWidth 32) : Ideal .f32) = 0 := by
  show ((((0#1 : BitVec 1).setWidth 32).toInt : ℝ) : EReal) = 0
  have h : ((0#1 : BitVec 1).setWidth 32).toInt = 0 := by decide
  rw [h]; norm_num

/-- An integer comparison at an index compares the elements. -/
theorem cmpi_apply {s : Shape} {w : ℕ} (p : CmpIPredicate) (a b : IVec s w) (i : s.Idx) :
    cmpi p a b i = IntOp.cmpi p (a i) (b i) := rfl

/-! ## The body's payloads at an index -/

/-- The one-hot block at row `r` and graph `g`: one when the row's id is `g`, else zero. -/
theorem onehot_apply (w : Vec Ideal S2000x1 .i32) (r : Fin 2000) (g : Fin 32) :
    k3_pay3 (F := Ideal) w (ix2 r g) = if (w (ix2 r (0 : Fin 1))).toInt = (g.val : ℤ) then 1 else 0 := by
  unfold k3_pay3
  dsimp only
  rw [truncf_apply, sitofp_apply, extui_apply, cmpi_apply,
    broadcastTo_apply _ _ (ix2 r g) (ix2 r (0 : Fin 1)) (fun a => by match a with | ⟨0, _⟩ => rfl | ⟨1, _⟩ => rfl),
    broadcastTo_apply _ _ (ix2 r g) (ix2 (0 : Fin 1) g) (fun a => by match a with | ⟨0, _⟩ => rfl | ⟨1, _⟩ => rfl),
    shapeCast_self, iota_single_apply]
  show FloatOps.sitofp .f32 ((IntOp.cmpi .eq (w (ix2 r (0 : Fin 1))) (BitVec.ofNat 32 g.val)).setWidth 32) = _
  by_cases h : (w (ix2 r (0 : Fin 1))).toInt = (g.val : ℤ)
  · rw [if_pos h, Idealize.ShloMosaic.StableHlo.Predicate.cmpi_eq_iff.2 ((eq_ofNat_iff_toInt _ g).2 h)]
    exact sitofp_bit_one
  · rw [if_neg h, eq_zero_of_ne_one fun e =>
      h ((eq_ofNat_iff_toInt _ g).1 (Idealize.ShloMosaic.StableHlo.Predicate.cmpi_eq_iff.1 e))]
    exact sitofp_bit_zero

/-- The feature accumulator after a point: what it held plus, over the point's rows whose id is the accumulator's
    row, the sum of the rows' features. -/
theorem pay4_apply (x : Vec Ideal S2000x128 .f32) (w : Vec Ideal S2000x1 .i32) (s : Vec Ideal S32x128 .f32)
    (g : Fin 32) (d : Fin 128) :
    k3_pay4 (F := Ideal) x w s (ix2 g d)
      = s (ix2 g d) + ∑ r : Fin 2000, (if (w (ix2 r (0 : Fin 1))).toInt = (g.val : ℤ) then x (ix2 r d) else 0) := by
  unfold k3_pay4
  rw [shapeCast_self, addf_apply, Cert.LibMatProdT.matmul_zero_apply dot_S2000x32_S2000x128_S32x128_0_0_1_1_n_n rfl]
  refine congrArg (s (ix2 g d) + ·) (Finset.sum_congr rfl fun r _ => ?_)
  rw [onehot_apply, truncf_apply, shapeCast_self]
  by_cases h : (w (ix2 r (0 : Fin 1))).toInt = (g.val : ℤ)
  · rw [if_pos h, if_pos h, one_mul]
  · rw [if_neg h, if_neg h, zero_mul]

/-- The count accumulator after a point: what it held plus the number of the point's rows whose id is the
    accumulator's row. -/
theorem pay5_apply (w : Vec Ideal S2000x1 .i32) (s : Vec Ideal S32x1 .f32) (g : Fin 32) :
    k3_pay5 (F := Ideal) w s (ix2 g (0 : Fin 1))
      = s (ix2 g (0 : Fin 1)) + ∑ r : Fin 2000, (if (w (ix2 r (0 : Fin 1))).toInt = (g.val : ℤ) then (1 : EReal) else 0) := by
  unfold k3_pay5
  rw [shapeCast_self, addf_apply, Cert.LibMatProdT.matmul_zero_apply dot_S2000x32_S2000x1_S32x1_0_0_1_1_n_n rfl]
  refine congrArg (s (ix2 g (0 : Fin 1)) + ·) (Finset.sum_congr rfl fun r _ => ?_)
  rw [onehot_apply, broadcast_apply]
  show _ * Ideal.ofBits .bf16 0x3F80#16 = _
  rw [ofBits_one_bf16, mul_one]

/-- The pooled block: the sums over the counts held at least one. -/
theorem pay6_apply (a : Vec Ideal S32x128 .f32) (b : Vec Ideal S32x1 .f32) (g : Fin 32) (d : Fin 128) :
    k3_pay6 (F := Ideal) a b (ix2 g d) = Ideal.div (a (ix2 g d)) (max (b (ix2 g (0 : Fin 1))) 1) := by
  unfold k3_pay6
  rw [divf_apply,
    broadcastTo_apply _ _ (ix2 g d) (ix2 g (0 : Fin 1)) (fun a => by match a with | ⟨0, _⟩ => rfl | ⟨1, _⟩ => rfl),
    maximumf_apply, broadcast_apply]
  show Ideal.div _ (max _ (Ideal.ofBits .f32 0x3F800000#32)) = _
  rw [ofBits_one_f32]

/-- The logits' block: the pooled block times the transposed classifier weight, plus the bias. -/
theorem pay7_apply (a : Vec Ideal S32x128 .f32) (b : Vec Ideal S32x1 .f32) (cw : Vec Ideal S10x128 .f32)
    (cb : Vec Ideal S10 .f32) (g : Fin 32) (j : Fin 10) :
    k3_pay7 (F := Ideal) a b cw cb (ix2 g j)
      = (∑ d : Fin 128, k3_pay6 (F := Ideal) a b (ix2 g d) * cw (ix2 j d)) + cb (ix1 j) := by
  unfold k3_pay7
  dsimp only
  rw [addf_apply, Cert.LibMatProd.matmul_zero_apply dot_S32x128_S128x10_S32x10_1_0_0_1_n_n rfl]
  congr 1
  · refine Finset.sum_congr rfl fun d _ => ?_
    rw [truncf_apply,
      transpose_apply _ _ _ (ix2 d j) (ix2 j d) (fun b => by match b with | ⟨0, _⟩ => rfl | ⟨1, _⟩ => rfl),
      truncf_apply]
  · rw [broadcastTo_apply _ _ (ix2 g j) (ix2 (0 : Fin 1) j) (fun a => by match a with | ⟨0, _⟩ => rfl | ⟨1, _⟩ => rfl),
      shapeCast_addUnit_apply]
    exact congrArg cb (funext fun a => by match a with | ⟨0, _⟩ => rfl)

/-! ## The windows' blocks, read off the arrays -/

theorem N3 : cfg3.N = 25 := rfl

/-- The node window's block index at a point: the point's number along the rows, zero along the features. -/
theorem index3_0 : ∀ t : Fin cfg3.N, win3_0.index t 0 = t.val ∧ win3_0.index t 1 = 0 := by decide +kernel
/-- The id window's likewise. -/
theorem index3_1 : ∀ t : Fin cfg3.N, win3_1.index t 0 = t.val ∧ win3_1.index t 1 = 0 := by decide +kernel

/-- Row `m`, column `d` of the node array the region finds (zero past the array's end). -/
def hrow (c : Dev nD) (m : ℕ) (d : Fin 128) : EReal :=
  if hm : m < 50000 then V c main_v44 (ix2 ⟨m, hm⟩ d) else 0
/-- Row `m` of the id column the region finds. -/
def idrow (c : Dev nD) (m : ℕ) : BitVec 32 :=
  if hm : m < 50000 then V c main_v45 (ix2 ⟨m, hm⟩ (0 : Fin 1)) else 0

/-- The node block at point `n` reads rows `2000 n …` of the node array. -/
theorem iblk3_0_apply (c : Dev nD) (n : ℕ) (hn : n < cfg3.N) (r : Fin 2000) (d : Fin 128) :
    iblk3 (F := Ideal) V c 0 ⟨n, hn⟩ (ix2 r d) = hrow V c (2000 * n + r.val) d := by
  have hN := N3
  have hm : 2000 * n + r.val < 50000 := by have := r.isLt; omega
  unfold hrow iblk3
  rw [dif_pos hm, View.read_apply]
  show V c main_v44 _ = V c main_v44 _
  congr 1
  funext a
  apply Fin.ext
  match a with
  | ⟨0, _⟩ => show win3_0.index ⟨n, hn⟩ 0 * 2000 + 1 * r.val = 2000 * n + r.val; rw [show win3_0.index ⟨n, hn⟩ 0 = n from (index3_0 ⟨n, hn⟩).1]; omega
  | ⟨1, _⟩ => show win3_0.index ⟨n, hn⟩ 1 * 128 + 1 * d.val = d.val; rw [(index3_0 ⟨n, hn⟩).2]; omega

/-- The id block at point `n` reads rows `2000 n …` of the id column. -/
theorem iblk3_1_apply (c : Dev nD) (n : ℕ) (hn : n < cfg3.N) (r : Fin 2000) :
    iblk3 (F := Ideal) V c 1 ⟨n, hn⟩ (ix2 r (0 : Fin 1)) = idrow V c (2000 * n + r.val) := by
  have hN := N3
  have hm : 2000 * n + r.val < 50000 := by have := r.isLt; omega
  unfold idrow iblk3
  rw [dif_pos hm, View.read_apply]
  show V c main_v45 _ = V c main_v45 _
  congr 1
  funext a
  apply Fin.ext
  match a with
  | ⟨0, _⟩ => show win3_1.index ⟨n, hn⟩ 0 * 2000 + 1 * r.val = 2000 * n + r.val; rw [show win3_1.index ⟨n, hn⟩ 0 = n from (index3_1 ⟨n, hn⟩).1]; omega
  | ⟨1, _⟩ => show win3_1.index ⟨n, hn⟩ 1 * 1 + 1 * 0 = 0; rw [(index3_1 ⟨n, hn⟩).2]

/-! ## The accumulators after a point: the sums over the rows so far -/

/-- What row `m` adds to graph `g`'s feature sum at column `d`; -/
def fterm (c : Dev nD) (g : Fin 32) (d : Fin 128) (m : ℕ) : EReal :=
  if (idrow V c m).toInt = (g.val : ℤ) then hrow V c m d else 0
/-- and to its count. -/
def cterm (c : Dev nD) (g : Fin 32) (m : ℕ) : EReal :=
  if (idrow V c m).toInt = (g.val : ℤ) then 1 else 0

/-- The reset values are zero. -/
theorem pay1_apply (i : S32x128.Idx) : k3_pay1 (F := Ideal) i = 0 := by
  unfold k3_pay1
  rw [shapeCast_self, broadcast_apply]
  exact Ideal.ofBits_zero_f32
theorem pay2_apply (i : S32x1.Idx) : k3_pay2 (F := Ideal) i = 0 := by
  unfold k3_pay2
  rw [shapeCast_self, broadcast_apply]
  exact Ideal.ofBits_zero_f32

/-- A point's partial feature sums are the rows' terms over the point's 2000 rows; -/
theorem block_fsum (c : Dev nD) (g : Fin 32) (d : Fin 128) (n : ℕ) (x : Vec Ideal S2000x128 .f32) (w : Vec Ideal S2000x1 .i32)
    (hx : ∀ r : Fin 2000, x (ix2 r d) = hrow V c (2000 * n + r.val) d)
    (hw : ∀ r : Fin 2000, w (ix2 r (0 : Fin 1)) = idrow V c (2000 * n + r.val)) :
    (∑ r : Fin 2000, (if (w (ix2 r (0 : Fin 1))).toInt = (g.val : ℤ) then x (ix2 r d) else 0))
      = ∑ r ∈ Finset.range 2000, fterm V c g d (2000 * n + r) := by
  rw [Finset.sum_range]
  refine Finset.sum_congr rfl fun r _ => ?_
  rw [hx, hw]
  rfl
/-- its partial counts likewise. -/
theorem block_csum (c : Dev nD) (g : Fin 32) (n : ℕ) (w : Vec Ideal S2000x1 .i32)
    (hw : ∀ r : Fin 2000, w (ix2 r (0 : Fin 1)) = idrow V c (2000 * n + r.val)) :
    (∑ r : Fin 2000, (if (w (ix2 r (0 : Fin 1))).toInt = (g.val : ℤ) then (1 : EReal) else 0))
      = ∑ r ∈ Finset.range 2000, cterm V c g (2000 * n + r) := by
  rw [Finset.sum_range]
  refine Finset.sum_congr rfl fun r _ => ?_
  rw [hw]
  rfl

/-- After point `n` the feature accumulator holds the terms of the first `2000 (n + 1)` rows, summed. -/
theorem acc_fst (c : Dev nD) (g : Fin 32) (d : Fin 128) : ∀ (n : ℕ) (hn : n < cfg3.N),
    (accAt3 (F := Ideal) V c n hn).1 (ix2 g d) = ∑ m ∈ Finset.range (2000 * (n + 1)), fterm V c g d m
  | 0, hn => by
    rw [accAt3_zero]
    show k3_pay4 (F := Ideal) _ _ _ (ix2 g d) = _
    rw [pay4_apply, pay1_apply, zero_add,
      block_fsum V c g d 0 _ _ (fun r => iblk3_0_apply V c 0 hn r d) (fun r => iblk3_1_apply V c 0 hn r)]
    simp only [Nat.mul_zero, Nat.zero_add, Nat.mul_one]
  | n + 1, hn => by
    rw [accAt3_succ]
    show k3_pay4 (F := Ideal) _ _ _ (ix2 g d) = _
    rw [pay4_apply, acc_fst c g d n,
      block_fsum V c g d (n + 1) _ _ (fun r => iblk3_0_apply V c (n + 1) hn r d) (fun r => iblk3_1_apply V c (n + 1) hn r),
      show 2000 * (n + 1 + 1) = 2000 * (n + 1) + 2000 from by ring, Finset.sum_range_add]

/-- After point `n` the count accumulator holds the number of the first `2000 (n + 1)` rows of each graph. -/
theorem acc_snd (c : Dev nD) (g : Fin 32) : ∀ (n : ℕ) (hn : n < cfg3.N),
    (accAt3 (F := Ideal) V c n hn).2 (ix2 g (0 : Fin 1)) = ∑ m ∈ Finset.range (2000 * (n + 1)), cterm V c g m
  | 0, hn => by
    rw [accAt3_zero]
    show k3_pay5 (F := Ideal) _ _ (ix2 g (0 : Fin 1)) = _
    rw [pay5_apply, pay2_apply, zero_add, block_csum V c g 0 _ (fun r => iblk3_1_apply V c 0 hn r)]
    simp only [Nat.mul_zero, Nat.zero_add, Nat.mul_one]
  | n + 1, hn => by
    rw [accAt3_succ]
    show k3_pay5 (F := Ideal) _ _ (ix2 g (0 : Fin 1)) = _
    rw [pay5_apply, acc_snd c g n, block_csum V c g (n + 1) _ (fun r => iblk3_1_apply V c (n + 1) hn r),
      show 2000 * (n + 1 + 1) = 2000 * (n + 1) + 2000 from by ring, Finset.sum_range_add]

section Final

variable (c : Dev nD) (ids : SI.Idx → BitVec 32) (hids : ∀ n : Fin 50000, V c main_v45 (ixP n) = ids (ix1 n))
include hids

/-- The id column's row `n` is the graph id of node `n`. -/
theorem idrow_eq (n : Fin 50000) : idrow V c n.val = ids (ix1 n) := by
  unfold idrow
  rw [dif_pos n.isLt, ← hids n]
  exact congrArg (V c main_v45) (funext fun a => by match a with | ⟨0, _⟩ => rfl | ⟨1, _⟩ => rfl)

/-- After the last point the feature accumulator holds the per-graph feature sums; -/
theorem acc_fst_last (h : 24 < cfg3.N) (g : Fin 32) (d : Fin 128) :
    (accAt3 (F := Ideal) V c 24 h).1 (ix2 g d) = gsum (V c main_v44) ids g d := by
  rw [acc_fst, Finset.sum_range]
  unfold gsum
  refine Finset.sum_congr rfl fun n _ => ?_
  unfold fterm hrow
  rw [idrow_eq V c ids hids n, dif_pos n.isLt]
/-- the count accumulator the per-graph node counts. -/
theorem acc_snd_last (h : 24 < cfg3.N) (g : Fin 32) :
    (accAt3 (F := Ideal) V c 24 h).2 (ix2 g (0 : Fin 1)) = cnt ids g := by
  rw [acc_snd, Finset.sum_range]
  unfold cnt
  refine Finset.sum_congr rfl fun n _ => ?_
  unfold cterm
  rw [idrow_eq V c ids hids n]

end Final

/-! ## The outputs: stored at the last point, their blocks the whole arrays -/

/-- The two output windows' block index is zero at every point. -/
theorem index3_4 : ∀ t : Fin cfg3.N, win3_4.index t 0 = 0 ∧ win3_4.index t 1 = 0 := by decide +kernel
theorem index3_5 : ∀ t : Fin cfg3.N, win3_5.index t 0 = 0 ∧ win3_5.index t 1 = 0 := by decide +kernel
/-- The classifier's two windows' likewise. -/
theorem index3_2 : ∀ t : Fin cfg3.N, win3_2.index t 0 = 0 ∧ win3_2.index t 1 = 0 := by decide +kernel
theorem index3_3 : ∀ t : Fin cfg3.N, win3_3.index t 0 = 0 := by decide +kernel

/-- The classifier weight's block is the whole array; -/
theorem iblk3_2_eq (c : Dev nD) (t : Fin cfg3.N) : iblk3 (F := Ideal) V c 2 t = V c main_arg9 := by
  have hz : (fun a => win3_2.index t a * main_arg9.ty.shape.size a) = fun _ => 0 :=
    funext fun a => by
      match a with
      | ⟨0, _⟩ => show win3_2.index t 0 * 10 = 0; rw [(index3_2 t).1]
      | ⟨1, _⟩ => show win3_2.index t 1 * 128 = 0; rw [(index3_2 t).2]
  exact Memref.read_access_unit_zero (Elt Ideal) main_arg9 hz (fun a => by rw [congrFun hz a]; simp) (V c main_arg9)
/-- the bias's likewise. -/
theorem iblk3_3_eq (c : Dev nD) (t : Fin cfg3.N) : iblk3 (F := Ideal) V c 3 t = V c main_arg10 := by
  have hz : (fun a => win3_3.index t a * main_arg10.ty.shape.size a) = fun _ => 0 :=
    funext fun a => by
      match a with
      | ⟨0, _⟩ => show win3_3.index t 0 * 10 = 0; rw [index3_3 t]
  exact Memref.read_access_unit_zero (Elt Ideal) main_arg10 hz (fun a => by rw [congrFun hz a]; simp) (V c main_arg10)

/-- The last point. -/
abbrev tLast : Fin cfg3.N := ⟨24, by decide⟩

section Final

variable (c : Dev nD) (ids : SI.Idx → BitVec 32) (hids : ∀ n : Fin 50000, V c main_v45 (ixP n) = ids (ix1 n))
include hids

/-- What the last point stores in the pooled window: the mean rows. -/
theorem out3_5_last (t : Fin cfg3.N) (ht : t.val = 24) : out3_5 (F := Ideal) V c t = pooledG (V c main_v44) ids := by
  obtain rfl : t = tLast := Fin.ext ht
  funext i
  obtain ⟨g, d, rfl⟩ : ∃ g d, i = ix2 g d := ⟨i 0, i 1, eq_ix2 i⟩
  unfold out3_5
  rw [pay6_apply]
  show Ideal.div ((accAt3 (F := Ideal) V c 24 _).1 (ix2 g d)) (max ((accAt3 (F := Ideal) V c 24 _).2 (ix2 g (0 : Fin 1))) 1) = _
  rw [acc_fst_last V c ids hids, acc_snd_last V c ids hids]
  rfl

/-- What it stores in the logits' window: the classifier head on the mean rows. -/
theorem out3_4_last (t : Fin cfg3.N) (ht : t.val = 24) :
    out3_4 (F := Ideal) V c t = logitG (V c main_v44) ids (V c main_arg9) (V c main_arg10) := by
  have h5 := out3_5_last V c ids hids t ht
  funext i
  obtain ⟨g, j, rfl⟩ : ∃ g j, i = ix2 g j := ⟨i 0, i 1, eq_ix2 i⟩
  unfold out3_4
  rw [pay7_apply, iblk3_2_eq, iblk3_3_eq]
  show (∑ d : Fin 128, out3_5 (F := Ideal) V c t (ix2 g d) * _) + _ = _
  rw [h5]
  rfl

/-- The one write-back of the pooled window, at the last point, writes the mean rows. -/
theorem flushed3_5 (t : Fin cfg3.N) (hf : (cfg3.win 5).flush t = true) :
    (dat3 (F := Ideal) V c).flushed 5 t = ((cfg3.win 5).blk t).view.read (Elt Ideal) (pooledG (V c main_v44) ids) := by
  have hN := N3
  have h24 : t.val = 24 := by have := (flush3_5 t).mp hf; have := t.isLt; omega
  show (cfg3.win 5).cut (grid3.coords t) ((dat3 (F := Ideal) V c).after 5 t) = _
  rw [after3_5, out3_5_last V c ids hids t h24]
  have hz : (fun a => win3_5.index t a * main_v46_1.ty.shape.size a) = fun _ => 0 :=
    funext fun a => by
      match a with
      | ⟨0, _⟩ => show win3_5.index t 0 * 32 = 0; rw [(index3_5 t).1]
      | ⟨1, _⟩ => show win3_5.index t 1 * 128 = 0; rw [(index3_5 t).2]
  exact (Memref.read_access_unit_zero (Elt Ideal) main_v46_1 hz (fun a => by rw [congrFun hz a]; simp)
    (pooledG (V c main_v44) ids)).symm

/-- The one write-back of the logits' window writes the classifier head. -/
theorem flushed3_4 (t : Fin cfg3.N) (hf : (cfg3.win 4).flush t = true) :
    (dat3 (F := Ideal) V c).flushed 4 t
      = ((cfg3.win 4).blk t).view.read (Elt Ideal) (logitG (V c main_v44) ids (V c main_arg9) (V c main_arg10)) := by
  have hN := N3
  have h24 : t.val = 24 := by have := (flush3_4 t).mp hf; have := t.isLt; omega
  show (cfg3.win 4).cut (grid3.coords t) ((dat3 (F := Ideal) V c).after 4 t) = _
  rw [after3_4, out3_4_last V c ids hids t h24]
  have hz : (fun a => win3_4.index t a * main_v46_0.ty.shape.size a) = fun _ => 0 :=
    funext fun a => by
      match a with
      | ⟨0, _⟩ => show win3_4.index t 0 * 32 = 0; rw [(index3_4 t).1]
      | ⟨1, _⟩ => show win3_4.index t 1 * 10 = 0; rw [(index3_4 t).2]
  exact (Memref.read_access_unit_zero (Elt Ideal) main_v46_0 hz (fun a => by rw [congrFun hz a]; simp)
    (logitG (V c main_v44) ids (V c main_arg9) (V c main_arg10))).symm

/-- The pooled array after the region: the mean rows. -/
theorem final5 : (dat3 (F := Ideal) V c).arrAt 5 cfg3.N = pooledG (V c main_v44) ids :=
  (dat3 (F := Ideal) V c).arrAt_eq_of_cover 5 (pooledG (V c main_v44) ids) (flushed3_5 V c ids hids) fun i =>
    ⟨tLast, (flush3_5 tLast).mpr rfl, by
      show i ∈ ((View.whole main_v46_1).slice (win3_5.rect tLast)).set
      rw [View.set_slice_whole, Rect.mem_set_unit]
      intro a
      have h0 : (i 0 : ℕ) < 32 := (i 0).isLt
      have h1 : (i 1 : ℕ) < 128 := (i 1).isLt
      match a with
      | ⟨0, _⟩ =>
        show win3_5.index tLast 0 * win3_5.size 0 ≤ (i 0 : ℕ)
          ∧ (i 0 : ℕ) < win3_5.index tLast 0 * win3_5.size 0 + win3_5.xsize (grid3.coords tLast) 0
        rw [(index3_5 _).1, show win3_5.xsize (grid3.coords tLast) 0 = 32 from rfl]; omega
      | ⟨1, _⟩ =>
        show win3_5.index tLast 1 * win3_5.size 1 ≤ (i 1 : ℕ)
          ∧ (i 1 : ℕ) < win3_5.index tLast 1 * win3_5.size 1 + win3_5.xsize (grid3.coords tLast) 1
        rw [(index3_5 _).2, show win3_5.xsize (grid3.coords tLast) 1 = 128 from rfl]; omega⟩

/-- The logits' array after the region: the classifier head on the mean rows. -/
theorem final4 :
    (dat3 (F := Ideal) V c).arrAt 4 cfg3.N = logitG (V c main_v44) ids (V c main_arg9) (V c main_arg10) :=
  (dat3 (F := Ideal) V c).arrAt_eq_of_cover 4 (logitG (V c main_v44) ids (V c main_arg9) (V c main_arg10))
    (flushed3_4 V c ids hids) fun i =>
    ⟨tLast, (flush3_4 tLast).mpr rfl, by
      show i ∈ ((View.whole main_v46_0).slice (win3_4.rect tLast)).set
      rw [View.set_slice_whole, Rect.mem_set_unit]
      intro a
      have h0 : (i 0 : ℕ) < 32 := (i 0).isLt
      have h1 : (i 1 : ℕ) < 10 := (i 1).isLt
      match a with
      | ⟨0, _⟩ =>
        show win3_4.index tLast 0 * win3_4.size 0 ≤ (i 0 : ℕ)
          ∧ (i 0 : ℕ) < win3_4.index tLast 0 * win3_4.size 0 + win3_4.xsize (grid3.coords tLast) 0
        rw [(index3_4 _).1, show win3_4.xsize (grid3.coords tLast) 0 = 32 from rfl]; omega
      | ⟨1, _⟩ =>
        show win3_4.index tLast 1 * win3_4.size 1 ≤ (i 1 : ℕ)
          ∧ (i 1 : ℕ) < win3_4.index tLast 1 * win3_4.size 1 + win3_4.xsize (grid3.coords tLast) 1
        rw [(index3_4 _).2, show win3_4.xsize (grid3.coords tLast) 1 = 10 from rfl]; omega⟩

end Final

end Pool

/-! ## The region's two output arrays -/

section Export

variable (c : Dev nD) (ids : SI.Idx → BitVec 32) (hids : ∀ n : Fin 50000, V c main_v45 (ixP n) = ids (ix1 n))
include hids

/-- The pooled array after the region holds the mean row of every graph. -/
theorem pool_final5 : (dat3 (F := Ideal) V c).arrAt 5 cfg3.N = pooledG (V c main_v44) ids :=
  Pool.final5 V c ids hids

/-- The logits' array after the region holds the classifier head on the mean rows. -/
theorem pool_final4 :
    (dat3 (F := Ideal) V c).arrAt 4 cfg3.N = logitG (V c main_v44) ids (V c main_arg9) (V c main_arg10) :=
  Pool.final4 V c ids hids

end Export

end Cert.KernelIdeal.HandVal

end
-- ==== Proof.LibSegment.lean ====
/-
  General lemmas: the host's segment sum (a float scatter-add whose scatter indices are an [M, 1] column of row
  numbers), read at an index on the extended reals.

  A segment sum into `N` rows adds update `e` to row `i` exactly when the `e`-th start index, read as a signed integer,
  is `i`; an index outside `[0, N)` matches no row, so its update is dropped.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate

noncomputable section

open scoped BigOperators

namespace Cert.LibSegment

open Idealize.ShloMosaic Idealize.ShloMosaic.ValueIdx Idealize.ShloMosaic.StableHlo.Predicate

/-- The dimension numbers of a segment sum of scalars: operand [N], segment ids as an [M, 1] column, updates [M]. -/
def segDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a segment sum of rows: operand [N, C], segment ids as an [M, 1] column, updates [M, C]. -/
def segDims2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-! ## Scalars: operand [N], updates [M]

The operand's one axis is the start-indexed axis and is inserted (no window axis goes to it), so update `e` lands at
row `start`, the `e`-th entry of the index column read signed. -/

/-- The window's start on the operand's axis for update `e`: entry `e` of the index column, read signed. -/
theorem start1_0 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).start (ix1 e) idx 0 = (idx (ixP e)).toInt := by
  unfold ScatterDims.start
  rw [dif_pos (show (0 : Fin 1) ∈ (segDims1 N M wf).scatterDimsToOperandDims from List.mem_singleton.mpr rfl)]
  congr 2
  funext b
  match b with
  | ⟨0, _⟩ => rfl
  | ⟨1, _⟩ => rfl

/-- The operand's axis is inserted, so the window coordinate on it is zero. -/
theorem window1_0 {N M : Nat} (wf : ScatterDims.WF ⟨1, ![N]⟩ ⟨2, ![M, 1]⟩ ⟨1, ![M]⟩ [] [0] [0] 1)
    (j : (⟨1, ![M]⟩ : Shape).Idx) :
    (segDims1 N M wf).window j 0 = 0 := by
  unfold ScatterDims.window
  have h : (0 : Fin 1) ∉ (segDims1 N M wf).sKept :=
    (by decide : (0 : Fin 1) ∉ (List.finRange 1).filter (· ∉ ([0] : List (Fin 1))))
  rw [dif_neg h]

/-- Where update `e` lands: at the row its start index names when that lies in `[0, N)`, nowhere otherwise. -/
theorem resultIdx1 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).resultIdx? (ix1 e) idx =
      if h : 0 ≤ (idx (ixP e)).toInt ∧ (idx (ixP e)).toInt < (N : ℤ) then
        some (ix1 ⟨(idx (ixP e)).toInt.toNat, by omega⟩) else none := by
  have s0 := start1_0 wf idx e
  have w0 := window1_0 wf (ix1 e)
  unfold ScatterDims.resultIdx?
  by_cases h : 0 ≤ (idx (ixP e)).toInt ∧ (idx (ixP e)).toInt < (N : ℤ)
  · have hall : ∀ a, 0 ≤ (segDims1 N M wf).start (ix1 e) idx a + (segDims1 N M wf).window (ix1 e) a ∧
        (segDims1 N M wf).start (ix1 e) idx a + (segDims1 N M wf).window (ix1 e) a
          < ((⟨1, ![N]⟩ : Shape).size a : ℤ) := by
      refine Fin.forall_fin_one.2 ?_
      show 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ)
      rw [s0, w0]; omega
    rw [dif_pos h, dif_pos hall]
    congr 1
    funext a
    match a with
    | ⟨0, _⟩ =>
      refine Fin.ext ?_
      show ((segDims1 N M wf).start (ix1 e) idx 0 + ((segDims1 N M wf).window (ix1 e) 0 : ℕ)).toNat = _
      rw [s0, w0]; simp
  · rw [dif_neg h, dif_neg]
    intro hall
    apply h
    have h0 : 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ) := hall 0
    rw [s0, w0] at h0
    omega

/-- Update `e` lands on row `i` exactly when its start index, read signed, is `i`. -/
theorem resultIdx1_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (i : Fin N) :
    (segDims1 N M wf).resultIdx? (ix1 e) idx = some (ix1 i) ↔ (idx (ixP e)).toInt = (i.val : ℤ) := by
  rw [resultIdx1]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      omega
    · rw [dif_neg h] at hEq
      exact absurd hEq (by simp)
  · intro ht
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of scalars at row `i`: the operand's entry plus the updates whose segment id is `i`. -/
theorem scatterAdd_seg1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (segDims1 N M wf) x idx upd (ix1 i)
      = x (ix1 i) + ∑ e : Fin M, if (idx (ixP e)).toInt = (i.val : ℤ) then upd (ix1 e) else 0 := by
  unfold Ideal.hostScatterAdd
  congr 1
  -- the filtered sum as a sum of conditionals, re-indexed by the update's one coordinate
  rw [Finset.sum_filter, ← Equiv.sum_comp (idxEquiv1 (n := M)).symm]
  refine Finset.sum_congr rfl fun e _ => ?_
  show (if (segDims1 N M wf).resultIdx? (ix1 e) idx = some (ix1 i) then upd (ix1 e) else 0) = _
  simp only [resultIdx1_eq_some_iff]

/-! ## Rows: operand [N, C], updates [M, C]

Axis 0 of the operand is the start-indexed, inserted axis; axis 1 is the window axis, fed by the updates' axis 1. So
update `(e, c)` lands at row `start` (the `e`-th entry of the index column read signed), column `c`. -/

/-- The window's start on the row axis for update `(e, c)`: entry `e` of the index column, read signed. -/
theorem start2_0 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).start (ix2 e c) idx 0 = (idx (ixP e)).toInt := by
  unfold ScatterDims.start
  rw [dif_pos (show (0 : Fin 2) ∈ (segDims2 N M C wf).scatterDimsToOperandDims from List.mem_singleton.mpr rfl)]
  congr 2
  funext b
  match b with
  | ⟨0, _⟩ => rfl
  | ⟨1, _⟩ => rfl

/-- The column axis is not start-indexed: its window starts at zero. -/
theorem start2_1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (segDims2 N M C wf).start j idx 1 = 0 := by
  unfold ScatterDims.start
  have h : (1 : Fin 2) ∉ (segDims2 N M C wf).scatterDimsToOperandDims :=
    (by decide : (1 : Fin 2) ∉ ([0] : List (Fin 2)))
  rw [dif_neg h]

/-- The row axis is inserted, so the window coordinate on it is zero. -/
theorem window2_0 {N M C : Nat} (wf : ScatterDims.WF ⟨2, ![N, C]⟩ ⟨2, ![M, 1]⟩ ⟨2, ![M, C]⟩ [1] [0] [0] 1)
    (j : (⟨2, ![M, C]⟩ : Shape).Idx) :
    (segDims2 N M C wf).window j 0 = 0 := by
  unfold ScatterDims.window
  have h : (0 : Fin 2) ∉ (segDims2 N M C wf).sKept :=
    (by decide : (0 : Fin 2) ∉ (List.finRange 2).filter (· ∉ ([0] : List (Fin 2))))
  rw [dif_neg h]

/-- The window coordinate on the column axis is the update's own column. -/
theorem window2_1 {N M C : Nat} (wf : ScatterDims.WF ⟨2, ![N, C]⟩ ⟨2, ![M, 1]⟩ ⟨2, ![M, C]⟩ [1] [0] [0] 1)
    (e : Fin M) (c : Fin C) :
    (segDims2 N M C wf).window (ix2 e c) 1 = c.val := by
  unfold ScatterDims.window
  have h : (1 : Fin 2) ∈ (segDims2 N M C wf).sKept :=
    (by decide : (1 : Fin 2) ∈ (List.finRange 2).filter (· ∉ ([0] : List (Fin 2))))
  rw [dif_pos h]
  rfl

/-- Where update `(e, c)` lands: at the row its start index names, column `c`, when that row lies in `[0, N)`; nowhere
    otherwise. -/
theorem resultIdx2 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).resultIdx? (ix2 e c) idx =
      if h : 0 ≤ (idx (ixP e)).toInt ∧ (idx (ixP e)).toInt < (N : ℤ) then
        some (ix2 ⟨(idx (ixP e)).toInt.toNat, by omega⟩ c) else none := by
  have s0 := start2_0 wf idx e c
  have s1 := start2_1 wf idx (ix2 e c)
  have w0 := window2_0 wf (ix2 e c)
  have w1 := window2_1 wf e c
  unfold ScatterDims.resultIdx?
  by_cases h : 0 ≤ (idx (ixP e)).toInt ∧ (idx (ixP e)).toInt < (N : ℤ)
  · have hall : ∀ a, 0 ≤ (segDims2 N M C wf).start (ix2 e c) idx a + (segDims2 N M C wf).window (ix2 e c) a ∧
        (segDims2 N M C wf).start (ix2 e c) idx a + (segDims2 N M C wf).window (ix2 e c) a
          < ((⟨2, ![N, C]⟩ : Shape).size a : ℤ) := by
      refine Fin.forall_fin_two.2 ⟨?_, ?_⟩
      · show 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ)
        rw [s0, w0]; omega
      · show 0 ≤ (segDims2 N M C wf).start (ix2 e c) idx 1 + ((segDims2 N M C wf).window (ix2 e c) 1 : ℕ) ∧
          (segDims2 N M C wf).start (ix2 e c) idx 1 + ((segDims2 N M C wf).window (ix2 e c) 1 : ℕ) < (C : ℤ)
        rw [s1, w1]; have := c.isLt; omega
    rw [dif_pos h, dif_pos hall]
    congr 1
    funext a
    match a with
    | ⟨0, _⟩ =>
      refine Fin.ext ?_
      show ((segDims2 N M C wf).start (ix2 e c) idx 0 + ((segDims2 N M C wf).window (ix2 e c) 0 : ℕ)).toNat = _
      rw [s0, w0]; simp
    | ⟨1, _⟩ =>
      refine Fin.ext ?_
      show ((segDims2 N M C wf).start (ix2 e c) idx 1 + ((segDims2 N M C wf).window (ix2 e c) 1 : ℕ)).toNat = c.val
      rw [s1, w1]; simp
  · rw [dif_neg h, dif_neg]
    intro hall
    apply h
    have h0 : 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ) := hall 0
    rw [s0, w0] at h0
    omega

/-- Update `(e, c)` lands on `(i, l)` exactly when its start index, read signed, is `i` and its column is `l`. -/
theorem resultIdx2_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (i : Fin N) (l : Fin C) :
    (segDims2 N M C wf).resultIdx? (ix2 e c) idx = some (ix2 i l) ↔
      (idx (ixP e)).toInt = (i.val : ℤ) ∧ c = l := by
  rw [resultIdx2]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      have h1 : c = l := congrFun hf 1
      exact ⟨by omega, h1⟩
    · rw [dif_neg h] at hEq
      exact absurd hEq (by simp)
  · rintro ⟨ht, rfl⟩
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of rows at row `i`, column `l`: the operand's entry plus column `l` of the update rows whose
    segment id is `i`. -/
theorem scatterAdd_seg2_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (l : Fin C) :
    Ideal.hostScatterAdd (segDims2 N M C wf) x idx upd (ix2 i l)
      = x (ix2 i l) + ∑ e : Fin M, if (idx (ixP e)).toInt = (i.val : ℤ) then upd (ix2 e l) else 0 := by
  unfold Ideal.hostScatterAdd
  congr 1
  -- the filtered sum as a sum of conditionals over (row, column) of the updates
  rw [Finset.sum_filter, sum_idx2]
  refine Finset.sum_congr rfl fun e _ => ?_
  simp only [resultIdx2_eq_some_iff]
  -- for a fixed update row, only column `l` can match
  by_cases ht : (idx (ixP e)).toInt = (i.val : ℤ)
  · simp only [ht, true_and, if_true]
    rw [Finset.sum_ite_eq' Finset.univ l (fun c => upd (ix2 e c)), if_pos (Finset.mem_univ l)]
  · simp only [ht, false_and, if_false, Finset.sum_const_zero]

end Cert.LibSegment

end
-- ==== Proof.RefVal.lean ====
/-
  The reference's stages are the specification's functions, on the extended reals.

  Read at an index, the projection stage is a row of the nodes against a row of the weight plus the bias; each
  graph-convolution stage is the maximum with zero of the aggregated row against the relation weight, plus the bias,
  plus the previous row against the root weight; the pooled stage is the segment sum of the rows by graph id divided
  by the count of the rows held at least one; the last stage is the classifier head on the pooled rows. The
  reference transposes a weight and contracts its first axis; the specification reads the weight's row directly.
-/
import proofs.«408128_j26749056320117_1_alg».proof.Proof.Gen.ReferenceIdeal.Read
import proofs.«408128_j26749056320117_1_alg».proof.Proof.Spec
import proofs.«408128_j26749056320117_1_alg».proof.Proof.LibSegment
import Idealize.ShloMosaic.Lib.ValueIdx
import Idealize.ShloMosaic.Lib.Pipeline.Value
import Idealize.ShloMosaic.PureOps.Ideal.Laws

noncomputable section

open scoped BigOperators

namespace Cert.ReferenceIdeal.RefVal

open Cert.ReferenceIdeal Cert.ReferenceIdeal.Gen Cert.ReferenceIdeal.Read Cert.Spec
open Idealize.ShloMosaic Idealize.ShloMosaic.ValueIdx Idealize.ShloMosaic.StableHlo.Predicate

/-! ## The projection -/

/-- The projection stage is the specification's projection. -/
theorem v8_eq (x0 : (⟨S50000x128, .f32⟩ : BufTy).Contents (Elt Ideal)) (x4 : (⟨S128x128, .f32⟩ : BufTy).Contents (Elt Ideal))
    (x5 : (⟨S128, .f32⟩ : BufTy).Contents (Elt Ideal)) :
    val_main_v8 (F := Ideal) x0 x4 x5 = projG x0 x4 x5 := by
  funext i
  obtain ⟨n, j, rfl⟩ : ∃ (n : Fin 50000) (j : Fin 128), i = ix2 n j := ⟨i 0, i 1, eq_ix2 i⟩
  have e0 : ∀ k : Fin 128, lidx_main_v5 (ix2 n j) k = ix2 n k := fun k =>
    funext fun a => Fin.ext (by match a with | ⟨0, _⟩ => rfl | ⟨1, _⟩ => rfl)
  have e1 : ∀ k : Fin 128, idx_main_v4 (ridx_main_v5 (ix2 n j) k) = ix2 j k := fun k =>
    funext fun a => Fin.ext (by match a with | ⟨0, _⟩ => rfl | ⟨1, _⟩ => rfl)
  have e2 : idx_main_v6 (idx_main_v7 (ix2 n j)) = ix1 j :=
    funext fun a => Fin.ext (by match a with | ⟨0, _⟩ => rfl)
  rw [val_main_v8_apply, val_main_v5_apply, val_main_v7_apply, val_main_v6_apply]
  simp only [val_main_v4_apply, e0, e1, e2, Ideal.addf_def]
  rfl

/-! ## The two graph-convolution layers -/

/-- The first layer's stage is the specification's update of the first aggregated array and the projection. -/
theorem v36_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x4 : (⟨S128x128, .f32⟩ : BufTy).Contents (Elt Ideal))
    (x5 : (⟨S128, .f32⟩ : BufTy).Contents (Elt Ideal)) (x6 : (⟨S2x128x128, .f32⟩ : BufTy).Contents (Elt Ideal))
    (x7 : (⟨S2x128, .f32⟩ : BufTy).Contents (Elt Ideal)) (x8 : (⟨S2x128x128, .f32⟩ : BufTy).Contents (Elt Ideal)) :
    val_main_v36 (F := Ideal) x0 x1 x2 x4 x5 x6 x7 x8 =
      combG (val_main_v21 (F := Ideal) x0 x1 x2 x4 x5) (val_main_v8 (F := Ideal) x0 x4 x5)
        (val_main_v23 (F := Ideal) x6) (val_main_v27 (F := Ideal) x7) (val_main_v32 (F := Ideal) x8) := by
  funext i
  obtain ⟨n, j, rfl⟩ : ∃ (n : Fin 50000) (j : Fin 128), i = ix2 n j := ⟨i 0, i 1, eq_ix2 i⟩
  have e0 : ∀ k : Fin 128, lidx_main_v25 (ix2 n j) k = ix2 n k := fun k =>
    funext fun a => Fin.ext (by match a with | ⟨0, _⟩ => rfl | ⟨1, _⟩ => rfl)
  have e1 : ∀ k : Fin 128, idx_main_v24 (ridx_main_v25 (ix2 n j) k) = ix2 j k := fun k =>
    funext fun a => Fin.ext (by match a with | ⟨0, _⟩ => rfl | ⟨1, _⟩ => rfl)
  have e2 : idx_main_v28 (idx_main_v29 (ix2 n j)) = ix1 j :=
    funext fun a => Fin.ext (by match a with | ⟨0, _⟩ => rfl)
  have e3 : ∀ k : Fin 128, lidx_main_v34 (ix2 n j) k = ix2 n k := fun k =>
    funext fun a => Fin.ext (by match a with | ⟨0, _⟩ => rfl | ⟨1, _⟩ => rfl)
  have e4 : ∀ k : Fin 128, idx_main_v33 (ridx_main_v34 (ix2 n j) k) = ix2 j k := fun k =>
    funext fun a => Fin.ext (by match a with | ⟨0, _⟩ => rfl | ⟨1, _⟩ => rfl)
  rw [val_main_v36_apply, val_main_v35_apply, val_main_v30_apply, val_main_v25_apply, val_main_v29_apply,
    val_main_v28_apply, val_main_v34_apply, val_main_call0_v0_apply, val_main_call0_cst_apply]
  simp only [val_main_v24_apply, val_main_v33_apply, e0, e1, e2, e3, e4, Ideal.addf_def, Ideal.maximumf_def,
    Ideal.ofBits_def,
    Ideal.ofBits_zero_f32]
  generalize val_main_v21 (F := Ideal) x0 x1 x2 x4 x5 = a
  generalize val_main_v8 (F := Ideal) x0 x4 x5 = h
  generalize val_main_v23 (F := Ideal) x6 = rw
  generalize val_main_v27 (F := Ideal) x7 = rb
  generalize val_main_v32 (F := Ideal) x8 = tw
  rfl

/-- The second layer's stage is the specification's update of the second aggregated array and the first layer. -/
theorem v64_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x4 : (⟨S128x128, .f32⟩ : BufTy).Contents (Elt Ideal))
    (x5 : (⟨S128, .f32⟩ : BufTy).Contents (Elt Ideal)) (x6 : (⟨S2x128x128, .f32⟩ : BufTy).Contents (Elt Ideal))
    (x7 : (⟨S2x128, .f32⟩ : BufTy).Contents (Elt Ideal)) (x8 : (⟨S2x128x128, .f32⟩ : BufTy).Contents (Elt Ideal)) :
    val_main_v64 (F := Ideal) x0 x1 x2 x4 x5 x6 x7 x8 =
      combG (val_main_v49 (F := Ideal) x0 x1 x2 x4 x5 x6 x7 x8) (val_main_v36 (F := Ideal) x0 x1 x2 x4 x5 x6 x7 x8)
        (val_main_v51 (F := Ideal) x6) (val_main_v55 (F := Ideal) x7) (val_main_v60 (F := Ideal) x8) := by
  funext i
  obtain ⟨n, j, rfl⟩ : ∃ (n : Fin 50000) (j : Fin 128), i = ix2 n j := ⟨i 0, i 1, eq_ix2 i⟩
  have e0 : ∀ k : Fin 128, lidx_main_v53 (ix2 n j) k = ix2 n k := fun k =>
    funext fun a => Fin.ext (by match a with | ⟨0, _⟩ => rfl | ⟨1, _⟩ => rfl)
  have e1 : ∀ k : Fin 128, idx_main_v52 (ridx_main_v53 (ix2 n j) k) = ix2 j k := fun k =>
    funext fun a => Fin.ext (by match a with | ⟨0, _⟩ => rfl | ⟨1, _⟩ => rfl)
  have e2 : idx_main_v56 (idx_main_v57 (ix2 n j)) = ix1 j :=
    funext fun a => Fin.ext (by match a with | ⟨0, _⟩ => rfl)
  have e3 : ∀ k : Fin 128, lidx_main_v62 (ix2 n j) k = ix2 n k := fun k =>
    funext fun a => Fin.ext (by match a with | ⟨0, _⟩ => rfl | ⟨1, _⟩ => rfl)
  have e4 : ∀ k : Fin 128, idx_main_v61 (ridx_main_v62 (ix2 n j) k) = ix2 j k := fun k =>
    funext fun a => Fin.ext (by match a with | ⟨0, _⟩ => rfl | ⟨1, _⟩ => rfl)
  rw [val_main_v64_apply, val_main_v63_apply, val_main_v58_apply, val_main_v53_apply, val_main_v57_apply,
    val_main_v56_apply, val_main_v62_apply, val_main_call1_v0_apply, val_main_call1_cst_apply]
  simp only [val_main_v52_apply, val_main_v61_apply, e0, e1, e2, e3, e4, Ideal.addf_def, Ideal.maximumf_def,
    Ideal.ofBits_def,
    Ideal.ofBits_zero_f32]
  generalize val_main_v49 (F := Ideal) x0 x1 x2 x4 x5 x6 x7 x8 = a
  generalize val_main_v36 (F := Ideal) x0 x1 x2 x4 x5 x6 x7 x8 = h
  generalize val_main_v51 (F := Ideal) x6 = rw
  generalize val_main_v55 (F := Ideal) x7 = rb
  generalize val_main_v60 (F := Ideal) x8 = tw
  rfl

/-! ## The mean pool and the classifier head -/

/-- The pooled stage is the specification's mean rows: the segment sum of the rows by graph id over the count held
    at least one. -/
theorem v76_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S50000, .i32⟩ : BufTy).Contents (Elt Ideal))
    (x4 : (⟨S128x128, .f32⟩ : BufTy).Contents (Elt Ideal)) (x5 : (⟨S128, .f32⟩ : BufTy).Contents (Elt Ideal))
    (x6 : (⟨S2x128x128, .f32⟩ : BufTy).Contents (Elt Ideal)) (x7 : (⟨S2x128, .f32⟩ : BufTy).Contents (Elt Ideal))
    (x8 : (⟨S2x128x128, .f32⟩ : BufTy).Contents (Elt Ideal)) :
    val_main_v76 (F := Ideal) x0 x1 x2 x3 x4 x5 x6 x7 x8 =
      pooledG (val_main_v64 (F := Ideal) x0 x1 x2 x4 x5 x6 x7 x8) x3 := by
  funext i
  obtain ⟨s, d, rfl⟩ : ∃ (s : Fin 32) (d : Fin 128), i = ix2 s d := ⟨i 0, i 1, eq_ix2 i⟩
  have e0 : idx_main_v74 (idx_main_v75 (ix2 s d)) = ix1 s :=
    funext fun a => Fin.ext (by match a with | ⟨0, _⟩ => rfl)
  have e1 : ∀ e : Fin 50000, idx_main_v66 (ixP e) = ix1 e := fun e =>
    funext fun a => Fin.ext (by match a with | ⟨0, _⟩ => rfl)
  have e2 : ∀ e : Fin 50000, idx_main_v70 (ixP e) = ix1 e := fun e =>
    funext fun a => Fin.ext (by match a with | ⟨0, _⟩ => rfl)
  -- the two segment sums read at an index
  have hsum : val_main_v67 (F := Ideal) x0 x1 x2 x3 x4 x5 x6 x7 x8 (ix2 s d) =
      gsum (val_main_v64 (F := Ideal) x0 x1 x2 x4 x5 x6 x7 x8) x3 s d := by
    unfold val_main_v67
    generalize val_main_v64 (F := Ideal) x0 x1 x2 x4 x5 x6 x7 x8 = h
    show Ideal.hostScatterAdd
      (Cert.LibSegment.segDims2 32 50000 128 Facts₀.scatter_S32x128_S50000x1_S50000x128_1_0_0_1_wf)
      (val_main_v65 (F := Ideal)) (val_main_v66 (F := Ideal) x3) h (ix2 s d) = _
    rw [Cert.LibSegment.scatterAdd_seg2_apply, val_main_v65_apply, val_main_cst_4_apply]
    simp only [val_main_v66_apply, e1, Ideal.ofBits_def, Ideal.ofBits_zero_f32, zero_add]
    rfl
  have hcnt : val_main_v71 (F := Ideal) x3 (ix1 s) = cnt x3 s := by
    unfold val_main_v71
    show Ideal.hostScatterAdd (Cert.LibSegment.segDims1 32 50000 Facts₀.scatter_S32_S50000x1_S50000_n_0_0_1_wf)
      (val_main_v69 (F := Ideal)) (val_main_v70 (F := Ideal) x3) (val_main_v68 (F := Ideal)) (ix1 s) = _
    rw [Cert.LibSegment.scatterAdd_seg1_apply, val_main_v69_apply, val_main_cst_6_apply]
    simp only [val_main_v70_apply, val_main_v68_apply, val_main_cst_5_apply, e2, Ideal.ofBits_def,
      Ideal.ofBits_zero_f32, Spec.ofBits_one_f32, zero_add]
    rfl
  rw [val_main_v76_apply, val_main_v75_apply, val_main_v74_apply, e0]
  rw [val_main_v73_apply, val_main_v72_apply, val_main_cst_7_apply]
  rw [hsum, hcnt]
  simp only [Ideal.hostDivf_def, Ideal.maximumf_def, Ideal.ofBits_def, Spec.ofBits_one_f32]
  rfl

/-- The last stage is the specification's classifier head on the mean rows. -/
theorem v81_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S50000, .i32⟩ : BufTy).Contents (Elt Ideal))
    (x4 : (⟨S128x128, .f32⟩ : BufTy).Contents (Elt Ideal)) (x5 : (⟨S128, .f32⟩ : BufTy).Contents (Elt Ideal))
    (x6 : (⟨S2x128x128, .f32⟩ : BufTy).Contents (Elt Ideal)) (x7 : (⟨S2x128, .f32⟩ : BufTy).Contents (Elt Ideal))
    (x8 : (⟨S2x128x128, .f32⟩ : BufTy).Contents (Elt Ideal)) (x9 : (⟨S10x128, .f32⟩ : BufTy).Contents (Elt Ideal))
    (x10 : (⟨S10, .f32⟩ : BufTy).Contents (Elt Ideal)) :
    val_main_v81 (F := Ideal) x0 x1 x2 x3 x4 x5 x6 x7 x8 x9 x10 =
      logitG (val_main_v64 (F := Ideal) x0 x1 x2 x4 x5 x6 x7 x8) x3 x9 x10 := by
  funext i
  obtain ⟨s, j, rfl⟩ : ∃ (s : Fin 32) (j : Fin 10), i = ix2 s j := ⟨i 0, i 1, eq_ix2 i⟩
  have e0 : ∀ k : Fin 128, lidx_main_v78 (ix2 s j) k = ix2 s k := fun k =>
    funext fun a => Fin.ext (by match a with | ⟨0, _⟩ => rfl | ⟨1, _⟩ => rfl)
  have e1 : ∀ k : Fin 128, idx_main_v77 (ridx_main_v78 (ix2 s j) k) = ix2 j k := fun k =>
    funext fun a => Fin.ext (by match a with | ⟨0, _⟩ => rfl | ⟨1, _⟩ => rfl)
  have e2 : idx_main_v79 (idx_main_v80 (ix2 s j)) = ix1 j :=
    funext fun a => Fin.ext (by match a with | ⟨0, _⟩ => rfl)
  rw [val_main_v81_apply, val_main_v78_apply, val_main_v80_apply, val_main_v79_apply, v76_eq]
  simp only [val_main_v77_apply, e0, e1, e2, Ideal.addf_def]
  generalize val_main_v64 (F := Ideal) x0 x1 x2 x4 x5 x6 x7 x8 = h
  rfl

end Cert.ReferenceIdeal.RefVal

end
-- ==== Proof.Bridge.lean ====
/-
  The two programs end with equal results.

  Both compute, from the same arguments: the projected node features `H0 = x · proj_wᵀ + proj_b`; twice, the
  aggregation of the current features along the edges followed by the combine `max (agg · rel_wᵀ + rel_b + h · root_wᵀ) 0`
  (`H1`, `H2`); then the per-graph means of `H2`'s rows and the classifier head on them. The kernel's side reads each
  region's output array off the run as that function of what the region found, and each host stretch as the
  operations it applies; the reference's side reads its stages the same way. The aggregation is the same chain of host
  operations in both programs, carried as one function.
-/
import proofs.«408128_j26749056320117_1_alg».proof.Proof.KiRun
import proofs.«408128_j26749056320117_1_alg».proof.Proof.KvHost
import proofs.«408128_j26749056320117_1_alg».proof.Proof.KvProj
import proofs.«408128_j26749056320117_1_alg».proof.Proof.KvComb1
import proofs.«408128_j26749056320117_1_alg».proof.Proof.KvComb2
import proofs.«408128_j26749056320117_1_alg».proof.Proof.KvPool
import proofs.«408128_j26749056320117_1_alg».proof.Proof.RefVal
import proofs.«408128_j26749056320117_1_alg».proof.Proof.Spec

noncomputable section

namespace Cert.Bridge

open Idealize.ShloMosaic Idealize.ShloMosaic.TcCoe Idealize.SL.Sem Idealize.ShloMosaic.ValueIdx
open Idealize.ShloMosaic.StableHlo.Predicate (ixP)
open Cert.Spec Cert.KernelIdeal.HandHost

/-! ## The composed specification -/

section Composed

open Cert.KernelIdeal

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x4 : (⟨S128x128, .f32⟩ : BufTy).Contents (Elt Ideal))
  (x5 : (⟨S128, .f32⟩ : BufTy).Contents (Elt Ideal)) (x6 : (⟨S2x128x128, .f32⟩ : BufTy).Contents (Elt Ideal))
  (x7 : (⟨S2x128, .f32⟩ : BufTy).Contents (Elt Ideal)) (x8 : (⟨S2x128x128, .f32⟩ : BufTy).Contents (Elt Ideal))

/-- The projected node features. -/
def H0 : (⟨S50000x128, .f32⟩ : BufTy).Contents (Elt Ideal) := projG x0 x4 x5
/-- The features after the first layer. -/
def H1 : (⟨S50000x128, .f32⟩ : BufTy).Contents (Elt Ideal) :=
  combG (agg (F := Ideal) (H0 x0 x4 x5) (edgeRow 0 x1) (edgeRow 1 x1) x2) (H0 x0 x4 x5) (wSlice 0 x6) (bSlice 0 x7) (wSlice 0 x8)
/-- The features after the second layer. -/
def H2 : (⟨S50000x128, .f32⟩ : BufTy).Contents (Elt Ideal) :=
  combG (agg (F := Ideal) (H1 x0 x1 x2 x4 x5 x6 x7 x8) (edgeRow 0 x1) (edgeRow 1 x1) x2) (H1 x0 x1 x2 x4 x5 x6 x7 x8)
    (wSlice 1 x6) (bSlice 1 x7) (wSlice 1 x8)

end Composed

/-! ## The kernel's side -/

section Kernel

open Cert.KernelIdeal Cert.KernelIdeal.Gen Cert.KernelIdeal.Hand Cert.KernelIdeal.HandVal

variable (m : (ℓ : Loc nD τ sig) → Buf (Elt Ideal) ℓ) (ρ : Dev nD → PrngReg) (c : Dev nD)

/-- An argument array as launched. -/
abbrev arg (r : Ref sig .tc) : Buf (Elt Ideal) ((c : Thread nD τ).loc r) := m ((c : Thread nD τ).loc r)

theorem W1_arg (r : Ref sig .tc) (h : r ∉ hostOps0_W) : W1 m ρ c (Proc.devRef .tc r) = arg m c r :=
  (W1_of m ρ c r h).trans rfl
theorem W1_v1 : W1 m ρ c (Proc.devRef .tc main_v1) = edgeRow 0 (arg m c main_arg1) := host0_v1 (W0 m ρ c)
theorem W1_v3 : W1 m ρ c (Proc.devRef .tc main_v3) = edgeRow 1 (arg m c main_arg1) := host0_v3 (W0 m ρ c)

/-- What no region's output and no later stretch overwrites is carried through: from the first boundary to the second. -/
theorem W2_keep (r : Ref sig .tc) (hr : ∀ w, Pipeline.arrRef spec0 w ≠ r) : W2 m ρ c (Proc.devRef .tc r) = W1 m ρ c (Proc.devRef .tc r) :=
  W2_of_ne m ρ c r hr

theorem W2_v4 : W2 m ρ c (Proc.devRef .tc main_v4) = H0 (arg m c main_arg0) (arg m c main_arg4) (arg m c main_arg5) := by
  refine (W2_arr m ρ c 3).trans ((proj_final (V1 m ρ) c).trans ?_)
  show projG (W1 m ρ c (Proc.devRef .tc main_arg0)) (W1 m ρ c (Proc.devRef .tc main_arg4)) (W1 m ρ c (Proc.devRef .tc main_arg5)) = _
  rw [W1_arg m ρ c main_arg0 (by decide), W1_arg m ρ c main_arg4 (by decide), W1_arg m ρ c main_arg5 (by decide)]
  rfl

/-! ### What is carried from boundary to boundary -/

/-- A buffer no stretch writes and no region's windows name holds at every boundary what it held at the first. -/
theorem carried (r : Ref sig .tc) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W3 m ρ c (Proc.devRef .tc r) = W1 m ρ c (Proc.devRef .tc r)
    ∧ W5 m ρ c (Proc.devRef .tc r) = W1 m ρ c (Proc.devRef .tc r)
    ∧ W7 m ρ c (Proc.devRef .tc r) = W1 m ρ c (Proc.devRef .tc r) := by
  have e3 : W3 m ρ c (Proc.devRef .tc r) = W1 m ρ c (Proc.devRef .tc r) := (W3_of m ρ c r h1).trans (W2_of_ne m ρ c r a0)
  have e5 : W5 m ρ c (Proc.devRef .tc r) = W1 m ρ c (Proc.devRef .tc r) :=
    ((W5_of m ρ c r h2).trans (W4_of_ne m ρ c r a1)).trans e3
  exact ⟨e3, e5, ((W7_of m ρ c r h3).trans (W6_of_ne m ρ c r a2)).trans e5⟩

/-! ### The first layer -/

theorem W3_v17 : W3 m ρ c (Proc.devRef .tc main_v17)
    = agg (F := Ideal) (H0 (arg m c main_arg0) (arg m c main_arg4) (arg m c main_arg5)) (edgeRow 0 (arg m c main_arg1))
        (edgeRow 1 (arg m c main_arg1)) (arg m c main_arg2) := by
  refine (host1_v17 (W2 m ρ c)).trans ?_
  rw [W2_v4 m ρ c, W2_of_ne m ρ c main_v1 (by decide), W2_of_ne m ρ c main_v3 (by decide), W2_of_ne m ρ c main_arg2 (by decide),
    W1_v1 m ρ c, W1_v3 m ρ c, W1_arg m ρ c main_arg2 (by decide)]
theorem W3_v19 : W3 m ρ c (Proc.devRef .tc main_v19) = wSlice 0 (arg m c main_arg6) := by
  refine (host1_v19 (W2 m ρ c)).trans ?_
  rw [W2_of_ne m ρ c main_arg6 (by decide), W1_arg m ρ c main_arg6 (by decide)]
theorem W3_v21 : W3 m ρ c (Proc.devRef .tc main_v21) = bSlice 0 (arg m c main_arg7) := by
  refine (host1_v21 (W2 m ρ c)).trans ?_
  rw [W2_of_ne m ρ c main_arg7 (by decide), W1_arg m ρ c main_arg7 (by decide)]
theorem W3_v23 : W3 m ρ c (Proc.devRef .tc main_v23) = wSlice 0 (arg m c main_arg8) := by
  refine (host1_v23 (W2 m ρ c)).trans ?_
  rw [W2_of_ne m ρ c main_arg8 (by decide), W1_arg m ρ c main_arg8 (by decide)]
theorem W3_v4 : W3 m ρ c (Proc.devRef .tc main_v4) = H0 (arg m c main_arg0) (arg m c main_arg4) (arg m c main_arg5) :=
  (W3_of m ρ c main_v4 (by decide)).trans (W2_v4 m ρ c)

theorem W4_v24 : W4 m ρ c (Proc.devRef .tc main_v24)
    = H1 (arg m c main_arg0) (arg m c main_arg1) (arg m c main_arg2) (arg m c main_arg4) (arg m c main_arg5)
        (arg m c main_arg6) (arg m c main_arg7) (arg m c main_arg8) := by
  refine (W4_arr m ρ c 5).trans ((comb1_final (V3 m ρ) c).trans ?_)
  show combG (W3 m ρ c (Proc.devRef .tc main_v17)) (W3 m ρ c (Proc.devRef .tc main_v4)) (W3 m ρ c (Proc.devRef .tc main_v19))
    (W3 m ρ c (Proc.devRef .tc main_v21)) (W3 m ρ c (Proc.devRef .tc main_v23)) = _
  rw [W3_v17 m ρ c, W3_v4 m ρ c, W3_v19 m ρ c, W3_v21 m ρ c, W3_v23 m ρ c]
  rfl

/-! ### The second layer -/

theorem W5_v37 : W5 m ρ c (Proc.devRef .tc main_v37)
    = agg (F := Ideal) (H1 (arg m c main_arg0) (arg m c main_arg1) (arg m c main_arg2) (arg m c main_arg4) (arg m c main_arg5)
        (arg m c main_arg6) (arg m c main_arg7) (arg m c main_arg8)) (edgeRow 0 (arg m c main_arg1))
        (edgeRow 1 (arg m c main_arg1)) (arg m c main_arg2) := by
  refine (host2_v37 (W4 m ρ c)).trans ?_
  rw [W4_v24 m ρ c, W4_of_ne m ρ c main_v1 (by decide), W4_of_ne m ρ c main_v3 (by decide), W4_of_ne m ρ c main_arg2 (by decide),
    (carried m ρ c main_v1 (by decide) (by decide) (by decide) (by decide) (by decide) (by decide)).1,
    (carried m ρ c main_v3 (by decide) (by decide) (by decide) (by decide) (by decide) (by decide)).1,
    (carried m ρ c main_arg2 (by decide) (by decide) (by decide) (by decide) (by decide) (by decide)).1,
    W1_v1 m ρ c, W1_v3 m ρ c, W1_arg m ρ c main_arg2 (by decide)]
theorem W5_v39 : W5 m ρ c (Proc.devRef .tc main_v39) = wSlice 1 (arg m c main_arg6) := by
  refine (host2_v39 (W4 m ρ c)).trans ?_
  rw [W4_of_ne m ρ c main_arg6 (by decide), (carried m ρ c main_arg6 (by decide) (by decide) (by decide) (by decide) (by decide) (by decide)).1,
    W1_arg m ρ c main_arg6 (by decide)]
theorem W5_v41 : W5 m ρ c (Proc.devRef .tc main_v41) = bSlice 1 (arg m c main_arg7) := by
  refine (host2_v41 (W4 m ρ c)).trans ?_
  rw [W4_of_ne m ρ c main_arg7 (by decide), (carried m ρ c main_arg7 (by decide) (by decide) (by decide) (by decide) (by decide) (by decide)).1,
    W1_arg m ρ c main_arg7 (by decide)]
theorem W5_v43 : W5 m ρ c (Proc.devRef .tc main_v43) = wSlice 1 (arg m c main_arg8) := by
  refine (host2_v43 (W4 m ρ c)).trans ?_
  rw [W4_of_ne m ρ c main_arg8 (by decide), (carried m ρ c main_arg8 (by decide) (by decide) (by decide) (by decide) (by decide) (by decide)).1,
    W1_arg m ρ c main_arg8 (by decide)]
theorem W5_v24 : W5 m ρ c (Proc.devRef .tc main_v24)
    = H1 (arg m c main_arg0) (arg m c main_arg1) (arg m c main_arg2) (arg m c main_arg4) (arg m c main_arg5)
        (arg m c main_arg6) (arg m c main_arg7) (arg m c main_arg8) :=
  (W5_of m ρ c main_v24 (by decide)).trans (W4_v24 m ρ c)

theorem W6_v44 : W6 m ρ c (Proc.devRef .tc main_v44)
    = H2 (arg m c main_arg0) (arg m c main_arg1) (arg m c main_arg2) (arg m c main_arg4) (arg m c main_arg5)
        (arg m c main_arg6) (arg m c main_arg7) (arg m c main_arg8) := by
  refine (W6_arr m ρ c 5).trans ((comb2_final (V5 m ρ) c).trans ?_)
  show combG (W5 m ρ c (Proc.devRef .tc main_v37)) (W5 m ρ c (Proc.devRef .tc main_v24)) (W5 m ρ c (Proc.devRef .tc main_v39))
    (W5 m ρ c (Proc.devRef .tc main_v41)) (W5 m ρ c (Proc.devRef .tc main_v43)) = _
  rw [W5_v37 m ρ c, W5_v24 m ρ c, W5_v39 m ρ c, W5_v41 m ρ c, W5_v43 m ρ c]
  rfl

/-! ### The pool and the head -/

theorem W7_v44 : W7 m ρ c (Proc.devRef .tc main_v44)
    = H2 (arg m c main_arg0) (arg m c main_arg1) (arg m c main_arg2) (arg m c main_arg4) (arg m c main_arg5)
        (arg m c main_arg6) (arg m c main_arg7) (arg m c main_arg8) :=
  (W7_of m ρ c main_v44 (by decide)).trans (W6_v44 m ρ c)

/-- The graph ids reach the last call as a column whose entry `n` is the argument's entry `n`. -/
theorem W7_v45 (n : Fin 50000) : W7 m ρ c (Proc.devRef .tc main_v45) (ixP n) = arg m c main_arg3 (ix1 n) := by
  have h : W7 m ρ c (Proc.devRef .tc main_v45)
      = (shapeCast S50000x1 (arg m c main_arg3) shapeCasts_S50000_S50000x1 : (⟨S50000x1, .i32⟩ : BufTy).Contents (Elt Ideal)) := by
    refine (host3_v45 (W6 m ρ c)).trans ?_
    rw [W6_of_ne m ρ c main_arg3 (by decide), (carried m ρ c main_arg3 (by decide) (by decide) (by decide) (by decide) (by decide) (by decide)).2.1,
      W1_arg m ρ c main_arg3 (by decide)]
  rw [h]
  refine shapeCast_apply _ _ (ixP n) (ix1 n) ?_
  rw [Shape.rowMajor_val_one, Shape.rowMajor_val_two]
  show n.val = n.val * 1 + 0
  omega

theorem W7_arg9 : W7 m ρ c (Proc.devRef .tc main_arg9) = arg m c main_arg9 :=
  (carried m ρ c main_arg9 (by decide) (by decide) (by decide) (by decide) (by decide) (by decide)).2.2.trans (W1_arg m ρ c main_arg9 (by decide))
theorem W7_arg10 : W7 m ρ c (Proc.devRef .tc main_arg10) = arg m c main_arg10 :=
  (carried m ρ c main_arg10 (by decide) (by decide) (by decide) (by decide) (by decide) (by decide)).2.2.trans (W1_arg m ρ c main_arg10 (by decide))

/-- The pooled features the kernel's program ends with. -/
theorem W8_v46_1 : W8 m ρ c (Proc.devRef .tc main_v46_1)
    = pooledG (H2 (arg m c main_arg0) (arg m c main_arg1) (arg m c main_arg2) (arg m c main_arg4) (arg m c main_arg5)
        (arg m c main_arg6) (arg m c main_arg7) (arg m c main_arg8)) (arg m c main_arg3) := by
  refine (W8_arr m ρ c 5).trans ((pool_final5 (V7 m ρ) c (arg m c main_arg3) (W7_v45 m ρ c)).trans ?_)
  show pooledG (W7 m ρ c (Proc.devRef .tc main_v44)) _ = _
  rw [W7_v44 m ρ c]

/-- The logits the kernel's program ends with. -/
theorem W8_v46_0 : W8 m ρ c (Proc.devRef .tc main_v46_0)
    = logitG (H2 (arg m c main_arg0) (arg m c main_arg1) (arg m c main_arg2) (arg m c main_arg4) (arg m c main_arg5)
        (arg m c main_arg6) (arg m c main_arg7) (arg m c main_arg8)) (arg m c main_arg3) (arg m c main_arg9) (arg m c main_arg10) := by
  refine (W8_arr m ρ c 4).trans ((pool_final4 (V7 m ρ) c (arg m c main_arg3) (W7_v45 m ρ c)).trans ?_)
  show logitG (W7 m ρ c (Proc.devRef .tc main_v44)) _ (W7 m ρ c (Proc.devRef .tc main_arg9)) (W7 m ρ c (Proc.devRef .tc main_arg10)) = _
  rw [W7_v44 m ρ c, W7_arg9 m ρ c, W7_arg10 m ρ c]

end Kernel

/-! ## The reference's side -/

section Reference

open Cert.ReferenceIdeal Cert.ReferenceIdeal.Read Cert.ReferenceIdeal.RefVal

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S50000, .i32⟩ : BufTy).Contents (Elt Ideal))
  (x4 : (⟨S128x128, .f32⟩ : BufTy).Contents (Elt Ideal))
  (x5 : (⟨S128, .f32⟩ : BufTy).Contents (Elt Ideal)) (x6 : (⟨S2x128x128, .f32⟩ : BufTy).Contents (Elt Ideal))
  (x7 : (⟨S2x128, .f32⟩ : BufTy).Contents (Elt Ideal)) (x8 : (⟨S2x128x128, .f32⟩ : BufTy).Contents (Elt Ideal))
  (x9 : (⟨S10x128, .f32⟩ : BufTy).Contents (Elt Ideal)) (x10 : (⟨S10, .f32⟩ : BufTy).Contents (Elt Ideal))

theorem ref_h0 : val_main_v8 (F := Ideal) x0 x4 x5 = H0 x0 x4 x5 := v8_eq x0 x4 x5

theorem ref_h1 : val_main_v36 (F := Ideal) x0 x1 x2 x4 x5 x6 x7 x8 = H1 x0 x1 x2 x4 x5 x6 x7 x8 := by
  rw [v36_eq]
  show combG (agg (F := Ideal) (val_main_v8 (F := Ideal) x0 x4 x5) (edgeRow 0 x1) (edgeRow 1 x1) x2) (val_main_v8 (F := Ideal) x0 x4 x5)
    (wSlice 0 x6) (bSlice 0 x7) (wSlice 0 x8) = _
  rw [ref_h0]; rfl

theorem ref_h2 : val_main_v64 (F := Ideal) x0 x1 x2 x4 x5 x6 x7 x8 = H2 x0 x1 x2 x4 x5 x6 x7 x8 := by
  rw [v64_eq]
  show combG (agg (F := Ideal) (val_main_v36 (F := Ideal) x0 x1 x2 x4 x5 x6 x7 x8) (edgeRow 0 x1) (edgeRow 1 x1) x2)
    (val_main_v36 (F := Ideal) x0 x1 x2 x4 x5 x6 x7 x8) (wSlice 1 x6) (bSlice 1 x7) (wSlice 1 x8) = _
  rw [ref_h1]; rfl

theorem ref_pooled : val_main_v76 (F := Ideal) x0 x1 x2 x3 x4 x5 x6 x7 x8 = pooledG (H2 x0 x1 x2 x4 x5 x6 x7 x8) x3 := by
  rw [v76_eq, ref_h2]

theorem ref_logit : val_main_v81 (F := Ideal) x0 x1 x2 x3 x4 x5 x6 x7 x8 x9 x10 = logitG (H2 x0 x1 x2 x4 x5 x6 x7 x8) x3 x9 x10 := by
  rw [v81_eq, ref_h2]

end Reference

end Cert.Bridge

end
-- ==== Proof.lean ====
/-
  The certificate of a two-layer graph network's forward pass: the node projection, two rounds of edge aggregation and
  combine, the per-graph mean pool and the classifier head — four kernel regions among host stretches — against its
  reference in plain array operations.

  * The three frames. Each kernel program is run region by region (every region's pipeline discharged by its body's
    triple at a generic grid point; the last region carries two accumulators from point to point), every unscoped
    buffer read back at the end: the arguments are as launched. The reference's frame is its run with the results dropped.
  * `preserves`: the ideal pass rewrote nothing.
  * `algebraic`: on the extended reals both programs end with the same logits and pooled features, entry by entry —
    each region's output array is one whole-array function of what the region found (a row of the features against a row
    of the weight, summed; the pool as a sum over the nodes of each graph), the reference's stages are the same functions,
    and the edge aggregation is the same host chain in both, so equal inputs give equal outputs. No finiteness is used:
    the two sides are the same sums, only grouped by blocks on the kernel's side.
-/
import proofs.«408128_j26749056320117_1_alg».proof.Defs
import proofs.«408128_j26749056320117_1_alg».proof.Proof.Gen.Kernel
import proofs.«408128_j26749056320117_1_alg».proof.Proof.Gen.KernelIdeal
import proofs.«408128_j26749056320117_1_alg».proof.Proof.Gen.ReferenceIdeal
import proofs.«408128_j26749056320117_1_alg».proof.Proof.Gen.Pre_finite_inputs
import proofs.«408128_j26749056320117_1_alg».proof.Proof.Gen.ReferenceIdeal.Run
import proofs.«408128_j26749056320117_1_alg».proof.Proof.Gen.ReferenceIdeal.Read
import proofs.«408128_j26749056320117_1_alg».proof.Proof.KbRun
import proofs.«408128_j26749056320117_1_alg».proof.Proof.KiRun
import proofs.«408128_j26749056320117_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal Cert.KernelIdeal.Hand Cert.Bridge Cert.Spec in
theorem algebraic : Cert.algebraic_KernelIdeal_ReferenceIdeal := by
  intro m ρ m' ρ' _ hagree
  refine ⟨fun c => logitG (H2 (arg m c main_arg0) (arg m c main_arg1) (arg m c main_arg2) (arg m c main_arg4) (arg m c main_arg5) (arg m c main_arg6) (arg m c main_arg7) (arg m c main_arg8)) (arg m c main_arg3) (arg m c main_arg9) (arg m c main_arg10),
    fun c => pooledG (H2 (arg m c main_arg0) (arg m c main_arg1) (arg m c main_arg2) (arg m c main_arg4) (arg m c main_arg5) (arg m c main_arg6) (arg m c main_arg7) (arg m c main_arg8)) (arg m c main_arg3), ?_, ?_⟩
  · refine (θ_run Cert.KernelIdeal.defs _ _).mono (fun r h c => ?_) (run_all (F := Ideal) m ρ)
    exact ⟨(h c _ (mem_uc main_v46_0 (by decide))).trans (W8_v46_0 m ρ c),
      (h c _ (mem_uc main_v46_1 (by decide))).trans (W8_v46_1 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10⟩ := hagree c
      rw [Cert.ReferenceIdeal.Read.val_main_v81_eq, ref_logit, e0, e1, e2, e3, e4, e5, e6, e7, e8, e9, e10]
    · obtain ⟨e0, e1, e2, e3, e4, e5, e6, e7, e8, e9, e10⟩ := hagree c
      rw [Cert.ReferenceIdeal.Read.val_main_v76_eq, ref_pooled, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
